-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S32768x512 : Shape := ⟨2, ![32768, 512]⟩
abbrev S2048x1 : Shape := ⟨2, ![2048, 1]⟩
abbrev S10000x512 : Shape := ⟨2, ![10000, 512]⟩
abbrev S10000 : Shape := ⟨1, ![10000]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S10000x512 : S_.BroadcastsInDim S10000x512 (![] : Fin 0 → Fin S10000x512.rank)
  reducesTo_S10000x512_S_d0_1 : S10000x512.ReducesTo [0, 1] S_
  bcast_S_S10000 : S_.BroadcastsInDim S10000 (![] : Fin 0 → Fin S10000.rank)
  reducesTo_S10000_S_d0 : S10000.ReducesTo [0] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg2 : IVec S2048x1 32) (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  let main_c_6 : IVec S_ 32 := constantI S_ 32 0#32
  let main_v19 : IVec S2048x1 32 := broadcastInDim S2048x1 ![] bcast_S_S2048x1 main_c_6
  let main_v20 : IVec S2048x1 1 := cmpi .sge main_arg2 main_v19
  let main_c_7 : IVec S_ 32 := constantI S_ 32 10000#32
  let main_v21 : IVec S2048x1 32 := broadcastInDim S2048x1 ![] bcast_S_S2048x1 main_c_7
  let main_v22 : IVec S2048x1 1 := cmpi .slt main_arg2 main_v21
  let main_v23 : IVec S2048x1 1 := andi main_v20 main_v22
  let main_c_8 : IVec S_ 1 := constantI S_ 1 1#1
  let main_v24 : IVec S_ 1 := (fun x v => Host.reduce IntOp.andi x v reducesTo_S2048x1_S_d0_1 h_S_) main_v23 main_c_8
  let main_v25 : IVec S_ 1 := andi main_v18 main_v24
  main_v25

def fn {F : FTy → Type} [FloatOps F] (main_arg0 : FVec F S2048x512 .f32) (main_arg1 : FVec F S32768x512 .f32) (main_arg2 : IVec S2048x1 32) (main_arg3 : FVec F S10000x512 .f32) (main_arg4 : FVec F S10000 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S10000x512 .f32 := Host.absf main_arg3
  let main_cst_2 : FVec F S_ .f32 := constant S_ .f32 0x7F800000#32
  let main_v10 : FVec F S10000x512 .f32 := broadcastInDim S10000x512 ![] bcast_S_S10000x512 main_cst_2
  let main_v11 : IVec S10000x512 1 := cmpf .olt main_v9 main_v10
  let main_c_3 : IVec S_ 1 := constantI S_ 1 1#1
  let main_v12 : IVec S_ 1 := (fun x v => Host.reduce IntOp.andi x v reducesTo_S10000x512_S_d0_1 h_S_) main_v11 main_c_3
  let main_v13 : IVec S_ 1 := andi main_v8 main_v12
  let main_v14 : FVec F S10000 .f32 := Host.absf main_arg4
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_arg2 main_v13 main_v16
-- ==== Kernel.lean ====
abbrev S2048x512 : Shape := ⟨2, ![2048, 512]⟩
abbrev S32768x512 : Shape := ⟨2, ![32768, 512]⟩
abbrev S2048x1 : Shape := ⟨2, ![2048, 1]⟩
abbrev S10000x512 : Shape := ⟨2, ![10000, 512]⟩
abbrev S10000 : Shape := ⟨1, ![10000]⟩
abbrev S_ : Shape := ⟨0, ![]⟩
abbrev S10112x512 : Shape := ⟨2, ![10112, 512]⟩
abbrev S10112 : Shape := ⟨1, ![10112]⟩
abbrev S1x10112 : Shape := ⟨2, ![1, 10112]⟩
abbrev S1024x512 : Shape := ⟨2, ![1024, 512]⟩
abbrev S1024x1 : Shape := ⟨2, ![1024, 1]⟩
abbrev S1024x2048 : Shape := ⟨2, ![1024, 2048]⟩
abbrev S1024 : Shape := ⟨1, ![1024]⟩
abbrev S64x512 : Shape := ⟨2, ![64, 512]⟩
abbrev S64x1 : Shape := ⟨2, ![64, 1]⟩
abbrev S64x10112 : Shape := ⟨2, ![64, 10112]⟩
abbrev S64 : Shape := ⟨1, ![64]⟩

abbrev nBuf : Space → Nat
  | .hbm => 21
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S32768x512, .f32⟩
  | .hbm, ⟨2, _⟩ => ⟨S2048x1, .i32⟩
  | .hbm, ⟨3, _⟩ => ⟨S10000x512, .f32⟩
  | .hbm, ⟨4, _⟩ => ⟨S10000, .f32⟩
  | .hbm, ⟨5, _⟩ => ⟨S_, .i32⟩
  | .hbm, ⟨6, _⟩ => ⟨S_, .f32⟩
  | .hbm, ⟨7, _⟩ => ⟨S10112x512, .f32⟩
  | .hbm, ⟨8, _⟩ => ⟨S_, .i32⟩
  | .hbm, ⟨9, _⟩ => ⟨S_, .f32⟩
  | .hbm, ⟨10, _⟩ => ⟨S10112, .f32⟩
  | .hbm, ⟨11, _⟩ => ⟨S1x10112, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x1, .f32⟩
  | .local _ .vmem, ⟨7, _⟩ => ⟨S1024x1, .f32⟩
  | .local _ .vmem, ⟨8, _⟩ => ⟨S1024x512, .f32⟩
  | .local _ .vmem, ⟨9, _⟩ => ⟨S64x512, .f32⟩
  | .local _ .vmem, ⟨10, _⟩ => ⟨S64x512, .f32⟩
  | .local _ .vmem, ⟨11, _⟩ => ⟨S10112x512, .f32⟩
  | .local _ .vmem, ⟨12, _⟩ => ⟨S1x10112, .f32⟩
  | .local _ .vmem, ⟨13, _⟩ => ⟨S64x1, .i32⟩
  | .local _ .vmem, ⟨14, _⟩ => ⟨S64x1, .i32⟩
  | .local _ .vmem, ⟨15, _⟩ => ⟨S64x1, .f32⟩
  | .local _ .vmem, ⟨16, _⟩ => ⟨S64x1, .f32⟩
  | .local _ .vmem, ⟨17, _⟩ => ⟨S10112x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v39 : BitVec 1 := Scalar.cmpi .eq arg1 c15_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10112 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  pads_S10000x512_S10112x512_01120_000 : S10000x512.Pads (![0, 0] : Fin 2 → Nat) ![112, 0] ![0, 0] S10112x512
  h_S_ : 0 < S_.numel
  pads_S10000_S10112_01120 : S10000.Pads (![0] : Fin 1 → Nat) ![112] ![0] S10112
  shapeCasts_S10112_S1x10112 : S10112.ShapeCasts S1x10112
  bcast_S_S2048x512 : S_.BroadcastsInDim S2048x512 (![] : Fin 0 → Fin S2048x512.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x512 : S1024x1.Broadcasts S1024x512
  inb_S10112x512_S10112x512_0_0 : ∀ a, (![0, 0] : Fin 2 → Nat) a + S10112x512.size a ≤ S10112x512.size a
  h_S10112x512 : 0 < S10112x512.numel
  shapeCasts_S10112x512_S10112x512 : S10112x512.ShapeCasts S10112x512
  packedbf16_S10112x512_S10112x512_0_0 : (Rect.unit (s := S10112x512) ![0, 0] S10112x512.size inb_S10112x512_S10112x512_0_0).PackedRows (EltTy.packing .bf16)
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x10112_S1x10112_0_0 : ∀ a, (![0, 0] : Fin 2 → Nat) a + S1x10112.size a ≤ S1x10112.size a
  h_S1x10112 : 0 < S1x10112.numel
  shapeCasts_S1x10112_S1x10112 : S1x10112.ShapeCasts S1x10112
  broadcasts_S1x10112_S64x10112 : S1x10112.Broadcasts S64x10112
  iota_S64x10112_d1_w32 : S64x10112.Iotas .tc 32 [1]
  reduces_S64x10112_S64 : S64x10112.Reduces [1] S64
  shapeCasts_S64_S64x1 : S64.ShapeCasts S64x1
  broadcasts_S64x1_S64x10112 : S64x1.Broadcasts S64x10112
  inb_S64x1_S64x1_0_0 : ∀ a, (![0, 0] : Fin 2 → Nat) a + S64x1.size a ≤ S64x1.size a
  h_S64x1 : 0 < S64x1.numel
  reducesTo_S2048x1_S_d0_1 : S2048x1.ReducesTo [0, 1] S_
  dot_S1024x512_S2048x512_S1024x2048_1_1_0_0_n_n_wf : DotDims.WF S1024x512 S2048x512 S1024x2048 [1] [1] [0] [0] [] []
  dot_S1024x2048_S2048x512_S1024x512_1_0_0_1_n_n_wf : DotDims.WF S1024x2048 S2048x512 S1024x512 [1] [0] [0] [1] [] []
  dot_S64x512_S10112x512_S64x10112_1_1_0_0_n_n_wf : DotDims.WF S64x512 S10112x512 S64x10112 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .f32 = 32 ∨ (Rect.block (s := S2048x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S2048x512.size a
  hwx0_2 : ∀ i : grid0.Coords, EltTy.bits .f32 = 32 ∨ (Rect.block (s := S2048x512) S1024x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S2048x512.size a
  hwx1_0 : ∀ i : grid1.Coords, EltTy.bits .f32 = 32 ∨ (Rect.block (s := S2048x512) S64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10112x512.size a ≤ S10112x512.size a
  hwx1_1 : ∀ i : grid1.Coords, EltTy.bits .f32 = 32 ∨ (Rect.block (s := S10112x512) S10112x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10112.size a ≤ S1x10112.size a
  hwx1_2 : ∀ i : grid1.Coords, EltTy.bits .f32 = 32 ∨ (Rect.block (s := S1x10112) S1x10112.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S2048x1.size a
  hwx1_3 : ∀ i : grid1.Coords, EltTy.bits .i32 = 32 ∨ (Rect.block (s := S2048x1) S64x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S2048x1.size a
  hwx1_4 : ∀ i : grid1.Coords, EltTy.bits .f32 = 32 ∨ (Rect.block (s := S2048x1) S64x1.size (cc1_transform_4 i) (hinb1_4 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S64x512_S10112x512_S64x10112_1_1_0_0_n_n : DotDims S64x512 S10112x512 S64x10112 where
  lhsContracting := [1]
  rhsContracting := [1]
  lhsNonContracting := [0]
  rhsNonContracting := [0]
  lhsBatch := []
  rhsBatch := []
  wf := dot_S64x512_S10112x512_S64x10112_1_1_0_0_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10112x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x10112.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S64x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x512 : Shape := ⟨2, ![2048, 512]⟩
abbrev S32768x512 : Shape := ⟨2, ![32768, 512]⟩
abbrev S2048x1 : Shape := ⟨2, ![2048, 1]⟩
abbrev S10000x512 : Shape := ⟨2, ![10000, 512]⟩
abbrev S10000 : Shape := ⟨1, ![10000]⟩
abbrev S2048x32768 : Shape := ⟨2, ![2048, 32768]⟩
abbrev S_ : Shape := ⟨0, ![]⟩
abbrev S2048 : Shape := ⟨1, ![2048]⟩
abbrev S2048x10000 : Shape := ⟨2, ![2048, 10000]⟩
abbrev S1x10000 : Shape := ⟨2, ![1, 10000]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S32768x512, .f32⟩
  | .hbm, ⟨2, _⟩ => ⟨S2048x1, .i32⟩
  | .hbm, ⟨3, _⟩ => ⟨S10000x512, .f32⟩
  | .hbm, ⟨4, _⟩ => ⟨S10000, .f32⟩
  | .hbm, ⟨5, _⟩ => ⟨S2048x32768, .f32⟩
  | .hbm, ⟨6, _⟩ => ⟨S_, .f32⟩
  | .hbm, ⟨7, _⟩ => ⟨S2048x32768, .f32⟩
  | .hbm, ⟨8, _⟩ => ⟨S2048x32768, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048x1, .f32⟩
  | .hbm, ⟨15, _⟩ => ⟨S2048x32768, .f32⟩
  | .hbm, ⟨16, _⟩ => ⟨S2048x32768, .f32⟩
  | .hbm, ⟨17, _⟩ => ⟨S2048x32768, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x32768, .f32⟩
  | .hbm, ⟨22, _⟩ => ⟨S2048x32768, .f32⟩
  | .hbm, ⟨23, _⟩ => ⟨S2048x512, .f32⟩
  | .hbm, ⟨24, _⟩ => ⟨S2048x10000, .f32⟩
  | .hbm, ⟨25, _⟩ => ⟨S1x10000, .f32⟩
  | .hbm, ⟨26, _⟩ => ⟨S2048x10000, .f32⟩
  | .hbm, ⟨27, _⟩ => ⟨S2048x10000, .f32⟩
  | .hbm, ⟨28, _⟩ => ⟨S2048, .i32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048x1, .f32⟩
  | .hbm, ⟨35, _⟩ => ⟨S2048x10000, .f32⟩
  | .hbm, ⟨36, _⟩ => ⟨S2048x10000, .f32⟩
  | .hbm, ⟨37, _⟩ => ⟨S2048x10000, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1, .f32⟩
  | .hbm, ⟨42, _⟩ => ⟨S2048x10000, .f32⟩
  | .hbm, ⟨43, _⟩ => ⟨S2048x10000, .f32⟩
  | .hbm, ⟨44, _⟩ => ⟨S2048x1, .i32⟩
  | .hbm, ⟨45, _⟩ => ⟨S_, .i32⟩
  | .hbm, ⟨46, _⟩ => ⟨S2048x1, .i32⟩
  | .hbm, ⟨47, _⟩ => ⟨S2048x1, .i1⟩
  | .hbm, ⟨48, _⟩ => ⟨S_, .i32⟩
  | .hbm, ⟨49, _⟩ => ⟨S2048x1, .i32⟩
  | .hbm, ⟨50, _⟩ => ⟨S2048x1, .i32⟩
  | .hbm, ⟨51, _⟩ => ⟨S2048x1, .i32⟩
  | .hbm, ⟨52, _⟩ => ⟨S2048x1x1, .i32⟩
  | .hbm, ⟨53, _⟩ => ⟨S1, .i32⟩
  | .hbm, ⟨54, _⟩ => ⟨S_, .i32⟩
  | .hbm, ⟨55, _⟩ => ⟨S2048x1x1, .i32⟩
  | .hbm, ⟨56, _⟩ => ⟨S2048x1x1, .i1⟩
  | .hbm, ⟨57, _⟩ => ⟨S1x1x1, .i32⟩
  | .hbm, ⟨58, _⟩ => ⟨S2048x1x1, .i32⟩
  | .hbm, ⟨59, _⟩ => ⟨S2048x1x1, .i1⟩
  | .hbm, ⟨60, _⟩ => ⟨S2048x1x1, .i1⟩
  | .hbm, ⟨61, _⟩ => ⟨S_, .i1⟩
  | .hbm, ⟨62, _⟩ => ⟨S2048x1, .i1⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S2048, .f32⟩
  | .hbm, ⟨68, _⟩ => ⟨S2048, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_call0_cst_0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_cst_1 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_v20 : Ref sig .tc := ⟨.hbm, 43, rfl⟩
abbrev main_v21 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_3 : Ref sig .tc := ⟨.hbm, 69, rfl⟩
abbrev main_v25 : Ref sig .tc := ⟨.hbm, 70, rfl⟩
abbrev main_cst_4 : Ref sig .tc := ⟨.hbm, 71, rfl⟩
abbrev main_v26 : Ref sig .tc := ⟨.hbm, 72, rfl⟩

abbrev nD : Nat := 1
abbrev τ : Topo := Topo.v7x

variable {F : FTy → Type} [FloatOps F]

class Facts₀ : Prop where
  bcast_S_S2048x32768 : S_.BroadcastsInDim S2048x32768 (![] : Fin 0 → Fin S2048x32768.rank)
  reducesTo_S2048x32768_S2048_d1 : S2048x32768.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32768_0_1 : S2048x1.BroadcastsInDim S2048x32768 (![0, 1] : Fin 2 → Fin S2048x32768.rank)
  bcast_S10000_S1x10000_1 : S10000.BroadcastsInDim S1x10000 (![1] : Fin 1 → Fin S1x10000.rank)
  bcast_S1x10000_S2048x10000_0_1 : S1x10000.BroadcastsInDim S2048x10000 (![0, 1] : Fin 2 → Fin S2048x10000.rank)
  shapeCasts_S2048x1_S2048 : S2048x1.ShapeCasts S2048
  reducesTo_S2048x10000_S2048_d1 : S2048x10000.ReducesTo [1] S2048
  bcast_S2048x1_S2048x10000_0_1 : S2048x1.BroadcastsInDim S2048x10000 (![0, 1] : Fin 2 → Fin S2048x10000.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  reducesTo_S2048_S_d0 : S2048.ReducesTo [0] S_
  dot_S2048x512_S32768x512_S2048x32768_1_1_0_0_n_n_wf : DotDims.WF S2048x512 S32768x512 S2048x32768 [1] [1] [0] [0] [] []
  dot_S2048x32768_S32768x512_S2048x512_1_0_0_1_n_n_wf : DotDims.WF S2048x32768 S32768x512 S2048x512 [1] [0] [0] [1] [] []
  dot_S2048x512_S10000x512_S2048x10000_1_1_0_0_n_n_wf : DotDims.WF S2048x512 S10000x512 S2048x10000 [1] [1] [0] [0] [] []
  gather_S2048x10000_S2048x1x1_S2048x1_n_1_0_0_1_2_11_wf : GatherDims.WF S2048x10000 S2048x1x1 S2048x1 [] [1] [0] [1] [0] 2 ![1, 1]

variable [Facts₀]

def dot_S2048x512_S32768x512_S2048x32768_1_1_0_0_n_n : DotDims S2048x512 S32768x512 S2048x32768 where
  lhsContracting := [1]
  rhsContracting := [1]
  lhsNonContracting := [0]
  rhsNonContracting := [0]
  lhsBatch := []
  rhsBatch := []
  wf := dot_S2048x512_S32768x512_S2048x32768_1_1_0_0_n_n_wf
def dot_S2048x32768_S32768x512_S2048x512_1_0_0_1_n_n : DotDims S2048x32768 S32768x512 S2048x512 where
  lhsContracting := [1]
  rhsContracting := [0]
  lhsNonContracting := [0]
  rhsNonContracting := [1]
  lhsBatch := []
  rhsBatch := []
  wf := dot_S2048x32768_S32768x512_S2048x512_1_0_0_1_n_n_wf
def dot_S2048x512_S10000x512_S2048x10000_1_1_0_0_n_n : DotDims S2048x512 S10000x512 S2048x10000 where
  lhsContracting := [1]
  rhsContracting := [1]
  lhsNonContracting := [0]
  rhsNonContracting := [0]
  lhsBatch := []
  rhsBatch := []
  wf := dot_S2048x512_S10000x512_S2048x10000_1_1_0_0_n_n_wf
def gather_S2048x10000_S2048x1x1_S2048x1_n_1_0_0_1_2_11 : GatherDims S2048x10000 S2048x1x1 S2048x1 where
  offsetDims := []
  collapsedSliceDims := [1]
  operandBatchingDims := [0]
  startIndicesBatchingDims := [0]
  startIndexMap := [1]
  indexVectorDim := 2
  sliceSizes := ![1, 1]
  wf := gather_S2048x10000_S2048x1x1_S2048x1_n_1_0_0_1_2_11_wf

class Facts : Prop extends Facts₀ where

variable [Facts]
-- ==== Proof.Ideal.R0Base.lean ====
/- Region 0 (the attention read-out): what its three cases' runs share — each window's block at a point, the
   body's two branch conditions in closed form over the grid, where the output window is idle, the staging and
   scratch memrefs, and the region invariant with the three carried scratch buffers named. Everything is stated at
   a parameter `V`, the buffer contents when the region is entered. -/
import proofs.«425831_j18433999634698_3_alg».proof.Proof.Gen.KernelIdeal.Launch
import proofs.«425831_j18433999634698_3_alg».proof.Proof.Gen.KernelIdeal.Skeleton
import proofs.«425831_j18433999634698_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the query tile) holds its block at every point, fetched there or not: unfetched, its block
    index has not moved. For any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the key tile) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the reset of the running maximum, sum and accumulator), from the
    grid coordinates: the key-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second `scf.if` (the normalised read-out is stored): the key-tile coordinate is 15. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- On the first key tile the output window is idle and not written back. -/
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
/-- On a middle key tile likewise. -/
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
/-- On the last key tile the output window is live: the body stores the whole block. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x512 .f32 := (Memref.whole cc0_stg2_0 : Memref sig .tc .vmem S1024x512 .f32).view
/-- Each window's current staging memref at point `t`, as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
/-- The scratch operands (running maximum, running sum, accumulator): whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x512 .f32 := Memref.whole cc0_scratch2
/-- The same as views: what each holds is stated through them. -/
abbrev VS0_0 : View sig .tc .vmem S1024x1 .f32 := scM0_0.view
abbrev VS0_1 : View sig .tc .vmem S1024x1 .f32 := scM0_1.view
abbrev VS0_2 : View sig .tc .vmem S1024x512 .f32 := scM0_2.view

/-! ## The region invariant with the scratch operands named -/

/-- The core's scoped buffers that are neither a staging buffer nor a scratch operand of this call (they are the
    other call's), each whole at some contents: the body never touches them. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region invariant of the class with the three scratch operands as memrefs owned at some contents: what the
    body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ restS0 (F := F) c) ∗ (∃ r, prngReg c r)) := by
  unfold Pipeline.ΦA restS0; rw [scopedRest0_eq]; simp only [scM0_0, scM0_1, scM0_2, owns_whole]; try rfl

end Cert.KernelIdeal.Hand

end
-- ==== Proof.Ideal.R0RunA.lean ====
/- Region 0, case A (the first key tile of a query tile: the reset branch taken, the read-out branch not): the
   whole-body run. The pieces each scratch buffer ends with are found by the run. -/
import proofs.«425831_j18433999634698_3_alg».proof.Proof.Ideal.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- On the first key tile: on whole memrefs — the two inputs' at their contents, the output's (idle here) at contents
    handed back untouched, the three scratch buffers at anything — the body runs to the continuation holding the
    inputs and the output as they were and each scratch buffer with its pieces written (the reset value, then the
    update computed from it). -/
noncomputable def kernelRun0_A (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) :
    Σ' (L2 : List (View.Piece (Elt F) S1024x512 .f32)) (LS0 : List (View.Piece (Elt F) S1024x1 .f32)) (LS1 : List (View.Piece (Elt F) S1024x1 .f32)), { LS2 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨[], ?_, ?_, ?_, fun xi2 E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.Ideal.R0RunB.lean ====
/- Region 0, case B (a middle key tile: neither branch taken): the whole-body run. -/
import proofs.«425831_j18433999634698_3_alg».proof.Proof.Ideal.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- On a middle key tile: the inputs' memrefs at their contents, the output's (idle here) handed back untouched, the
    three scratch buffers at what the point before left; each scratch buffer ends with its update written. -/
noncomputable def kernelRun0_B (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) :
    Σ' (L2 : List (View.Piece (Elt F) S1024x512 .f32)) (LS0 : List (View.Piece (Elt F) S1024x1 .f32)) (LS1 : List (View.Piece (Elt F) S1024x1 .f32)), { LS2 : List (View.Piece (Elt F) S1024x512 .f32) //
      ∀ (xi2 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨[], ?_, ?_, ?_, fun xi2 E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Hand

end
-- ==== Proof.Ideal.R0RunC.lean ====
/- Region 0, case C (the last key tile: the reset branch not taken, the read-out branch taken): the whole-body
   run. -/
import proofs.«425831_j18433999634698_3_alg».proof.Proof.Ideal.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- On the last key tile: the inputs' memrefs at their contents, the output's at anything, the three scratch buffers
    at what the point before left; each scratch buffer ends with its update written and the output's with the
    normalised accumulator. -/
noncomputable def kernelRun0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) :
    Σ' (L2 : List (View.Piece (Elt F) S1024x512 .f32)) (LS0 : List (View.Piece (Elt F) S1024x1 .f32)) (LS1 : List (View.Piece (Elt F) S1024x1 .f32)), { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__flash_kernel i arg2 harg2 arg3 harg3 arg4 harg4 arg5 harg5 arg6 harg6 arg7 harg7) K } := by
  refine ⟨?_, ?_, ?_, ?_, fun E K => ?run⟩
  case run =>
    simp only [cc0__flash_kernel_eq_skeleton]; unfold cc0__flash_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Hand

end
-- ==== Proof.Ideal.R0Frame.lean ====
/- Region 0 (the attention read-out), the class-R half at a parameter `V`: what each case leaves in the output block
   and in the three carried scratch buffers (covers, contents), the accumulation point by point, the region invariant
   carrying the scratch contents, the proof data, the body obligation, and the points' contents over the payloads. -/
import proofs.«425831_j18433999634698_3_alg».proof.Proof.Ideal.R0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What each case leaves -/

/-! ### Case A: the first key tile -/

/-- On the first key tile nothing is stored into the output block (the window is idle there and not written back): no
    pieces, a placeholder nothing consults. -/
def out0_A_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) : Vec F S1024x512 .f32 :=
  VO0_2.read (Elt F) (VO0_2.writes (Elt F) VO0_2.junk (kernelRun0_A c i arg2 harg2 arg3 harg3 arg4 harg4 arg5 harg5 arg6 harg6 arg7 harg7 hc0 hc1 x0 x1).1)

/-- On the first key tile the pieces stored into the running maximum's buffer cover it. -/
theorem scover0_A_0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y

/-- What the first key tile leaves in the running maximum's buffer: its pieces read back over junk. -/
def sout0_A_0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).2.1)

/-- On the first key tile the pieces stored into the running sum's buffer cover it. -/
theorem scover0_A_1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) (y : S1024x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S1024x1.size (by sl_kernel_rfl) y

/-- What the first key tile leaves in the running sum's buffer: its pieces read back over junk. -/
def sout0_A_1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)

/-- On the first key tile the pieces stored into the accumulator's buffer cover it. -/
theorem scover0_A_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) (y : S1024x512.Idx) :
    ∃ pc ∈ (kernelRun0_A c i arg2 harg2 arg3 harg3 arg4 harg4 arg5 harg5 arg6 harg6 arg7 harg7 hc0 hc1 x0 x1).2.2.2.1, y ∈ pc.1.set :=
  View.cover_of_tiledL (kernelRun0_A c i arg2 harg2 arg3 harg3 arg4 harg4 arg5 harg5 arg6 harg6 arg7 harg7 hc0 hc1 x0 x1).2.2.2.1 S1024x512.size (by sl_kernel_rfl) y

/-- What the first key tile leaves in the accumulator's buffer: its pieces read back over junk. -/
def sout0_A_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) : Vec F S1024x512 .f32 :=
  VS0_2.read (Elt F) (VS0_2.writes (Elt F) VS0_2.junk (kernelRun0_A c i arg2 harg2 arg3 harg3 arg4 harg4 arg5 harg5 arg6 harg6 arg7 harg7 hc0 hc1 x0 x1).2.2.2.1)

/-- The four together: the output block, then the running maximum, the running sum and the accumulator. -/
def outs0_A (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) : Vec F S1024x512 .f32 × Vec F S1024x1 .f32 × Vec F S1024x1 .f32 × Vec F S1024x512 .f32 :=
  (out0_A_2 c i arg2 harg2 arg3 harg3 arg4 harg4 arg5 harg5 arg6 harg6 arg7 harg7 hc0 hc1 x0 x1, sout0_A_0 c i arg2 harg2 arg3 harg3 arg4 harg4 arg5 harg5 arg6 harg6 arg7 harg7 hc0 hc1 x0 x1, sout0_A_1 c i arg2 harg2 arg3 harg3 arg4 harg4 arg5 harg5 arg6 harg6 arg7 harg7 hc0 hc1 x0 x1, sout0_A_2 c i arg2 harg2 arg3 harg3 arg4 harg4 arg5 harg5 arg6 harg6 arg7 harg7 hc0 hc1 x0 x1)

/-! ### Case B: a middle key tile -/

/-- On a middle key tile nothing is stored into the output block (the window is idle there and not written back): no
    pieces, a placeholder nothing consults. -/
def out0_B_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) : Vec F S1024x512 .f32 :=
  VO0_2.read (Elt F) (VO0_2.writes (Elt F) VO0_2.junk (kernelRun0_B c i arg2 harg2 arg3 harg3 arg4 harg4 arg5 harg5 arg6 harg6 arg7 harg7 hc0 hc1 x0 x1 xs0 xs1 xs2).1)

/-- On a middle key tile the pieces stored into the running maximum's buffer cover it. -/
theorem scover0_B_0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) (y : S1024x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S1024x1.size (by sl_kernel_rfl) y

/-- What a middle key tile leaves in the running maximum's buffer: its pieces read back over junk. -/
def sout0_B_0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).2.1)

/-- On a middle key tile the pieces stored into the running sum's buffer cover it. -/
theorem scover0_B_1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) (y : S1024x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S1024x1.size (by sl_kernel_rfl) y

/-- What a middle key tile leaves in the running sum's buffer: its pieces read back over junk. -/
def sout0_B_1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.2.1)

/-- On a middle key tile the pieces stored into the accumulator's buffer cover it. -/
theorem scover0_B_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) (y : S1024x512.Idx) :
    ∃ pc ∈ (kernelRun0_B c i arg2 harg2 arg3 harg3 arg4 harg4 arg5 harg5 arg6 harg6 arg7 harg7 hc0 hc1 x0 x1 xs0 xs1 xs2).2.2.2.1, y ∈ pc.1.set :=
  View.cover_of_tiledL (kernelRun0_B c i arg2 harg2 arg3 harg3 arg4 harg4 arg5 harg5 arg6 harg6 arg7 harg7 hc0 hc1 x0 x1 xs0 xs1 xs2).2.2.2.1 S1024x512.size (by sl_kernel_rfl) y

/-- What a middle key tile leaves in the accumulator's buffer: its pieces read back over junk. -/
def sout0_B_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) : Vec F S1024x512 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.2.1)

/-- The four together: the output block, then the running maximum, the running sum and the accumulator. -/
def outs0_B (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) : Vec F S1024x512 .f32 × Vec F S1024x1 .f32 × Vec F S1024x1 .f32 × Vec F S1024x512 .f32 :=
  (out0_B_2 c i arg2 harg2 arg3 harg3 arg4 harg4 arg5 harg5 arg6 harg6 arg7 harg7 hc0 hc1 x0 x1 xs0 xs1 xs2, sout0_B_0 c i arg2 harg2 arg3 harg3 arg4 harg4 arg5 harg5 arg6 harg6 arg7 harg7 hc0 hc1 x0 x1 xs0 xs1 xs2, sout0_B_1 c i arg2 harg2 arg3 harg3 arg4 harg4 arg5 harg5 arg6 harg6 arg7 harg7 hc0 hc1 x0 x1 xs0 xs1 xs2, sout0_B_2 c i arg2 harg2 arg3 harg3 arg4 harg4 arg5 harg5 arg6 harg6 arg7 harg7 hc0 hc1 x0 x1 xs0 xs1 xs2)

/-! ### Case C: the last key tile -/

/-- On the last key tile the one store into the output block tiles it, so it covers it. -/
theorem cover0_C_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) (y : S1024x512.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledL (kernelRun0_C c i arg2 harg2 arg3 harg3 arg4 harg4 arg5 harg5 arg6 harg6 arg7 harg7 hc0 hc1 x0 x1 xs0 xs1 xs2).1 S1024x512.size (by sl_kernel_rfl) y

/-- What the last key tile leaves in the output's staging buffer: its pieces read back over junk. -/
def out0_C_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) : Vec F S1024x512 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)

/-- On the last key tile the pieces stored into the running maximum's buffer cover it. -/
theorem scover0_C_0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) (y : S1024x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S1024x1.size (by sl_kernel_rfl) y

/-- What the last key tile leaves in the running maximum's buffer: its pieces read back over junk. -/
def sout0_C_0 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- On the last key tile the pieces stored into the running sum's buffer cover it. -/
theorem scover0_C_1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) (y : S1024x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S1024x1.size (by sl_kernel_rfl) y

/-- What the last key tile leaves in the running sum's buffer: its pieces read back over junk. -/
def sout0_C_1 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- On the last key tile the pieces stored into the accumulator's buffer cover it. -/
theorem scover0_C_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) (y : S1024x512.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S1024x512.size (by sl_kernel_rfl) y

/-- What the last key tile leaves in the accumulator's buffer: its pieces read back over junk. -/
def sout0_C_2 (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) : Vec F S1024x512 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-- The four together: the output block, then the running maximum, the running sum and the accumulator. -/
def outs0_C (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) : Vec F S1024x512 .f32 × Vec F S1024x1 .f32 × Vec F S1024x1 .f32 × Vec F S1024x512 .f32 :=
  (out0_C_2 c i arg2 harg2 arg3 harg3 arg4 harg4 arg5 harg5 arg6 harg6 arg7 harg7 hc0 hc1 x0 x1 xs0 xs1 xs2, sout0_C_0 c i arg2 harg2 arg3 harg3 arg4 harg4 arg5 harg5 arg6 harg6 arg7 harg7 hc0 hc1 x0 x1 xs0 xs1 xs2, sout0_C_1 c i arg2 harg2 arg3 harg3 arg4 harg4 arg5 harg5 arg6 harg6 arg7 harg7 hc0 hc1 x0 x1 xs0 xs1 xs2, sout0_C_2 c i arg2 harg2 arg3 harg3 arg4 harg4 arg5 harg5 arg6 harg6 arg7 harg7 hc0 hc1 x0 x1 xs0 xs1 xs2)

section Region0
variable (V : (c : Dev nD) → (b : Ref sig .tc) → Buf (Elt F) ((c : Thread nD τ).loc b))

/-! ## What the output block and the three scratch buffers hold after each point -/

/-- The accumulation: what the output's staging buffer and the running maximum, running sum and accumulator hold
    after the body at position `n` — the case the closed forms select at `n`, run at the point's memrefs and input
    blocks, the three scratch buffers taken at what position `n - 1` left (on a first key tile, at anything: the
    reset overwrites them). The two conditions never hold together. -/
def outsAt0 (c : Dev nD) : (n : ℕ) → n < cfg0.N → Vec F S1024x512 .f32 × Vec F S1024x1 .f32 × Vec F S1024x1 .f32 × Vec F S1024x512 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 16 = 0 then
      if h1 : (n + 1) % 16 = 15 then
        False.elim (by omega)
      else
        outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 16 = 15 then
        outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2.1 (outsAt0 c n (Nat.lt_of_succ_lt hn)).2.2.2

/-- At a first key tile: that case's contents. -/
theorem outsAt0_A (c : Dev nD) (t : Fin cfg0.N) (h0 : t.val % 16 = 0) (h1 : ¬t.val % 16 = 15) :
    outsAt0 V c t.val t.isLt = outs0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

/-- At a middle key tile: that case's contents, over what the point before left. -/
theorem outsAt0_B (c : Dev nD) (t : Fin cfg0.N) (h0 : ¬t.val % 16 = 0) (h1 : ¬t.val % 16 = 15) :
    outsAt0 V c t.val t.isLt = outs0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a last key tile: that case's contents, over what the point before left. -/
theorem outsAt0_C (c : Dev nD) (t : Fin cfg0.N) (h0 : ¬t.val % 16 = 0) (h1 : t.val % 16 = 15) :
    outsAt0 V c t.val t.isLt = outs0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region invariant, with the carried scratch buffers -/

/-- The region invariant before position `n`: before the first point the class's (every scoped buffer at anything);
    afterwards the three scratch buffers at what the point before left in them, the other scoped buffers at anything,
    and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch buffers at that point's contents. -/
theorem PhiS0_succ (c : Dev nD) (n : ℕ) (hn : n < cfg0.N) :
    PhiS0 V c (n + 1) hn = iprop(iprop(owns (c : Thread nD τ) scM0_0 fullShare (outsAt0 V c n hn).2.1 ∗ owns (c : Thread nD τ) scM0_1 fullShare (outsAt0 V c n hn).2.2.1 ∗ owns (c : Thread nD τ) scM0_2 fullShare (outsAt0 V c n hn).2.2.2 ∗ restS0 (F := F) c) ∗ (∃ r, prngReg c r)) := rfl

/-- Before a point that is not the first: the scratch buffers at what the point before left. -/
theorem PhiS0_pos (c : Dev nD) (n : ℕ) (h : n ≤ cfg0.N) (hz : n ≠ 0) :
    PhiS0 V c n h = iprop(iprop(owns (c : Thread nD τ) scM0_0 fullShare (outsAt0 V c (n - 1) (by omega)).2.1 ∗ owns (c : Thread nD τ) scM0_1 fullShare (outsAt0 V c (n - 1) (by omega)).2.2.1 ∗ owns (c : Thread nD τ) scM0_2 fullShare (outsAt0 V c (n - 1) (by omega)).2.2.2 ∗ restS0 (F := F) c) ∗ (∃ r, prngReg c r)) := by
  cases n with
  | zero => exact absurd rfl hz
  | succ n => rfl

/-! ## The pipeline's proof data -/

/-- The proof data of the read-out's pipeline on core `c`: the arrays as the region finds them (`V`); after the body
    at point `t` each input's buffer at its block and the output's at `outsAt0`'s first component; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in;
    the invariant hands the body the three scratch buffers at what the point before left (at anything before the
    first point) and takes them back at this point's contents, the pieces covering each; the other scoped buffers,
    the generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  by_cases h0 : t.val % 16 = 0
  · by_cases h1 : t.val % 16 = 15
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold outs0_A sout0_A_0 sout0_A_1 sout0_A_2; (try dsimp only)
      by_cases hz : t.val = 0
      · rw [PhiS0_castSucc V c t, PhiS0_zero V c _ _ hz, PhiA0_eq]
        iintro ⟨⟨⟨HS0, HS1, HS2, Hr⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hr Hg]
        · isplitl [HS0 HS1 HS2 Hr]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _)
            iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HS1, HS2, Hr⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hr Hg]
        · isplitl [HS0 HS1 HS2 Hr]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _)
            iexact Hr
          iexact Hg
        isplitl [Ho]; · iexact Ho
        isplitl [H0]; · iexact H0
        isplitl [H1]; · iexact H1
        iexists _; iexact H2
  · by_cases h1 : t.val % 16 = 15
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold outs0_C out0_C_2 sout0_C_0 sout0_C_1 sout0_C_2; (try dsimp only)
      by_cases hz : t.val = 0
      · exfalso; omega
      · rw [PhiS0_castSucc V c t, PhiS0_pos V c _ _ hz]
        iintro ⟨⟨⟨HS0, HS1, HS2, Hr⟩, Hg⟩, Ho, ⟨%d0, H0⟩, ⟨%d1, H1⟩, ⟨%d2, H2⟩⟩
        iapply ((kernelRun0_C c (grid0.coords t) _ _ _ _ _ _ _ _ _ _ _ _ (fun h => h0 ((hcond0_0 t).mp h)) ((hcond0_1 t).mpr h1) (iblk0 V c 0 t) (iblk0 V c 1 t) _ _ _).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, ⟨%es2, HS2⟩⟩
        isplitl [HS0 HS1 HS2 Hr Hg]
        · isplitl [HS0 HS1 HS2 Hr]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold outs0_B sout0_B_0 sout0_B_1 sout0_B_2; (try dsimp only)
      by_cases hz : t.val = 0
      · exfalso; omega
      · rw [PhiS0_castSucc V c t, PhiS0_pos V c _ _ hz]
        iintro ⟨⟨⟨HS0, HS1, HS2, Hr⟩, Hg⟩, Ho, ⟨%d0, H0⟩, ⟨%d1, H1⟩, ⟨%d2, H2⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _ _ _).2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hr Hg]
        · isplitl [HS0 HS1 HS2 Hr]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch buffers' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, Hr⟩, Hg⟩
  isplitl [HS0 HS1 HS2 Hr]
  · isplitl [HS0]; · iexists _; iexact HS0
    isplitl [HS1]; · iexists _; iexact HS1
    isplitl [HS2]; · iexists _; iexact HS2
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region0

/-! ## What the cases leave, over the payloads -/

/-- The unit rectangle's offsets are zero. -/
theorem hz0 : (![0, 0] : Fin 2 → Nat) = fun _ => 0 := funext fun a => by fin_cases a <;> rfl

/-- On the first key tile, the running maximum after the body (computed from the reset values). -/
theorem sout0_A_0_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) :
    sout0_A_0 c i arg2 harg2 arg3 harg3 arg4 harg4 arg5 harg5 arg6 harg6 arg7 harg7 hc0 hc1 x0 x1 = k0_pay2 (k0_pay9 x0 x1 k0_pay4) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz0]
  simp only [View.readAt_eq_ld, harg2.read_unread, harg3.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On the first key tile, the running sum after the body (computed from the reset values). -/
theorem sout0_A_1_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) :
    sout0_A_1 c i arg2 harg2 arg3 harg3 arg4 harg4 arg5 harg5 arg6 harg6 arg7 harg7 hc0 hc1 x0 x1 = k0_pay12 x0 x1 k0_pay4 k0_pay4 k0_pay5 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1024x1) hz0]
  simp only [View.readAt_eq_ld, harg2.read_unread, harg3.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On the first key tile, the accumulator after the body (computed from the reset values). -/
theorem sout0_A_2_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : cond0_0 i) (hc1 : ¬cond0_1 i)
    (x0 : Vec F S1024x512 .f32) (x1 : Vec F S2048x512 .f32) :
    sout0_A_2 c i arg2 harg2 arg3 harg3 arg4 harg4 arg5 harg5 arg6 harg6 arg7 harg7 hc0 hc1 x0 x1 = k0_pay1 (k0_pay13 x0 x1 k0_pay4 k0_pay4 k0_pay6) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1024x512) hz0]
  simp only [View.readAt_eq_ld, harg2.read_unread, harg3.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On a middle key tile, the running maximum after the body. -/
theorem sout0_B_0_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) :
    sout0_B_0 c i arg2 harg2 arg3 harg3 arg4 harg4 arg5 harg5 arg6 harg6 arg7 harg7 hc0 hc1 x0 x1 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz0]
  simp only [View.readAt_eq_ld, harg2.read_unread, harg3.read_unread, harg5.read_unread, harg6.read_unread, harg7.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On a middle key tile, the running sum after the body. -/
theorem sout0_B_1_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) :
    sout0_B_1 c i arg2 harg2 arg3 harg3 arg4 harg4 arg5 harg5 arg6 harg6 arg7 harg7 hc0 hc1 x0 x1 xs0 xs1 xs2 = k0_pay12 x0 x1 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz0]
  simp only [View.readAt_eq_ld, harg2.read_unread, harg3.read_unread, harg5.read_unread, harg6.read_unread, harg7.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On a middle key tile, the accumulator after the body. -/
theorem sout0_B_2_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : ¬cond0_1 i)
    (x0 : Vec F S1024x512 .f32) (x1 : Vec F S2048x512 .f32) (xs0 : Vec F S1024x1 .f32) (xs1 : Vec F S1024x1 .f32) (xs2 : Vec F S1024x512 .f32) :
    sout0_B_2 c i arg2 harg2 arg3 harg3 arg4 harg4 arg5 harg5 arg6 harg6 arg7 harg7 hc0 hc1 x0 x1 xs0 xs1 xs2 = k0_pay1 (k0_pay13 x0 x1 xs0 xs0 xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz0]
  simp only [View.readAt_eq_ld, harg2.read_unread, harg3.read_unread, harg5.read_unread, harg6.read_unread, harg7.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On the last key tile, the running maximum after the body. -/
theorem sout0_C_0_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) :
    sout0_C_0 c i arg2 harg2 arg3 harg3 arg4 harg4 arg5 harg5 arg6 harg6 arg7 harg7 hc0 hc1 x0 x1 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz0]
  simp only [View.readAt_eq_ld, harg2.read_unread, harg3.read_unread, harg5.read_unread, harg6.read_unread, harg7.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On the last key tile, the running sum after the body. -/
theorem sout0_C_1_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) :
    sout0_C_1 c i arg2 harg2 arg3 harg3 arg4 harg4 arg5 harg5 arg6 harg6 arg7 harg7 hc0 hc1 x0 x1 xs0 xs1 xs2 = k0_pay12 x0 x1 xs0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz0]
  simp only [View.readAt_eq_ld, harg2.read_unread, harg3.read_unread, harg5.read_unread, harg6.read_unread, harg7.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On the last key tile, the accumulator after the body. -/
theorem sout0_C_2_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) :
    sout0_C_2 c i arg2 harg2 arg3 harg3 arg4 harg4 arg5 harg5 arg6 harg6 arg7 harg7 hc0 hc1 x0 x1 xs0 xs1 xs2 = k0_pay1 (k0_pay13 x0 x1 xs0 xs0 xs2) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz0]
  simp only [View.readAt_eq_ld, harg2.read_unread, harg3.read_unread, harg5.read_unread, harg6.read_unread, harg7.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

/-- On the last key tile the output block is the accumulator just stored divided by the running sum just stored. -/
theorem out0_C_2_eq (c : Dev nD) (i : grid0.Coords) (arg2 : Memref sig .tc .vmem S1024x512 .f32) (harg2 : arg2.IsWhole) (arg3 : Memref sig .tc .vmem S2048x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x512 .f32) (harg7 : arg7.IsWhole) (hc0 : ¬cond0_0 i) (hc1 : cond0_1 i)
    (x0 : Vec F S1024x512 .f32) (x1 : Vec F S2048x512 .f32) (xs0 : Vec F S1024x1 .f32) (xs1 : Vec F S1024x1 .f32) (xs2 : Vec F S1024x512 .f32) :
    out0_C_2 c i arg2 harg2 arg3 harg3 arg4 harg4 arg5 harg5 arg6 harg6 arg7 harg7 hc0 hc1 x0 x1 xs0 xs1 xs2 = k0_pay3 (sout0_C_2 c i arg2 harg2 arg3 harg3 arg4 harg4 arg5 harg5 arg6 harg6 arg7 harg7 hc0 hc1 x0 x1 xs0 xs1 xs2) (sout0_C_1 c i arg2 harg2 arg3 harg3 arg4 harg4 arg5 harg5 arg6 harg6 arg7 harg7 hc0 hc1 x0 x1 xs0 xs1 xs2) := by
  rw [sout0_C_2_eq, sout0_C_1_eq]
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz0]
  simp only [View.readAt_eq_ld, harg2.read_unread, harg3.read_unread, harg5.read_unread, harg6.read_unread, harg7.read_unread, View.ld_unit_zero (S := S1024x512) hz0, View.ld_unit_zero (S := S2048x512) hz0, View.ld_unit_zero (S := S1024x1) hz0, View.readCov_unit_zero (S := S1024x1) _ hz0, View.readCov_unit_zero (S := S1024x512) _ hz0]

section Region0
variable (V : (c : Dev nD) → (b : Ref sig .tc) → Buf (Elt F) ((c : Thread nD τ).loc b))

/-! ## The points' contents over the payloads -/

/-- One key tile's update of (running maximum, running sum, accumulator) from the query block `x0`, the key block
    `x1` and the state found. -/
def step0 (x0 : Vec F S1024x512 .f32) (x1 : Vec F S2048x512 .f32) (s : Vec F S1024x1 .f32 × Vec F S1024x1 .f32 × Vec F S1024x512 .f32) : Vec F S1024x1 .f32 × Vec F S1024x1 .f32 × Vec F S1024x512 .f32 :=
  (k0_pay2 (k0_pay9 x0 x1 s.1), k0_pay12 x0 x1 s.1 s.1 s.2.1, k0_pay1 (k0_pay13 x0 x1 s.1 s.1 s.2.2))

/-- The reset state: the running maximum at minus infinity, the running sum and the accumulator at zero. -/
def init0 : Vec F S1024x1 .f32 × Vec F S1024x1 .f32 × Vec F S1024x512 .f32 := (k0_pay4, k0_pay5, k0_pay6)

/-- After a first key tile the state is one update of the reset state. -/
theorem scratchAt0_first (c : Dev nD) (t : Fin cfg0.N) (h : t.val % 16 = 0) : (outsAt0 V c t.val t.isLt).2 = step0 (iblk0 V c 0 t) (iblk0 V c 1 t) init0 := by
  have h1 : ¬t.val % 16 = 15 := by omega
  rw [outsAt0_A V c t h h1]
  unfold outs0_A step0 init0
  dsimp only
  rw [sout0_A_0_eq, sout0_A_1_eq, sout0_A_2_eq]

/-- After any other key tile the state is one update of the state the point before left. -/
theorem scratchAt0_next (c : Dev nD) (t : Fin cfg0.N) (h : t.val % 16 ≠ 0) : (outsAt0 V c t.val t.isLt).2 = step0 (iblk0 V c 0 t) (iblk0 V c 1 t) (outsAt0 V c (t.val - 1) (Nat.lt_of_le_of_lt (Nat.sub_le _ _) t.isLt)).2 := by
  by_cases h1 : t.val % 16 = 15
  · rw [outsAt0_C V c t h h1]
    unfold outs0_C step0
    dsimp only
    rw [sout0_C_0_eq, sout0_C_1_eq, sout0_C_2_eq]
  · rw [outsAt0_B V c t h h1]
    unfold outs0_B step0
    dsimp only
    rw [sout0_B_0_eq, sout0_B_1_eq, sout0_B_2_eq]

/-- After a last key tile the output block is the accumulator divided by the running sum, both as just left. -/
theorem outAt0_last (c : Dev nD) (t : Fin cfg0.N) (h : t.val % 16 = 15) : (outsAt0 V c t.val t.isLt).1 = k0_pay3 (outsAt0 V c t.val t.isLt).2.2.2 (outsAt0 V c t.val t.isLt).2.2.1 := by
  have h0 : ¬t.val % 16 = 0 := by omega
  rw [outsAt0_C V c t h0 h]
  unfold outs0_C
  dsimp only
  exact out0_C_2_eq ..

end Region0

end Cert.KernelIdeal.Hand

end
-- ==== Proof.Ideal.R1Base.lean ====
import proofs.«425831_j18433999634698_3_alg».proof.Proof.Gen.KernelIdeal.Launch
import proofs.«425831_j18433999634698_3_alg».proof.Proof.Gen.KernelIdeal.Skeleton
import proofs.«425831_j18433999634698_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1 of @main: the classifier and cross-entropy kernel (pipeline 1), at the entry contents `V`

## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the pipeline does
    not fetch, the block index has not moved and the buffer still holds the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the pipeline does
    not fetch, the block index has not moved and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the pipeline does
    not fetch, the block index has not moved and the buffer still holds the block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the pipeline does
    not fetch, the block index has not moved and the buffer still holds the block. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional (the cached weights are written under it), from the grid
    coordinate: the printed scalar chain substituted. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 32 = 0 :=
  (by decide +kernel : ∀ t : Fin grid1.N, cond1_0 (grid1.coords t) ↔ t.val % 32 = 0)

/-! ## The staging and scratch memrefs -/

/-- One staging buffer of the output window, through which its contents are stated (the choice does not matter). -/
abbrev VO1_4 : View sig .tc .vmem S64x1 .f32 := (Memref.whole cc1_stg4_0 : Memref sig .tc .vmem S64x1 .f32).view
/-- Each window's current staging memref at point `t`, spelled as the pipeline passes it, and its wholeness. -/
abbrev ms1_0 (t : Fin cfg1.N) : Memref sig .tc .vmem S64x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10112x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10112 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x1 .f32 := win1_4.stage (cfg1.slots t 4)
abbrev hs1_4 (t : Fin cfg1.N) : (ms1_4 t).IsWhole := hstage1_4 ((cfg1.slots t 4).cast nbuf1_4)
/-- The scratch operand: a whole scoped buffer of the kernel's own, passed beside the windows. -/
abbrev scM1_0 : Memref sig .tc .vmem S10112x512 .bf16 := Memref.whole cc1_scratch0
/-- The scratch the kernel carries between points (the cached weights), as a view: what it holds is stated through it. -/
abbrev VS1_0 : View sig .tc .vmem S10112x512 .bf16 := scM1_0.view

/-! ## The region invariant, the carried scratch apart -/

/-- The core's scoped buffers this region's body never touches (the other region's staging buffers and scratch),
    each at some contents, and the generator register at some state. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ r, prngReg c r))

/-- The class's invariant is the carried scratch as a memref owned at some contents, beside the rest. -/
theorem PhiA1_eq (c : Dev nD) :
    (Pipeline.ΦA spec1 c : sProp 𝕄)
      = iprop((∃ d, owns (c : Thread nD τ) scM1_0 fullShare d) ∗ others1 (F := F) c) := by
  unfold Pipeline.ΦA others1; rw [scopedRest1_eq]; simp only [scM1_0, owns_whole]
  refine BI.equiv_iff.mp ⟨?_, ?_⟩
  · show (_ : sProp 𝕄) ⊢ (_ : sProp 𝕄)
    iintro ⟨⟨H0, H1, H2, H3, H4, H5, H6, H7, H8, HS⟩, Hg⟩
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hg
  · show (_ : sProp 𝕄) ⊢ (_ : sProp 𝕄)
    iintro ⟨HS, H0, H1, H2, H3, H4, H5, H6, H7, H8, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    iexact Hg

end Cert.KernelIdeal.Hand

end
-- ==== Proof.Ideal.R1RunA.lean ====
import proofs.«425831_j18433999634698_3_alg».proof.Proof.Ideal.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 4000000 in
/-- What the body's stores leave in the output's staging memref and in the scratch, as pieces (last first), at the
    FIRST point (the conditional taken), with the proof that on whole memrefs — the inputs' at their contents, the
    output's and the scratch at anything — the body runs to the continuation holding the inputs' as they were, the
    output's buffer and the scratch each with its pieces written. The pieces are the witness the run finds. -/
noncomputable def kernelRun1_A (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : cond1_0 i)
    (x0 : Vec F S64x512 .f32) (x1 : Vec F S10112x512 .f32) (x2 : Vec F S1x10112 .f32) (x3 : Vec F S64x1 .i32) :
    Σ' (L4 : List (View.Piece (Elt F) S64x1 .f32)), { LS0 : List (View.Piece (Elt F) S10112x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__ce_kernel i arg1 harg1 arg2 harg2 arg3 harg3 arg4 harg4 arg5 harg5 arg6 harg6) K } := by
  refine ⟨?_, ?_, fun E K => ?run⟩
  case run =>
    simp only [cc1__ce_kernel_eq_skeleton]; unfold cc1__ce_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.Ideal.R1RunB.lean ====
import proofs.«425831_j18433999634698_3_alg».proof.Proof.Ideal.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 4000000 in
/-- What the body's store leaves in the output's staging memref, as pieces (last first), at a LATER point (the
    conditional not taken), with the proof that on whole memrefs — the inputs' at their contents, the output's at
    anything, the scratch at what the point before left (`xs0`) — the body runs to the continuation holding the
    inputs' as they were, the output's buffer with its pieces written, and the scratch, which it only reads,
    at the same contents `xs0`. -/
noncomputable def kernelRun1_B (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : ¬cond1_0 i)
    (x0 : Vec F S64x512 .f32) (x1 : Vec F S10112x512 .f32) (x2 : Vec F S1x10112 .f32) (x3 : Vec F S64x1 .i32) (xs0 : Vec F S10112x512 .bf16) :
    { L4 : List (View.Piece (Elt F) S64x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc1__ce_kernel i arg1 harg1 arg2 harg2 arg3 harg3 arg4 harg4 arg5 harg5 arg6 harg6) K } := by
  refine ⟨?_, fun E K => ?run⟩
  case run =>
    simp only [cc1__ce_kernel_eq_skeleton]; unfold cc1__ce_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Hand

end
-- ==== Proof.Ideal.R1Frame.lean ====
import proofs.«425831_j18433999634698_3_alg».proof.Proof.Ideal.R1RunB
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## What each case leaves in the output's buffer and in the scratch -/

/-- The first point's pieces for the output tile its block (one store of the whole block), so they cover it. -/
theorem cover1_A_4 (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : cond1_0 i)
    (x0 : Vec F S64x512 .f32) (x1 : Vec F S10112x512 .f32) (x2 : Vec F S1x10112 .f32) (x3 : Vec F S64x1 .i32) (y : S64x1.Idx) :
    ∃ pc ∈ (kernelRun1_A c i arg1 harg1 arg2 harg2 arg3 harg3 arg4 harg4 arg5 harg5 arg6 harg6 hc0 x0 x1 x2 x3).1, y ∈ pc.1.set :=
  View.cover_of_tiledL (kernelRun1_A c i arg1 harg1 arg2 harg2 arg3 harg3 arg4 harg4 arg5 harg5 arg6 harg6 hc0 x0 x1 x2 x3).1 S64x1.size (by sl_kernel_rfl) y

/-- What the first point leaves in the output's staging buffer: its pieces read back over junk. -/
def out1_A_4 (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : cond1_0 i)
    (x0 : Vec F S64x512 .f32) (x1 : Vec F S10112x512 .f32) (x2 : Vec F S1x10112 .f32) (x3 : Vec F S64x1 .i32) : Vec F S64x1 .f32 :=
  VO1_4.read (Elt F) (VO1_4.writes (Elt F) VO1_4.junk (kernelRun1_A c i arg1 harg1 arg2 harg2 arg3 harg3 arg4 harg4 arg5 harg5 arg6 harg6 hc0 x0 x1 x2 x3).1)

/-- The first point's pieces for the scratch, which the kernel carries between points, cover it (one store of the
    whole buffer). -/
theorem scover1_A_0 (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : cond1_0 i)
    (x0 : Vec F S64x512 .f32) (x1 : Vec F S10112x512 .f32) (x2 : Vec F S1x10112 .f32) (x3 : Vec F S64x1 .i32) (y : S10112x512.Idx) :
    ∃ pc ∈ (kernelRun1_A c i arg1 harg1 arg2 harg2 arg3 harg3 arg4 harg4 arg5 harg5 arg6 harg6 hc0 x0 x1 x2 x3).2.1, y ∈ pc.1.set :=
  View.cover_of_tiledL (kernelRun1_A c i arg1 harg1 arg2 harg2 arg3 harg3 arg4 harg4 arg5 harg5 arg6 harg6 hc0 x0 x1 x2 x3).2.1 S10112x512.size (by sl_kernel_rfl) y

/-- What the first point leaves in the scratch: its pieces read back over junk. -/
def sout1_A_0 (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : cond1_0 i)
    (x0 : Vec F S64x512 .f32) (x1 : Vec F S10112x512 .f32) (x2 : Vec F S1x10112 .f32) (x3 : Vec F S64x1 .i32) : Vec F S10112x512 .bf16 :=
  VS1_0.read (Elt F) (VS1_0.writes (Elt F) VS1_0.junk (kernelRun1_A c i arg1 harg1 arg2 harg2 arg3 harg3 arg4 harg4 arg5 harg5 arg6 harg6 hc0 x0 x1 x2 x3).2.1)

/-- A later point's pieces for the output tile its block, so they cover it. -/
theorem cover1_B_4 (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : ¬cond1_0 i)
    (x0 : Vec F S64x512 .f32) (x1 : Vec F S10112x512 .f32) (x2 : Vec F S1x10112 .f32) (x3 : Vec F S64x1 .i32) (xs0 : Vec F S10112x512 .bf16) (y : S64x1.Idx) :
    ∃ pc ∈ (kernelRun1_B c i arg1 harg1 arg2 harg2 arg3 harg3 arg4 harg4 arg5 harg5 arg6 harg6 hc0 x0 x1 x2 x3 xs0).1, y ∈ pc.1.set :=
  View.cover_of_tiledL (kernelRun1_B c i arg1 harg1 arg2 harg2 arg3 harg3 arg4 harg4 arg5 harg5 arg6 harg6 hc0 x0 x1 x2 x3 xs0).1 S64x1.size (by sl_kernel_rfl) y

/-- What a later point leaves in the output's staging buffer: its pieces read back over junk. -/
def out1_B_4 (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : ¬cond1_0 i)
    (x0 : Vec F S64x512 .f32) (x1 : Vec F S10112x512 .f32) (x2 : Vec F S1x10112 .f32) (x3 : Vec F S64x1 .i32) (xs0 : Vec F S10112x512 .bf16) : Vec F S64x1 .f32 :=
  VO1_4.read (Elt F) (VO1_4.writes (Elt F) VO1_4.junk (kernelRun1_B c i arg1 harg1 arg2 harg2 arg3 harg3 arg4 harg4 arg5 harg5 arg6 harg6 hc0 x0 x1 x2 x3 xs0).1)

/-! ## What the output and the scratch hold after each point -/

/-- What the output's staging buffer and the scratch hold after the body at position `n` (the output block, then the
    cached weights): at the first point the first case's, from the point's memrefs and input blocks; later the other
    case's output over the scratch the point before left, and that scratch again (the case does not store into it). -/
def outsAt1 (c : Dev nD) : (n : ℕ) → n < cfg1.N → Vec F S64x1 .f32 × Vec F S10112x512 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 32 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, (outsAt1 c n (Nat.lt_of_succ_lt hn)).2)

/-- `outsAt1` at the first point: that case's contents. -/
theorem outsAt1_A (c : Dev nD) (t : Fin cfg1.N) (h0 : t.val % 32 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a later point: that case's output, over the scratch the point before left, which stays. -/
theorem outsAt1_B (c : Dev nD) (t : Fin cfg1.N) (h0 : ¬t.val % 32 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n`: before the first point the class's (every scratch at anything);
    afterwards the carried scratch at what the point before left in it, beside the rest. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c)

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(owns (c : Thread nD τ) scM1_0 fullShare ((outsAt1 V c n hn).2) ∗ others1 (F := F) c) := rfl

/-- Before a point that is not the first: the carried scratch at what the point before left. -/
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c) := by
  cases n with
  | zero => exact absurd rfl hz
  | succ n => rfl

/-! ## The pipeline's proof data -/

/-- The proof data of the pipeline on core `c`: the arrays as the region finds them (`V`); after the body at point
    `t` each input's buffer at its block and the output's at `outsAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' memrefs hold their blocks; the closed form says which case the point is in,
    so the case's run applies; the invariant hands the body the carried scratch at what the point before left (at
    anything at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 32 := lt_of_lt_of_eq t.isLt (show cfg1.N = 32 from N_1)
  by_cases h0 : t.val % 32 = 0
  · rw [outsAt1_A V c t h0]
    unfold out1_A_4 sout1_A_0; (try dsimp only)
    have hz : t.val = 0 := by omega
    rw [PhiS1_castSucc V c t, PhiS1_zero V c _ _ hz, PhiA1_eq]
    iintro ⟨⟨HS0, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover1_A_0 c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_A_4 c _ _ _ _ _ _ _ _ _ _ _ _ _ _ _ _ _ _)
  · rw [outsAt1_B V c t h0]
    unfold out1_B_4; (try dsimp only)
    have hz : t.val ≠ 0 := by omega
    rw [PhiS1_castSucc V c t, PhiS1_pos V c _ _ hz]
    iintro ⟨⟨HS0, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

/-! ## The same contents through the payloads -/

/-- The offsets of the whole-buffer rectangle are zero. -/
theorem hzero1 : (![0, 0] : Fin 2 → Nat) = fun _ => 0 := funext fun a => by fin_cases a <;> rfl

/-- The first point leaves, in the scratch, the weights' block rounded to bf16: its one covering store's payload,
    whose load reads the whole weights buffer. -/
theorem sout1_A_0_eq (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : cond1_0 i)
    (x0 : Vec F S64x512 .f32) (x1 : Vec F S10112x512 .f32) (x2 : Vec F S1x10112 .f32) (x3 : Vec F S64x1 .i32) :
    sout1_A_0 c i arg1 harg1 arg2 harg2 arg3 harg3 arg4 harg4 arg5 harg5 arg6 harg6 hc0 x0 x1 x2 x3 = k1_pay1 x1 := by
  unfold sout1_A_0
  rw [View.read_writes_eq_canon _ _ _ (scover1_A_0 c i arg1 harg1 arg2 harg2 arg3 harg3 arg4 harg4 arg5 harg5 arg6 harg6 hc0 x0 x1 x2 x3)]
  unfold kernelRun1_A
  dsimp only
  sl_unfold_words
  rw [View.canon_unit_zero hzero1]
  simp only [View.readAt_eq_ld, harg2.read_unread, View.ld_unit_zero (S := S10112x512) hzero1]

/-- The first point leaves, in the output's buffer, the loss payload of the inputs' blocks and of the scratch read
    back after its store. -/
theorem out1_A_4_eq (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : cond1_0 i)
    (x0 : Vec F S64x512 .f32) (x1 : Vec F S10112x512 .f32) (x2 : Vec F S1x10112 .f32) (x3 : Vec F S64x1 .i32) :
    out1_A_4 c i arg1 harg1 arg2 harg2 arg3 harg3 arg4 harg4 arg5 harg5 arg6 harg6 hc0 x0 x1 x2 x3 = k1_pay2 x0 (k1_pay1 x1) x2 x3 := by
  unfold out1_A_4
  rw [View.read_writes_eq_canon _ _ _ (cover1_A_4 c i arg1 harg1 arg2 harg2 arg3 harg3 arg4 harg4 arg5 harg5 arg6 harg6 hc0 x0 x1 x2 x3)]
  unfold kernelRun1_A
  dsimp only
  sl_unfold_words
  rw [View.canon_unit_zero hzero1]
  simp only [View.readAt_eq_ld, harg1.read_unread, harg2.read_unread, harg3.read_unread, harg4.read_unread,
    View.ld_unit_zero (S := S64x512) hzero1, View.ld_unit_zero (S := S10112x512) hzero1,
    View.ld_unit_zero (S := S1x10112) hzero1, View.ld_unit_zero (S := S64x1) hzero1,
    View.readCov_unit_zero (S := S10112x512) _ hzero1]

/-- A later point leaves, in the output's buffer, the loss payload of the inputs' blocks and of the scratch as found. -/
theorem out1_B_4_eq (c : Dev nD) (i : grid1.Coords) (arg1 : Memref sig .tc .vmem S64x512 .f32) (harg1 : arg1.IsWhole) (arg2 : Memref sig .tc .vmem S10112x512 .f32) (harg2 : arg2.IsWhole) (arg3 : Memref sig .tc .vmem S1x10112 .f32) (harg3 : arg3.IsWhole) (arg4 : Memref sig .tc .vmem S64x1 .i32) (harg4 : arg4.IsWhole) (arg5 : Memref sig .tc .vmem S64x1 .f32) (harg5 : arg5.IsWhole) (arg6 : Memref sig .tc .vmem S10112x512 .bf16) (harg6 : arg6.IsWhole) (hc0 : ¬cond1_0 i)
    (x0 : Vec F S64x512 .f32) (x1 : Vec F S10112x512 .f32) (x2 : Vec F S1x10112 .f32) (x3 : Vec F S64x1 .i32) (xs0 : Vec F S10112x512 .bf16) :
    out1_B_4 c i arg1 harg1 arg2 harg2 arg3 harg3 arg4 harg4 arg5 harg5 arg6 harg6 hc0 x0 x1 x2 x3 xs0 = k1_pay2 x0 xs0 x2 x3 := by
  unfold out1_B_4
  rw [View.read_writes_eq_canon _ _ _ (cover1_B_4 c i arg1 harg1 arg2 harg2 arg3 harg3 arg4 harg4 arg5 harg5 arg6 harg6 hc0 x0 x1 x2 x3 xs0)]
  unfold kernelRun1_B
  dsimp only
  sl_unfold_words
  rw [View.canon_unit_zero hzero1]
  simp only [View.readAt_eq_ld, harg1.read_unread, harg3.read_unread, harg4.read_unread, harg6.read_unread,
    View.ld_unit_zero (S := S64x512) hzero1, View.ld_unit_zero (S := S10112x512) hzero1,
    View.ld_unit_zero (S := S1x10112) hzero1, View.ld_unit_zero (S := S64x1) hzero1]

/-- At the first point the scratch is left at the weights' block rounded to bf16. -/
theorem scratchAt1_first (c : Dev nD) (t : Fin cfg1.N) (h : t.val = 0) : (outsAt1 V c t.val t.isLt).2 = k1_pay1 (iblk1 V c 1 t) := by
  rw [outsAt1_A V c t (by omega)]
  dsimp only
  rw [sout1_A_0_eq]

/-- At a later point the scratch is what the point before left. -/
theorem scratchAt1_next (c : Dev nD) (t : Fin cfg1.N) (h : t.val ≠ 0) : (outsAt1 V c t.val t.isLt).2 = (outsAt1 V c (t.val - 1) (Nat.lt_of_le_of_lt (Nat.sub_le _ _) t.isLt)).2 := by
  have hN : t.val < 32 := lt_of_lt_of_eq t.isLt (show cfg1.N = 32 from N_1)
  rw [outsAt1_B V c t (by omega)]

/-- At every point the output block is the loss payload of the point's z tile, the cached weights, the bias and the targets. -/
theorem outAt1 (c : Dev nD) (t : Fin cfg1.N) : (outsAt1 V c t.val t.isLt).1 = k1_pay2 (iblk1 V c 0 t) (outsAt1 V c t.val t.isLt).2 (iblk1 V c 2 t) (iblk1 V c 3 t) := by
  by_cases h0 : t.val % 32 = 0
  · rw [outsAt1_A V c t h0]
    dsimp only
    rw [out1_A_4_eq, sout1_A_0_eq]
  · rw [outsAt1_B V c t h0]
    dsimp only
    rw [out1_B_4_eq]

end Cert.KernelIdeal.Hand

end
-- ==== Proof.Ideal.Run.lean ====
import proofs.«425831_j18433999634698_3_alg».proof.Proof.Gen.KernelIdeal.Launch
import proofs.«425831_j18433999634698_3_alg».proof.Proof.Gen.KernelIdeal.Skeleton
import proofs.«425831_j18433999634698_3_alg».proof.Proof.Gen.KernelIdeal.Points
import proofs.«425831_j18433999634698_3_alg».proof.Proof.Gen.KernelIdeal.Regions
import proofs.«425831_j18433999634698_3_alg».proof.Proof.Ideal.R0Frame
import proofs.«425831_j18433999634698_3_alg».proof.Proof.Ideal.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run: the eight segments of the main function from the launch to the return

## Three facts of each region's proof data

Each region's proof data owe nothing at any point, hold every input array at the full share, and put no bound on the
recorded pairs. -/

section DatFacts
variable (V : (c : Dev nD) → (b : Ref sig .tc) → Buf (Elt F) ((c : Thread nD τ).loc b))

theorem owed0 (c : Dev nD) (t : Fin (cfg0.N + 1)) : (dat0 V c).owed t = 0 := rfl
theorem q0 (c : Dev nD) (w : Fin cfg0.W) : (dat0 V c).q w = fullShare := rfl
theorem recorded0 (c : Dev nD) (t : Fin (cfg0.N + 1)) : (dat0 V c).recorded t = Set.univ := rfl
theorem owed1 (c : Dev nD) (t : Fin (cfg1.N + 1)) : (dat1 V c).owed t = 0 := rfl
theorem q1 (c : Dev nD) (w : Fin cfg1.W) : (dat1 V c).q w = fullShare := rfl
theorem recorded1 (c : Dev nD) (t : Fin (cfg1.N + 1)) : (dat1 V c).recorded t = Set.univ := rfl

end DatFacts

/-! ## The buffer contents at each segment boundary: a fold through the main function -/

/-- Core `c`'s buffers at launch. -/
abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
/-- After the second host stretch (the padding of the classifier's weights). -/
abbrev W2 : Dev nD → Valuation τ sig (Elt F) := fun c => StableHlo.after hostOps0_1 (W1 m ρ c)
/-- After the third host stretch. -/
abbrev W3 : Dev nD → Valuation τ sig (Elt F) := fun c => StableHlo.after hostOps0_2 (W2 m ρ c)
/-- After the fourth host stretch (the padding of the classifier's bias). -/
abbrev W4 : Dev nD → Valuation τ sig (Elt F) := fun c => StableHlo.after hostOps0_3 (W3 m ρ c)
/-- After the fifth host stretch (the scaled queries): region 0's entry. -/
abbrev W5 : Dev nD → Valuation τ sig (Elt F) := fun c => StableHlo.after hostOps0_4 (W4 m ρ c)
/-- The same read at the TensorCore's references (what region 0's proof data take). -/
abbrev V5 : (c : Dev nD) → (b : Ref sig .tc) → Buf (Elt F) ((c : Thread nD τ).loc b) := fun c b => W5 m ρ c b
/-- At region 0's exit, which is region 1's entry: region 0's arrays at what its pipeline leaves (the inputs as
    entered, the output's write-backs folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents, what region 1's proof data take). -/
abbrev V6 : (c : Dev nD) → (b : Ref sig .tc) → Buf (Elt F) ((c : Thread nD τ).loc b) := fun c b => W6 m ρ c b
/-- At region 0's exit each of its arrays holds what the pipeline leaves and every other buffer what it held at
    entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- At region 1's exit: region 1's arrays at what its pipeline leaves, every other buffer as entered. -/
def W7 (c : Dev nD) : Valuation τ sig (Elt F) :=
  Pipeline.withArrays spec1 c (W6 m ρ c) fun w => (dat1 (V6 m ρ) c).arrAt w cfg1.N
theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb
/-- The same read at the TensorCore's references (region 1's exit contents). -/
abbrev V7 : (c : Dev nD) → (b : Ref sig .tc) → Buf (Elt F) ((c : Thread nD τ).loc b) := fun c b => W7 m ρ c b
theorem hF1 (c : Dev nD) (w : Fin cfg1.W) : (dat1 (V6 m ρ) c).arrAt w cfg1.N = V7 m ρ c (Pipeline.arrRef spec1 w) :=
  (W7_arr m ρ c w).symm
theorem hrest1 (c : Dev nD) : ∀ b, b ∉ Finset.univ.image (Pipeline.arrRef spec1) → V7 m ρ c b = V6 m ρ c b :=
  fun b hb => W7_of_ne m ρ c b fun w e => hb (Finset.mem_image.mpr ⟨w, Finset.mem_univ _, e⟩)

/-- After the last host stretch (the mean of the per-row losses): the contents at the return. -/
abbrev W8 : Dev nD → Valuation τ sig (Elt F) := fun c => StableHlo.after hostOps2 (W7 m ρ c)

/-! ### A host stretch leaves alone every buffer it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W8_of (c : Dev nD) (r : Ref sig .tc) (h : r ∉ hostOps2_W) : W8 m ρ c (Proc.devRef .tc r) = W7 m ρ c (Proc.devRef .tc r) :=
  StableHlo.after_of_writes_sub hostOps2 _ hostOps2_writes h

/-- A buffer none of the five leading host stretches writes enters region 0 as launched. -/
theorem W5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  (W5_of m ρ c r h4).trans <| (W4_of m ρ c r h3).trans <| (W3_of m ρ c r h2).trans <| (W2_of m ρ c r h1).trans <| (W1_of m ρ c r h0).trans rfl

/-! ### The arguments end as launched: no host stretch writes one, and a region reads it through an input window
    (whose array is never written back) or bypasses it -/

theorem W8_main_arg0 (c : Dev nD) : W8 m ρ c (Proc.devRef .tc main_arg0) = m ((c : Thread nD τ).loc main_arg0) :=
  (W8_of m ρ c main_arg0 (by decide)).trans <| (W7_of_ne m ρ c main_arg0 (by decide)).trans <| (W6_of_ne m ρ c main_arg0 (by decide)).trans <|
    W5_launch m ρ c main_arg0 (by decide) (by decide) (by decide) (by decide) (by decide)
theorem W8_main_arg1 (c : Dev nD) : W8 m ρ c (Proc.devRef .tc main_arg1) = m ((c : Thread nD τ).loc main_arg1) :=
  (W8_of m ρ c main_arg1 (by decide)).trans <| (W7_of_ne m ρ c main_arg1 (by decide)).trans <|
    ((W6_arr m ρ c 1).trans (((dat0 (V5 m ρ) c).arrAt_in 1 rfl _).trans (A_eq0 (V5 m ρ) c 1))).trans <|
    W5_launch m ρ c main_arg1 (by decide) (by decide) (by decide) (by decide) (by decide)
theorem W8_main_arg2 (c : Dev nD) : W8 m ρ c (Proc.devRef .tc main_arg2) = m ((c : Thread nD τ).loc main_arg2) :=
  (W8_of m ρ c main_arg2 (by decide)).trans <|
    ((W7_arr m ρ c 3).trans (((dat1 (V6 m ρ) c).arrAt_in 3 rfl _).trans (A_eq1 (V6 m ρ) c 3))).trans <|
    (W6_of_ne m ρ c main_arg2 (by decide)).trans <|
    W5_launch m ρ c main_arg2 (by decide) (by decide) (by decide) (by decide) (by decide)
theorem W8_main_arg3 (c : Dev nD) : W8 m ρ c (Proc.devRef .tc main_arg3) = m ((c : Thread nD τ).loc main_arg3) :=
  (W8_of m ρ c main_arg3 (by decide)).trans <| (W7_of_ne m ρ c main_arg3 (by decide)).trans <| (W6_of_ne m ρ c main_arg3 (by decide)).trans <|
    W5_launch m ρ c main_arg3 (by decide) (by decide) (by decide) (by decide) (by decide)
theorem W8_main_arg4 (c : Dev nD) : W8 m ρ c (Proc.devRef .tc main_arg4) = m ((c : Thread nD τ).loc main_arg4) :=
  (W8_of m ρ c main_arg4 (by decide)).trans <| (W7_of_ne m ρ c main_arg4 (by decide)).trans <| (W6_of_ne m ρ c main_arg4 (by decide)).trans <|
    W5_launch m ρ c main_arg4 (by decide) (by decide) (by decide) (by decide) (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it is left
    with those references at the stretch's result on `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! ## The regions as segments -/

-- the library's lemmas are stated over the pinned configuration `pin pcs a p`: matching them takes unfolding plain
-- definitions in a metavariable's type
set_option backward.isDefEq.respectTransparency.types false in
/-- REGION 0 (the attention read-out) over the thread state: entered from every unscoped buffer at `W5`, left at `W6`. Its arrays are split out of the unscoped buffers and put back at the exit contents; the generator register and the scoped buffers no window stages make the class invariant, from which the region's own invariant starts and to which it returns; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun c t => owed0 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q0 (V5 m ρ) c w) (V5 m ρ c) fun w => A_eq0 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed0 (V5 m ρ) c 0]
      icases HO with ⟨%W, HO⟩; iexists W; isplitr
      · ipureintro; exact fun _ _ => Or.inl (by rw [show (pdats m ρ 0 c).recorded 0 = Set.univ from recorded0 (V5 m ρ) c 0]; trivial)
      iexact HO
    isplitl [Hp]; · iexact Hp
    iexact Hrest
  hin c := (show iprop(iprop(∃ r, prngReg c r) ∗ Pipeline.prefHeld (pcfgs (F := F) 0).pre c (fun _ => fullShare) (adm (F := F) 0).1
        ∗ Pipeline.scopedRest (Pipeline.pin (pcfgs (F := F)) adm 0).spec c) ⊢ (Pipeline.ΦA spec0 c : sProp 𝕄) from by
      unfold Pipeline.ΦA
      iintro ⟨Hp, -, Hr⟩
      isplitl [Hr]; · iexact Hr
      iexact Hp).trans (hin0 (V5 m ρ) c)
  hout c := (hout0 (V5 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q0 (V5 m ρ) c w)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed0 (V5 m ρ) c _]
    icases HO with ⟨%W, -, HO⟩; iexists W; iexact HO

-- the library's lemmas are stated over the pinned configuration `pin pcs a p`: matching them takes unfolding plain
-- definitions in a metavariable's type
set_option backward.isDefEq.respectTransparency.types false in
/-- REGION 1 (the classifier and its loss) over the thread state: entered from every unscoped buffer at `W6`, left at `W7`, by the same road as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m ρ) c).loose
  hwaits := Pipeline.hwaits_of_owed_zero _ _ _ _ L lv 1 fun c t => owed1 (V6 m ρ) c t
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec1 c (V6 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q1 (V6 m ρ) c w) (V6 m ρ c) fun w => A_eq1 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 (V6 m ρ) c 0]
      icases HO with ⟨%W, HO⟩; iexists W; isplitr
      · ipureintro; exact fun _ _ => Or.inl (by rw [show (pdats m ρ 1 c).recorded 0 = Set.univ from recorded1 (V6 m ρ) c 0]; trivial)
      iexact HO
    isplitl [Hp]; · iexact Hp
    iexact Hrest
  hin c := (show iprop(iprop(∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (V6 m ρ) c)
  hout c := (hout1 (V6 m ρ) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q1 (V6 m ρ) c w)
      (V6 m ρ c) (V7 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed1 (V6 m ρ) c _]
    icases HO with ⟨%W, -, HO⟩; iexists W; iexact HO

/-! ## The main function as segments, and the launch -/

/-- The eight segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .region (reg1 m ρ),
    .host (hseg hostOps2 hostOps2_sub hostOps2_fresh (W7 m ρ)) ]
/-- The main function IS the run of the segments: it is the chain of its items, and the segments' run is that chain
    by definitional unfolding. -/
theorem main_run (c : Dev nD) : main (F := F) c = Pipeline.Seg.run (segs m ρ) := (main_chain c).trans (by chain_rfl)

-- the launch theorem's implicit arguments are read off its conclusion, which takes unfolding plain definitions in a
-- metavariable's type
set_option backward.isDefEq.respectTransparency.types false in
/-- Every weakly fair execution terminates and every unscoped buffer ends at the fold's last stage. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W8 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The frame claim's post at any `F`: at the compiled mesh, from any memory with zero counters, every weakly fair
    execution of the main function on the TensorCores terminates, and every final state has the five argument arrays
    as launched — each is an unscoped buffer, read off the fold's last stage. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c)⟩) (run_all m ρ)

end Cert.KernelIdeal.Hand

end
-- ==== Proof.Consts.lean ====
import Idealize.ShloMosaic.PureOps.Ideal

noncomputable section

/-! The float words the two programs spell, as the extended reals they denote. -/
namespace Cert.Consts

open Idealize.ShloMosaic

/-- The word of `+0.0` denotes `0`. -/
theorem ofBits_zero : Ideal.ofBits .f32 0x00000000#32 = 0 := by
  simp [Ideal.ofBits, Ideal.ieee]

/-- The word of `-inf` denotes the bottom element. -/
theorem ofBits_neg_inf : Ideal.ofBits .f32 0xFF800000#32 = ⊥ := by
  simp [Ideal.ofBits, Ideal.ieee]

/-- The word of `+inf` denotes the top element. -/
theorem ofBits_pos_inf : Ideal.ofBits .f32 0x7F800000#32 = ⊤ := by
  simp [Ideal.ofBits, Ideal.ieee]

/-- The batch size `2048.0` denotes the real `2048`. -/
theorem ofBits_2048 : Ideal.ofBits .f32 0x45000000#32 = ((2048 : ℝ) : EReal) := by
  simp [Ideal.ofBits, Ideal.ieee, -EReal.coe_mul]; norm_num

/-- The temperature word (the f32 nearest `512 ^ (-1/2)`) denotes a real number: the dyadic `11863283 / 2 ^ 28`. -/
theorem ofBits_tau : Ideal.ofBits .f32 0x3D3504F3#32 = ((11863283 / 268435456 : ℝ) : EReal) := by
  simp [Ideal.ofBits, Ideal.ieee, -EReal.coe_mul]; norm_num

end Cert.Consts

end
-- ==== Proof.PreDecode.lean ====
import proofs.«425831_j18433999634698_3_alg».proof.Pre_finite_inputs
import Idealize.ShloMosaic.PureOps.Ideal
import Idealize.ShloMosaic.Lib.ReduceAll
import Idealize.ShloMosaic.Lib.ValueIdx
import Idealize.ShloMosaic.Lib.StableHlo.Predicate
import proofs.«425831_j18433999634698_3_alg».proof.Proof.Consts

noncomputable section

/-! What the precondition says of the argument arrays: every float entry is a real number, and every label
    is a class index. -/
namespace Cert.PreDecode

open Idealize.ShloMosaic Cert.Pre_finite_inputs

variable [Cert.Pre_finite_inputs.Facts]

instance : Subsingleton S_.Idx := ⟨fun a b => funext fun d => d.elim0⟩

/-- An extended real whose absolute value is below `+∞` is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

/-- One `jnp.all(|x| < inf)` conjunct read at an entry. -/
theorem finite_of_all {s : Shape} (x : FVec Ideal s .f32) (hb : S_.BroadcastsInDim s (![] : Fin 0 → Fin s.rank)) (axes : List (Fin s.rank))
    (hr : s.ReducesTo axes S_) (h0 : 0 < S_.numel)
    (h : Host.reduce IntOp.andi (cmpf .olt (Host.absf x) (broadcastInDim s ![] hb (constant S_ .f32 0x7F800000#32))) (constantI S_ 1 1#1) hr h0 ValueIdx.ix0 = 1#1)
    (i : s.Idx) : ∃ r : ℝ, x i = (r : EReal) := by
  have hi := Host.reduce_andi_all _ _ hr h0 _ h i
  refine real_of_abs_lt_top (x i) ?_
  have : (broadcastInDim s ![] hb (constant (F := Ideal) S_ .f32 0x7F800000#32)) i = ⊤ := by
    rw [StableHlo.Predicate.bcast_scalar hb h0]
    exact Consts.ofBits_pos_inf
  have hi' : Ideal.cmp .olt (max (x i) (-(x i))) ((broadcastInDim s ![] hb (constant (F := Ideal) S_ .f32 0x7F800000#32)) i) = 1#1 := hi
  rwa [this] at hi'

/-- The precondition, decoded: the four float arguments hold real numbers and every label lies in `[0, 10000)`. -/
theorem decode (a0 : FVec Ideal S2048x512 .f32) (a1 : FVec Ideal S32768x512 .f32) (a2 : IVec S2048x1 32) (a3 : FVec Ideal S10000x512 .f32)
    (a4 : FVec Ideal S10000 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, 0 ≤ (a2 i).toInt ∧ (a2 i).toInt < 10000) := by
  have h0 := congrFun h ValueIdx.ix0
  dsimp only [fn, fn_part1] at h0
  simp only [andi, IntOp.andi_eq_one] at h0
  obtain ⟨⟨⟨⟨h3, h7⟩, h12⟩, h17⟩, h24⟩ := h0
  refine ⟨finite_of_all a0 _ _ _ _ h3, finite_of_all a1 _ _ _ _ h7, finite_of_all a3 _ _ _ _ h12, finite_of_all a4 _ _ _ _ h17, fun i => ?_⟩
  have hi := Host.reduce_andi_all _ _ _ _ _ h24 i
  simp only [andi, cmpi, IntOp.andi_eq_one, IntOp.cmpi_sge, IntOp.cmpi_slt] at hi
  obtain ⟨hge, hlt⟩ := hi
  rw [StableHlo.Predicate.bcast_scalar _ Facts.h_S_] at hge hlt
  simp only [constantI] at hge hlt
  exact ⟨by simpa using hge, by simpa using hlt⟩

end Cert.PreDecode

end
-- ==== Proof.Spec.lean ====
import Idealize.ShloMosaic.PureOps.Ideal
import Mathlib.Data.EReal.Inv
import Mathlib.Data.Finset.Fold
import Mathlib.Algebra.BigOperators.Fin
import Mathlib.Algebra.BigOperators.Ring.Finset
import Mathlib.Algebra.Order.BigOperators.Ring.Finset
import Mathlib.Analysis.SpecialFunctions.Log.Basic
import Mathlib.Logic.Equiv.Fin.Basic

/-!
  Two identities of softmax arithmetic at the extended reals, over abstract finite index types.

  (1) The online softmax recurrence — a running maximum, a running denominator and a running
  weighted sum, rescaled tile by tile — ends at the plain softmax read-out of the whole row.

  (2) A cross-entropy row computed over columns padded with `⊥` equals the negated
  log-softmax gathered at the target.

  Both are stated for real (finite) inputs coerced into the extended reals.
-/

namespace Cert.Spec
open Idealize.ShloMosaic
open scoped BigOperators

noncomputable section

variable {K D : ℕ}

/-- One key tile's update of (running maximum, running denominator, running weighted sum) of one
    query row. -/
def flashStep (s : Fin K → EReal) (v : Fin K → Fin D → EReal) (st : EReal × EReal × (Fin D → EReal)) :
    EReal × EReal × (Fin D → EReal) :=
  (max st.1 ((Finset.univ : Finset (Fin K)).fold max ⊥ s),
   Ideal.exp (st.1 - max st.1 ((Finset.univ : Finset (Fin K)).fold max ⊥ s)) * st.2.1
     + ∑ k, Ideal.exp (s k - max st.1 ((Finset.univ : Finset (Fin K)).fold max ⊥ s)),
   fun d => Ideal.exp (st.1 - max st.1 ((Finset.univ : Finset (Fin K)).fold max ⊥ s)) * st.2.2 d
     + ∑ k, Ideal.exp (s k - max st.1 ((Finset.univ : Finset (Fin K)).fold max ⊥ s)) * v k d)

def flashInit : EReal × EReal × (Fin D → EReal) := (⊥, 0, fun _ => 0)

/-- The triple after the first n key tiles. -/
def flashState {T : ℕ} (s : Fin T → Fin K → EReal) (v : Fin T → Fin K → Fin D → EReal) :
    ℕ → EReal × EReal × (Fin D → EReal)
  | 0 => flashInit
  | n + 1 => if h : n < T then flashStep (s ⟨n, h⟩) (v ⟨n, h⟩) (flashState s v n) else flashState s v n

/-- The softmax read-out of one row over a flat key index, as a host program spells it (max from
    ⊥, exp of the shifted scores, 0 + their sum, quotient, weighted sum). -/
def softmaxRead {N : Type} [Fintype N] (s : N → EReal) (v : N → Fin D → EReal) (d : Fin D) : EReal :=
  ∑ n, Ideal.div (Ideal.exp (s n - max ⊥ ((Finset.univ : Finset N).fold max ⊥ s)))
    (0 + ∑ n', Ideal.exp (s n' - max ⊥ ((Finset.univ : Finset N).fold max ⊥ s))) * v n d

/-- A cross-entropy row over W columns as the kernel computes it: row maximum (from ⊥),
    log-sum-exp, minus the target's entry picked by a one-column mask. -/
def ceKernel {W : ℕ} (y : Fin W → EReal) (hit : Fin W → Bool) : EReal :=
  ((Finset.univ : Finset (Fin W)).fold max ⊥ y
    + Ideal.log (∑ c, Ideal.exp (y c - (Finset.univ : Finset (Fin W)).fold max ⊥ y)))
    - ∑ c, (if hit c then y c else 0)

/-- The same row as the host's log_softmax gathered at the target and negated. -/
def ceRef {C : ℕ} (x : Fin C → EReal) (g : Fin C) : EReal :=
  -((x g - max ⊥ ((Finset.univ : Finset (Fin C)).fold max ⊥ x))
    - Ideal.log (0 + ∑ c, Ideal.exp (x c - max ⊥ ((Finset.univ : Finset (Fin C)).fold max ⊥ x))))

/-- coercion commutes with finite sums -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The running maximum (from `⊥`) of finitely many reals, at least one, is a real. -/
theorem fold_max_coe {ι : Type} [Fintype ι] [Nonempty ι] (f : ι → ℝ) :
    ∃ M : ℝ, (Finset.univ : Finset ι).fold max ⊥ (fun i => ((f i : ℝ) : EReal)) = (M : EReal) := by
  obtain ⟨i₀, -, hi₀⟩ := Finset.exists_max_image (Finset.univ : Finset ι) f Finset.univ_nonempty
  refine ⟨f i₀, le_antisymm ?_ ?_⟩
  · rw [Finset.fold_max_le]
    exact ⟨bot_le, fun j hj => EReal.coe_le_coe_iff.2 (hi₀ j hj)⟩
  · rw [Finset.le_fold_max]
    exact Or.inr ⟨i₀, Finset.mem_univ _, le_rfl⟩

/-- A sum over `W` columns of a function that vanishes past the first `C` is the sum over those. -/
theorem sum_pad {M : Type} [AddCommMonoid M] {C W : ℕ} (hCW : C ≤ W) (g : Fin C → M) :
    ∑ c : Fin W, (if h : c.val < C then g ⟨c.val, h⟩ else 0) = ∑ i : Fin C, g i := by
  rw [← Finset.sum_subset (Finset.subset_univ (Finset.univ.map (Fin.castLEEmb hCW)))]
  · rw [Finset.sum_map]
    refine Finset.sum_congr rfl fun i _ => ?_
    have hi : ((Fin.castLEEmb hCW) i).val < C := by simp
    rw [dif_pos hi]
    congr 1
  · intro c _ hc
    rw [dif_neg]
    intro h
    exact hc (Finset.mem_map.2 ⟨⟨c.val, h⟩, Finset.mem_univ _, Fin.ext rfl⟩)

/-- Padding a row with `⊥` does not move its maximum. -/
theorem fold_max_pad {C W : ℕ} (hCW : C ≤ W) (x : Fin C → EReal) :
    (Finset.univ : Finset (Fin W)).fold max ⊥ (fun c => if h : c.val < C then x ⟨c.val, h⟩ else ⊥)
      = (Finset.univ : Finset (Fin C)).fold max ⊥ x := by
  apply le_antisymm
  · rw [Finset.fold_max_le]
    refine ⟨bot_le, fun c _ => ?_⟩
    by_cases h : c.val < C
    · rw [dif_pos h, Finset.le_fold_max]
      exact Or.inr ⟨_, Finset.mem_univ _, le_rfl⟩
    · rw [dif_neg h]; exact bot_le
  · rw [Finset.fold_max_le]
    refine ⟨bot_le, fun i _ => ?_⟩
    rw [Finset.le_fold_max]
    refine Or.inr ⟨Fin.castLE hCW i, Finset.mem_univ _, ?_⟩
    have hi : (Fin.castLE hCW i).val < C := by simp
    rw [dif_pos hi]
    exact le_of_eq (congrArg x (Fin.ext rfl))

theorem ce_eq {C W : ℕ} (hC : 0 < C) (hCW : C ≤ W) (x : Fin C → ℝ) (g : Fin C) :
    ceKernel (fun c : Fin W => if h : c.val < C then ((x ⟨c.val, h⟩ : ℝ) : EReal) else ⊥)
        (fun c => decide (c.val = g.val))
      = ceRef (fun c => ((x c : ℝ) : EReal)) g := by
  haveI : Nonempty (Fin C) := ⟨⟨0, hC⟩⟩
  obtain ⟨m, hm⟩ := fold_max_coe x
  have hgW : g.val < W := lt_of_lt_of_le g.2 hCW
  have hpos : 0 < ∑ i : Fin C, Real.exp (x i - m) :=
    Finset.sum_pos (fun i _ => Real.exp_pos _) Finset.univ_nonempty
  -- the kernel's side
  have hfold : (Finset.univ : Finset (Fin W)).fold max ⊥
      (fun c : Fin W => if h : c.val < C then ((x ⟨c.val, h⟩ : ℝ) : EReal) else ⊥) = (m : EReal) := by
    rw [← hm]
    exact fold_max_pad hCW (fun i => ((x i : ℝ) : EReal))
  have hsum : ∑ c : Fin W, Ideal.exp ((if h : c.val < C then ((x ⟨c.val, h⟩ : ℝ) : EReal) else ⊥) - (m : EReal))
      = ((∑ i : Fin C, Real.exp (x i - m) : ℝ) : EReal) := by
    rw [coe_sum, ← sum_pad hCW (fun i : Fin C => ((Real.exp (x i - m) : ℝ) : EReal))]
    refine Finset.sum_congr rfl fun c _ => ?_
    by_cases h : c.val < C
    · rw [dif_pos h, dif_pos h, ← EReal.coe_sub, Ideal.exp_coe]
    · rw [dif_neg h, dif_neg h, sub_eq_add_neg, EReal.bot_add, Ideal.exp_bot]
  have hmask : ∑ c : Fin W, (if decide (c.val = g.val) then
      (if h : c.val < C then ((x ⟨c.val, h⟩ : ℝ) : EReal) else ⊥) else 0) = ((x g : ℝ) : EReal) := by
    rw [Finset.sum_eq_single (⟨g.val, hgW⟩ : Fin W)]
    · have hg : (⟨g.val, hgW⟩ : Fin W).val < C := g.2
      rw [if_pos (by simp), dif_pos hg]
    · intro c _ hc
      rw [if_neg]
      simpa [Fin.ext_iff] using hc
    · intro h; exact absurd (Finset.mem_univ _) h
  -- the host's side
  have hsumC : ∑ c : Fin C, Ideal.exp (((x c : ℝ) : EReal) - (m : EReal))
      = ((∑ i : Fin C, Real.exp (x i - m) : ℝ) : EReal) := by
    rw [coe_sum]
    refine Finset.sum_congr rfl fun c _ => ?_
    rw [← EReal.coe_sub, Ideal.exp_coe]
  unfold ceKernel ceRef
  rw [hfold, hsum, hmask, hm, max_eq_right bot_le, hsumC, zero_add, Ideal.log_coe,
    if_neg (not_le.2 hpos), ← EReal.coe_add, ← EReal.coe_sub, ← EReal.coe_sub, ← EReal.coe_sub,
    ← EReal.coe_neg]
  congr 1
  ring

theorem coe_max' (a b : ℝ) : ((max a b : ℝ) : EReal) = max (a : EReal) (b : EReal) :=
  EReal.coe_strictMono.monotone.map_max

theorem exp_sub_coe (a b : ℝ) :
    Ideal.exp ((a : EReal) - (b : EReal)) = ((Real.exp (a - b) : ℝ) : EReal) := by
  rw [← EReal.coe_sub, Ideal.exp_coe]

/-- The tiles before the `n`-th. -/
def tiles (T n : ℕ) : Finset (Fin T) := Finset.univ.filter (fun t => t.val < n)

theorem tiles_succ {T n : ℕ} (h : n < T) : tiles T (n + 1) = insert ⟨n, h⟩ (tiles T n) := by
  ext t
  simp only [tiles, Finset.mem_filter, Finset.mem_univ, true_and, Finset.mem_insert, Fin.ext_iff]
  omega

theorem not_mem_tiles {T n : ℕ} (h : n < T) : (⟨n, h⟩ : Fin T) ∉ tiles T n := by
  simp [tiles]

theorem tiles_one {T : ℕ} (h : 0 < T) : tiles T 1 = {⟨0, h⟩} := by
  ext t
  simp only [tiles, Finset.mem_filter, Finset.mem_univ, true_and, Finset.mem_singleton, Fin.ext_iff]
  omega

theorem tiles_full (T : ℕ) : tiles T T = Finset.univ := by
  ext t; simp [tiles]

theorem flashState_succ {T : ℕ} (s : Fin T → Fin K → EReal) (v : Fin T → Fin K → Fin D → EReal)
    {n : ℕ} (h : n < T) :
    flashState s v (n + 1) = flashStep (s ⟨n, h⟩) (v ⟨n, h⟩) (flashState s v n) := by
  rw [flashState, dif_pos h]

/-- The first tile: from `(⊥, 0, 0)` to the tile's own maximum, denominator and weighted sum. -/
theorem flashStep_init (hK : 0 < K) (s : Fin K → ℝ) (v : Fin K → Fin D → ℝ) :
    ∃ M : ℝ, flashStep (fun k => ((s k : ℝ) : EReal)) (fun k d => ((v k d : ℝ) : EReal)) flashInit
      = ((M : EReal), ((∑ k, Real.exp (s k - M) : ℝ) : EReal),
          fun d => ((∑ k, Real.exp (s k - M) * v k d : ℝ) : EReal)) := by
  haveI : Nonempty (Fin K) := ⟨⟨0, hK⟩⟩
  obtain ⟨M, hM⟩ := fold_max_coe s
  refine ⟨M, ?_⟩
  unfold flashStep flashInit
  simp only [hM, max_bot_left, EReal.bot_sub, Ideal.exp_bot, mul_zero, zero_add, exp_sub_coe,
    ← EReal.coe_mul, ← coe_sum]

/-- A later tile: all three components stay real; the old sums are rescaled to the new maximum. -/
theorem flashStep_coe (hK : 0 < K) (s : Fin K → ℝ) (v : Fin K → Fin D → ℝ) (M L : ℝ)
    (A : Fin D → ℝ) :
    ∃ M' : ℝ, flashStep (fun k => ((s k : ℝ) : EReal)) (fun k d => ((v k d : ℝ) : EReal))
        ((M : EReal), (L : EReal), fun d => ((A d : ℝ) : EReal))
      = ((M' : EReal), ((Real.exp (M - M') * L + ∑ k, Real.exp (s k - M') : ℝ) : EReal),
          fun d => ((Real.exp (M - M') * A d + ∑ k, Real.exp (s k - M') * v k d : ℝ) : EReal)) := by
  haveI : Nonempty (Fin K) := ⟨⟨0, hK⟩⟩
  obtain ⟨mt, hmt⟩ := fold_max_coe s
  refine ⟨max M mt, ?_⟩
  unfold flashStep
  simp only [hmt, ← coe_max', exp_sub_coe, ← EReal.coe_mul, ← coe_sum, ← EReal.coe_add]

/-- After `n + 1` tiles the triple is (a real shift, the shifted exponentials' sum over the tiles
    read so far, their weighted sum), all real. -/
theorem flashState_coe {T : ℕ} (hK : 0 < K) (s : Fin T → Fin K → ℝ) (v : Fin T → Fin K → Fin D → ℝ) :
    ∀ n, n < T → ∃ M : ℝ,
      flashState (fun t k => ((s t k : ℝ) : EReal)) (fun t k d => ((v t k d : ℝ) : EReal)) (n + 1)
        = ((M : EReal), ((∑ t ∈ tiles T (n + 1), ∑ k, Real.exp (s t k - M) : ℝ) : EReal),
           fun d => ((∑ t ∈ tiles T (n + 1), ∑ k, Real.exp (s t k - M) * v t k d : ℝ) : EReal))
  | 0, h => by
    obtain ⟨M, hM⟩ := flashStep_init hK (s ⟨0, h⟩) (v ⟨0, h⟩)
    refine ⟨M, ?_⟩
    rw [flashState_succ _ _ h]
    show flashStep _ _ flashInit = _
    rw [hM, tiles_one h]
    simp only [Finset.sum_singleton]
  | n + 1, h => by
    obtain ⟨M, hM⟩ := flashState_coe hK s v n (Nat.lt_of_succ_lt h)
    obtain ⟨M', hM'⟩ := flashStep_coe hK (s ⟨n + 1, h⟩) (v ⟨n + 1, h⟩) M
      (∑ t ∈ tiles T (n + 1), ∑ k, Real.exp (s t k - M))
      (fun d => ∑ t ∈ tiles T (n + 1), ∑ k, Real.exp (s t k - M) * v t k d)
    refine ⟨M', ?_⟩
    have key : ∀ a : ℝ, Real.exp (M - M') * Real.exp (a - M) = Real.exp (a - M') := fun a => by
      rw [← Real.exp_add]; congr 1; ring
    rw [flashState_succ _ _ h, hM, hM', tiles_succ h]
    refine Prod.ext rfl (Prod.ext ?_ (funext fun d => ?_))
    · show ((_ : ℝ) : EReal) = ((_ : ℝ) : EReal)
      congr 1
      rw [Finset.sum_insert (not_mem_tiles h), Finset.mul_sum, add_comm]
      congr 1
      refine Finset.sum_congr rfl fun t _ => ?_
      rw [Finset.mul_sum]
      exact Finset.sum_congr rfl fun k _ => key _
    · show ((_ : ℝ) : EReal) = ((_ : ℝ) : EReal)
      congr 1
      rw [Finset.sum_insert (not_mem_tiles h), Finset.mul_sum, add_comm]
      congr 1
      refine Finset.sum_congr rfl fun t _ => ?_
      rw [Finset.mul_sum]
      refine Finset.sum_congr rfl fun k _ => ?_
      rw [← mul_assoc, key]

theorem sum_tiles_full {T : ℕ} {N : Type} [Fintype N] (e : Fin T × Fin K ≃ N) (F : N → ℝ) :
    ∑ t ∈ tiles T T, ∑ k, F (e (t, k)) = ∑ j, F j := by
  rw [tiles_full, ← Equiv.sum_comp e F, Fintype.sum_prod_type]

/-- The host's read-out on real inputs, as a real: the shift is some real `Mh`. -/
theorem softmaxRead_coe {N : Type} [Fintype N] [Nonempty N] (s : N → ℝ) (v : N → Fin D → ℝ)
    (d : Fin D) :
    ∃ Mh : ℝ, softmaxRead (fun n => ((s n : ℝ) : EReal)) (fun n d => ((v n d : ℝ) : EReal)) d
      = ((∑ j, Real.exp (s j - Mh) * (1 / ∑ j', Real.exp (s j' - Mh)) * v j d : ℝ) : EReal) := by
  obtain ⟨Mh, hMh⟩ := fold_max_coe s
  refine ⟨Mh, ?_⟩
  have hpos : 0 < ∑ j, Real.exp (s j - Mh) :=
    Finset.sum_pos (fun _ _ => Real.exp_pos _) Finset.univ_nonempty
  unfold softmaxRead
  simp only [hMh, max_bot_left, exp_sub_coe, zero_add, ← coe_sum, Ideal.div_coe hpos.ne',
    ← EReal.coe_mul]

theorem flash_eq_softmax {T : ℕ} (hT : 0 < T) (hK : 0 < K) {N : Type} [Fintype N]
    (e : Fin T × Fin K ≃ N) (s : N → ℝ) (v : N → Fin D → ℝ) (d : Fin D) :
    Ideal.div ((flashState (fun t k => ((s (e (t, k)) : ℝ) : EReal))
        (fun t k d => ((v (e (t, k)) d : ℝ) : EReal)) T).2.2 d)
      (flashState (fun t k => ((s (e (t, k)) : ℝ) : EReal))
        (fun t k d => ((v (e (t, k)) d : ℝ) : EReal)) T).2.1
      = softmaxRead (fun n => ((s n : ℝ) : EReal)) (fun n d => ((v n d : ℝ) : EReal)) d := by
  haveI : Nonempty N := ⟨e (⟨0, hT⟩, ⟨0, hK⟩)⟩
  obtain ⟨n, rfl⟩ : ∃ n, T = n + 1 := ⟨T - 1, by omega⟩
  obtain ⟨M, hM⟩ := flashState_coe hK (fun t k => s (e (t, k))) (fun t k d => v (e (t, k)) d) n
    (Nat.lt_succ_self n)
  obtain ⟨Mh, hMh⟩ := softmaxRead_coe s v d
  rw [hMh, hM]
  show Ideal.div ((_ : ℝ) : EReal) ((_ : ℝ) : EReal) = _
  rw [sum_tiles_full e (fun j => Real.exp (s j - M) * v j d),
    sum_tiles_full e (fun j => Real.exp (s j - M))]
  have hc : ∀ j, Real.exp (s j - M) = Real.exp (Mh - M) * Real.exp (s j - Mh) := fun j => by
    rw [← Real.exp_add]; congr 1; ring
  have hcne : Real.exp (Mh - M) ≠ 0 := (Real.exp_pos _).ne'
  have hLh : 0 < ∑ j, Real.exp (s j - Mh) :=
    Finset.sum_pos (fun _ _ => Real.exp_pos _) Finset.univ_nonempty
  have hL : ∑ j, Real.exp (s j - M) = Real.exp (Mh - M) * ∑ j, Real.exp (s j - Mh) := by
    rw [Finset.mul_sum]; exact Finset.sum_congr rfl fun j _ => hc j
  have hA : ∑ j, Real.exp (s j - M) * v j d
      = Real.exp (Mh - M) * ∑ j, Real.exp (s j - Mh) * v j d := by
    rw [Finset.mul_sum]; exact Finset.sum_congr rfl fun j _ => by rw [hc j, mul_assoc]
  have hR : ∑ j, Real.exp (s j - Mh) * (1 / ∑ j', Real.exp (s j' - Mh)) * v j d
      = (∑ j, Real.exp (s j - Mh) * v j d) * (1 / ∑ j', Real.exp (s j' - Mh)) := by
    rw [Finset.sum_mul]; exact Finset.sum_congr rfl fun j _ => by ring
  have hLne : (∑ j, Real.exp (s j - M)) ≠ 0 := by
    rw [hL]; exact mul_ne_zero hcne hLh.ne'
  rw [Ideal.div_coe hLne, ← EReal.coe_mul, hR, hA, hL]
  congr 1
  field_simp

theorem softmaxRead_real {N : Type} [Fintype N] [Nonempty N] (s : N → ℝ) (v : N → Fin D → ℝ)
    (d : Fin D) :
    ∃ r : ℝ, softmaxRead (fun n => ((s n : ℝ) : EReal)) (fun n d => ((v n d : ℝ) : EReal)) d = (r : EReal) := by
  obtain ⟨Mh, hMh⟩ := softmaxRead_coe s v d
  exact ⟨_, hMh⟩

end

end Cert.Spec
-- ==== Proof.Ideal.R0Pay.lean ====
import proofs.«425831_j18433999634698_3_alg».proof.Proof.Gen.KernelIdeal.Skeleton
import proofs.«425831_j18433999634698_3_alg».proof.Proof.Spec
import proofs.«425831_j18433999634698_3_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! # The flash kernel's payloads read at an index

One key tile's update of a query row's running maximum, running denominator and running weighted
sum, each read at explicit coordinates, is one step of the online softmax recurrence. -/

/-! ## Column forms of the layout operations -/

/-- An `[a]` array cast to a column `[a, 1]` reads, at `(r, u)`, the operand at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Operations read at an index -/

/-- The exponential of a vector reads, at an index, the exponential of the entry. -/
theorem exp_apply {s : Shape} {φ : FTy} (a : FVec Ideal s φ) (i : s.Idx) : exp a i = Ideal.exp (a i) := rfl

/-! ## The scores: queries times keys, contracted over the feature axis -/

theorem lhs_pay8_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_pay8_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_pay8_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_pay8_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The scores as the operations that compute them. -/
theorem pay8_eq (x0 : Vec Ideal S1024x512 .f32) (x1 : Vec Ideal S2048x512 .f32) :
    k0_pay8 (F := Ideal) x0 x1
      = matmul dot_S1024x512_S2048x512_S1024x2048_1_1_0_0_n_n none (truncf .bf16 (shapeCast S1024x512 x0 shapeCasts_S1024x512_S1024x512) bitsLt_bf16_f32)
          (truncf .bf16 x1 bitsLt_bf16_f32) (constant S1024x2048 .f32 0x00000000#32) := rfl

/-- The score of query row `r` against key row `k`: the sum over the features of their products. -/
theorem pay8_apply (x0 : Vec Ideal S1024x512 .f32) (x1 : Vec Ideal S2048x512 .f32) (r : Fin 1024) (k : Fin 2048) :
    (k0_pay8 (F := Ideal) x0 x1) (ix2 r k) = ∑ dd : Fin 512, x0 (ix2 r dd) * x1 (ix2 k dd) := by
  rw [pay8_eq]
  refine (Ideal.matmul_constant_zero_apply _ none _ _ _).trans ?_
  rw [← Equiv.sum_comp (contrEquiv1 dot_S1024x512_S2048x512_S1024x2048_1_1_0_0_n_n 512 rfl rfl).symm]
  refine Finset.sum_congr rfl fun dd _ => ?_
  have hk := contrEquiv1_symm_val dot_S1024x512_S2048x512_S1024x2048_1_1_0_0_n_n 512 rfl rfl dd
  have el : dot_S1024x512_S2048x512_S1024x2048_1_1_0_0_n_n.lhsIdx (ix2 r k) ((contrEquiv1 dot_S1024x512_S2048x512_S1024x2048_1_1_0_0_n_n 512 rfl rfl).symm dd) = ix2 r dd := funext fun a => Fin.ext (by
    match a with
    | ⟨0, _⟩ => exact lhs_pay8_0 _ _
    | ⟨1, _⟩ => exact (lhs_pay8_1 _ _).trans hk)
  have er : dot_S1024x512_S2048x512_S1024x2048_1_1_0_0_n_n.rhsIdx (ix2 r k) ((contrEquiv1 dot_S1024x512_S2048x512_S1024x2048_1_1_0_0_n_n 512 rfl rfl).symm dd) = ix2 k dd := funext fun a => Fin.ext (by
    match a with
    | ⟨0, _⟩ => exact rhs_pay8_0 _ _
    | ⟨1, _⟩ => exact (rhs_pay8_1 _ _).trans hk)
  rw [el, er, truncf_apply, truncf_apply, shapeCast_self]

/-! ## The running maximum -/

/-- The source index of a row reduction: row `r` with the key coordinate `k` put back. -/
theorem lift_row (r : Fin 1024) (k : Fin 2048) :
    reduces_S1024x2048_S1024.lift (ix1 r) k = ix2 r k :=
  funext fun a => Fin.ext (by match a with | ⟨0, _⟩ => rfl | ⟨1, _⟩ => rfl)

/-- A row's maximum, kept as a column, read at row `r`: the fold of `max` from `⊥` over the row. -/
theorem rowmax_apply (s8 : FVec Ideal S1024x2048 .f32) (r : Fin 1024) :
    (shapeCast S1024x1 (multiReduction .maximumf [1] S1024 s8 0xFF800000#32 reduces_S1024x2048_S1024 (.inl rfl) rfl) shapeCasts_S1024_S1024x1) (ix2 r 0)
      = (Finset.univ : Finset (Fin 2048)).fold max ⊥ fun k => s8 (ix2 r k) := by
  rw [shapeCast_a_a1_apply]
  refine (Ideal.multiReduction_maximumf_single s8 _ reduces_S1024x2048_S1024 _ _ (ix1 r)).trans ?_
  rw [Ideal.ofBits_def, Consts.ofBits_neg_inf]
  refine congrArg (fun f => Finset.fold max (⊥ : EReal) f (Finset.univ : Finset (Fin 2048))) ?_
  funext k
  exact congrArg s8 (lift_row r k)

/-- A row's sum, kept as a column, read at row `r`: the sum over the row. -/
theorem rowsum_apply (s11 : FVec Ideal S1024x2048 .f32) (r : Fin 1024) :
    (shapeCast S1024x1 (multiReduction .add [1] S1024 s11 0x00000000#32 reduces_S1024x2048_S1024 (.inl rfl) rfl) shapeCasts_S1024_S1024x1) (ix2 r 0)
      = ∑ k : Fin 2048, s11 (ix2 r k) := by
  rw [shapeCast_a_a1_apply]
  refine (Ideal.multiReduction_add_single s11 _ reduces_S1024x2048_S1024 _ _ (ix1 r)).trans ?_
  refine Finset.sum_congr rfl fun k _ => ?_
  exact congrArg s11 (lift_row r k)

/-- The new running maximum as the operations that compute it. -/
theorem pay9_eq (x0 : Vec Ideal S1024x512 .f32) (x1 : Vec Ideal S2048x512 .f32) (m : Vec Ideal S1024x1 .f32) :
    k0_pay9 (F := Ideal) x0 x1 m
      = maximumf m (shapeCast S1024x1 (multiReduction .maximumf [1] S1024 (k0_pay8 (F := Ideal) x0 x1) 0xFF800000#32 reduces_S1024x2048_S1024 (.inl rfl) rfl) shapeCasts_S1024_S1024x1) := rfl

/-- The new running maximum of row `r`: the larger of the old one and the largest score of the tile. -/
theorem pay9_apply (x0 : Vec Ideal S1024x512 .f32) (x1 : Vec Ideal S2048x512 .f32) (m : Vec Ideal S1024x1 .f32) (r : Fin 1024) :
    (k0_pay9 (F := Ideal) x0 x1 m) (ix2 r 0)
      = max (m (ix2 r 0)) ((Finset.univ : Finset (Fin 2048)).fold max ⊥ fun k => ∑ dd : Fin 512, x0 (ix2 r dd) * x1 (ix2 k dd)) := by
  rw [pay9_eq, maximumf_apply, rowmax_apply]
  refine congrArg (fun f => max (m (ix2 r 0)) (Finset.fold max (⊥ : EReal) f (Finset.univ : Finset (Fin 2048)))) ?_
  funext k
  exact pay8_apply x0 x1 r k

/-! ## The rescaling factor and the shifted exponentials -/

theorem pay10_eq (x0 : Vec Ideal S1024x512 .f32) (x1 : Vec Ideal S2048x512 .f32) (m m' : Vec Ideal S1024x1 .f32) :
    k0_pay10 (F := Ideal) x0 x1 m m' = exp (subf m' (k0_pay9 (F := Ideal) x0 x1 m)) := rfl

/-- The factor that rescales the old denominator and weighted sum of row `r`. -/
theorem pay10_apply (x0 : Vec Ideal S1024x512 .f32) (x1 : Vec Ideal S2048x512 .f32) (m m' : Vec Ideal S1024x1 .f32) (r : Fin 1024) :
    (k0_pay10 (F := Ideal) x0 x1 m m') (ix2 r 0)
      = Ideal.exp (m' (ix2 r 0) - (k0_pay9 (F := Ideal) x0 x1 m) (ix2 r 0)) := by
  rw [pay10_eq, exp_apply, subf_apply]

theorem pay11_eq (x0 : Vec Ideal S1024x512 .f32) (x1 : Vec Ideal S2048x512 .f32) (m : Vec Ideal S1024x1 .f32) :
    k0_pay11 (F := Ideal) x0 x1 m
      = exp (subf (k0_pay8 (F := Ideal) x0 x1) (broadcastTo S1024x2048 (k0_pay9 (F := Ideal) x0 x1 m) broadcasts_S1024x1_S1024x2048)) := rfl

/-- The exponential of a score shifted by its row's new running maximum. -/
theorem pay11_apply (x0 : Vec Ideal S1024x512 .f32) (x1 : Vec Ideal S2048x512 .f32) (m : Vec Ideal S1024x1 .f32) (r : Fin 1024) (k : Fin 2048) :
    (k0_pay11 (F := Ideal) x0 x1 m) (ix2 r k)
      = Ideal.exp ((k0_pay8 (F := Ideal) x0 x1) (ix2 r k) - (k0_pay9 (F := Ideal) x0 x1 m) (ix2 r 0)) := by
  rw [pay11_eq, exp_apply, subf_apply, broadcastTo_a1_ab_apply]

/-! ## The running denominator -/

theorem pay12_eq (x0 : Vec Ideal S1024x512 .f32) (x1 : Vec Ideal S2048x512 .f32) (m m' l : Vec Ideal S1024x1 .f32) :
    k0_pay12 (F := Ideal) x0 x1 m m' l
      = shapeCast S1024x1 (addf (mulf (k0_pay10 (F := Ideal) x0 x1 m m') l)
          (shapeCast S1024x1 (multiReduction .add [1] S1024 (k0_pay11 (F := Ideal) x0 x1 m) 0x00000000#32 reduces_S1024x2048_S1024 (.inl rfl) rfl) shapeCasts_S1024_S1024x1))
          shapeCasts_S1024x1_S1024x1 := rfl

/-- The new denominator of row `r`: the old one rescaled, plus the tile's shifted exponentials. -/
theorem pay12_apply (x0 : Vec Ideal S1024x512 .f32) (x1 : Vec Ideal S2048x512 .f32) (m m' l : Vec Ideal S1024x1 .f32) (r : Fin 1024) :
    (k0_pay12 (F := Ideal) x0 x1 m m' l) (ix2 r 0)
      = (k0_pay10 (F := Ideal) x0 x1 m m') (ix2 r 0) * l (ix2 r 0) + ∑ k : Fin 2048, (k0_pay11 (F := Ideal) x0 x1 m) (ix2 r k) := by
  rw [pay12_eq, shapeCast_self, addf_apply, mulf_apply, rowsum_apply]

/-! ## The running weighted sum: shifted exponentials times keys, contracted over the key axis -/

theorem lhs_pay13_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
theorem lhs_pay13_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
theorem rhs_pay13_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
theorem rhs_pay13_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- Shifted exponentials times keys, contracted over the key axis, read at `(r, d)`. -/
theorem wsum_apply (s11 : FVec Ideal S1024x2048 .f32) (x1 : Vec Ideal S2048x512 .f32) (r : Fin 1024) (d : Fin 512) :
    (matmul dot_S1024x2048_S2048x512_S1024x512_1_0_0_1_n_n none (truncf .bf16 s11 bitsLt_bf16_f32) (truncf .bf16 x1 bitsLt_bf16_f32) (constant S1024x512 .f32 0x00000000#32)) (ix2 r d)
      = ∑ k : Fin 2048, s11 (ix2 r k) * x1 (ix2 k d) := by
  refine (Ideal.matmul_constant_zero_apply _ none _ _ _).trans ?_
  rw [← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 r d) ((contrEquiv1 dot_S1024x2048_S2048x512_S1024x512_1_0_0_1_n_n 2048 rfl rfl).symm k) = ix2 r k := funext fun a => Fin.ext (by
    match a with
    | ⟨0, _⟩ => exact lhs_pay13_0 _ _
    | ⟨1, _⟩ => exact (lhs_pay13_1 _ _).trans hk)
  have er : dot_S1024x2048_S2048x512_S1024x512_1_0_0_1_n_n.rhsIdx (ix2 r d) ((contrEquiv1 dot_S1024x2048_S2048x512_S1024x512_1_0_0_1_n_n 2048 rfl rfl).symm k) = ix2 k d := funext fun a => Fin.ext (by
    match a with
    | ⟨0, _⟩ => exact (rhs_pay13_0 _ _).trans hk
    | ⟨1, _⟩ => exact rhs_pay13_1 _ _)
  rw [el, er, truncf_apply, truncf_apply]

theorem pay13_eq (x0 : Vec Ideal S1024x512 .f32) (x1 : Vec Ideal S2048x512 .f32) (m m' : Vec Ideal S1024x1 .f32) (acc : Vec Ideal S1024x512 .f32) :
    k0_pay13 (F := Ideal) x0 x1 m m' acc
      = addf (mulf (broadcastTo S1024x512 (k0_pay10 (F := Ideal) x0 x1 m m') broadcasts_S1024x1_S1024x512) acc)
          (matmul dot_S1024x2048_S2048x512_S1024x512_1_0_0_1_n_n none (truncf .bf16 (k0_pay11 (F := Ideal) x0 x1 m) bitsLt_bf16_f32) (truncf .bf16 x1 bitsLt_bf16_f32) (constant S1024x512 .f32 0x00000000#32)) := rfl

/-- The new weighted sum of row `r` at feature `d`: the old one rescaled, plus the tile's shifted
    exponentials times the keys' feature `d`. -/
theorem pay13_apply (x0 : Vec Ideal S1024x512 .f32) (x1 : Vec Ideal S2048x512 .f32) (m m' : Vec Ideal S1024x1 .f32) (acc : Vec Ideal S1024x512 .f32) (r : Fin 1024) (d : Fin 512) :
    (k0_pay13 (F := Ideal) x0 x1 m m' acc) (ix2 r d)
      = (k0_pay10 (F := Ideal) x0 x1 m m') (ix2 r 0) * acc (ix2 r d) + ∑ k : Fin 2048, (k0_pay11 (F := Ideal) x0 x1 m) (ix2 r k) * x1 (ix2 k d) := by
  rw [pay13_eq, addf_apply, mulf_apply, broadcastTo_a1_ab_apply, wsum_apply]

/-! ## The read-out -/

theorem pay3_eq (acc : Vec Ideal S1024x512 .f32) (l : Vec Ideal S1024x1 .f32) :
    k0_pay3 (F := Ideal) acc l = divf acc (broadcastTo S1024x512 l broadcasts_S1024x1_S1024x512) := rfl

/-- The output block at `(r, d)`: the weighted sum over the denominator of row `r`. -/
theorem pay3_apply (acc : Vec Ideal S1024x512 .f32) (l : Vec Ideal S1024x1 .f32) (r : Fin 1024) (d : Fin 512) :
    (k0_pay3 (F := Ideal) acc l) (ix2 r d) = Ideal.div (acc (ix2 r d)) (l (ix2 r 0)) := by
  rw [pay3_eq, divf_apply, broadcastTo_a1_ab_apply]

/-! ## One step of the recurrence, and its start -/

theorem pay2_eq (v : FVec Ideal S1024x1 .f32) : k0_pay2 (F := Ideal) v = v := shapeCast_self v _
theorem pay1_eq (v : FVec Ideal S1024x512 .f32) : k0_pay1 (F := Ideal) v = v := shapeCast_self v _

/-- One step of the recurrence on an explicit triple. -/
theorem flashStep_mk {K D : ℕ} (s : Fin K → EReal) (v : Fin K → Fin D → EReal) (a b : EReal) (c : Fin D → EReal) :
    Spec.flashStep s v (a, b, c)
      = (max a ((Finset.univ : Finset (Fin K)).fold max ⊥ s),
         Ideal.exp (a - max a ((Finset.univ : Finset (Fin K)).fold max ⊥ s)) * b
           + ∑ k, Ideal.exp (s k - max a ((Finset.univ : Finset (Fin K)).fold max ⊥ s)),
         fun d => Ideal.exp (a - max a ((Finset.univ : Finset (Fin K)).fold max ⊥ s)) * c d
           + ∑ k, Ideal.exp (s k - max a ((Finset.univ : Finset (Fin K)).fold max ⊥ s)) * v k d) := rfl

/-- What one grid point leaves in the three scratch buffers, read at query row `r`, is one step of
    the recurrence on what it found there: the scores are the row's products with the tile's keys. -/
theorem step_row (x0 : Vec Ideal S1024x512 .f32) (x1 : Vec Ideal S2048x512 .f32) (m l : Vec Ideal S1024x1 .f32) (acc : Vec Ideal S1024x512 .f32) (r : Fin 1024) :
    ((k0_pay2 (F := Ideal) (k0_pay9 x0 x1 m)) (ix2 r 0), (k0_pay12 (F := Ideal) x0 x1 m m l) (ix2 r 0), fun d : Fin 512 => (k0_pay1 (F := Ideal) (k0_pay13 x0 x1 m m acc)) (ix2 r d))
      = Spec.flashStep (K := 2048) (D := 512) (fun k => ∑ dd : Fin 512, x0 (ix2 r dd) * x1 (ix2 k dd)) (fun k d => x1 (ix2 k d)) (m (ix2 r 0), l (ix2 r 0), fun d => acc (ix2 r d)) := by
  rw [flashStep_mk, pay2_eq, pay1_eq]
  have h9 := pay9_apply x0 x1 m r
  refine congrArg₂ Prod.mk h9 (congrArg₂ Prod.mk ?_ (funext fun d => ?_))
  · rw [pay12_apply, pay10_apply, h9]
    refine congrArg₂ (· + ·) rfl (Finset.sum_congr rfl fun k _ => ?_)
    rw [pay11_apply, pay8_apply, h9]
  · rw [pay13_apply, pay10_apply, h9]
    refine congrArg₂ (· + ·) rfl (Finset.sum_congr rfl fun k _ => ?_)
    rw [pay11_apply, pay8_apply, h9]

theorem pay4_eq : k0_pay4 (F := Ideal) = broadcast S1024x1 (FloatOps.ofBits (F := Ideal) .f32 0xFF800000#32) := shapeCast_self _ _
theorem pay5_eq : k0_pay5 (F := Ideal) = broadcast S1024x1 (FloatOps.ofBits (F := Ideal) .f32 0x00000000#32) := shapeCast_self _ _
theorem pay6_eq : k0_pay6 (F := Ideal) = broadcast S1024x512 (FloatOps.ofBits (F := Ideal) .f32 0x00000000#32) := shapeCast_self _ _

/-- What the reset stores in the three scratch buffers, read at query row `r`, is the recurrence's start. -/
theorem init_row (r : Fin 1024) :
    ((k0_pay4 (F := Ideal)) (ix2 r 0), (k0_pay5 (F := Ideal)) (ix2 r 0), fun d : Fin 512 => (k0_pay6 (F := Ideal)) (ix2 r d)) = Spec.flashInit (D := 512) := by
  rw [pay4_eq, pay5_eq, pay6_eq]
  simp only [broadcast_apply, Ideal.ofBits_def, Consts.ofBits_neg_inf, Consts.ofBits_zero]
  rfl

end Cert.KernelIdeal.Hand

end
-- ==== Proof.Ideal.R0Value.lean ====
import proofs.«425831_j18433999634698_3_alg».proof.Proof.Ideal.R0Frame
import proofs.«425831_j18433999634698_3_alg».proof.Proof.Ideal.R0Pay
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-! # What the first region leaves in its output array

Each query row's read-out is the online softmax recurrence run over the sixteen key tiles, its
weighted sum divided by its denominator. -/

/-- Key row `k` of key tile `t`, as a row of the whole key array. -/
def keyIx (t : Fin 16) (k : Fin 2048) : Fin 32768 :=
  ⟨t.val * 2048 + k.val, by have := t.isLt; have := k.isLt; omega⟩

/-- The scores of query row `q` against key tile `t`. -/
def sK (qs : Vec Ideal S2048x512 .f32) (db : Vec Ideal S32768x512 .f32) (q : Fin 2048) : Fin 16 → Fin 2048 → EReal :=
  fun t k => ∑ dd : Fin 512, qs (ix2 q dd) * db (ix2 (keyIx t k) dd)

/-- The keys of tile `t`, as the values the weighted sum reads. -/
def vK (db : Vec Ideal S32768x512 .f32) : Fin 16 → Fin 2048 → Fin 512 → EReal :=
  fun t k d => db (ix2 (keyIx t k) d)

/-- the read-out one query row ends with, from the scaled queries qs and the keys db -/
def zK (qs : Vec Ideal S2048x512 .f32) (db : Vec Ideal S32768x512 .f32) (i : S2048x512.Idx) : EReal :=
  Ideal.div ((Spec.flashState (T := 16) (K := 2048) (D := 512) (fun t k => ∑ dd : Fin 512, qs (ix2 (i 0) dd) * db (ix2 (keyIx t k) dd)) (fun t k d => db (ix2 (keyIx t k) d)) 16).2.2 (i 1))
            ((Spec.flashState (T := 16) (K := 2048) (D := 512) (fun t k => ∑ dd : Fin 512, qs (ix2 (i 0) dd) * db (ix2 (keyIx t k) dd)) (fun t k d => db (ix2 (keyIx t k) d)) 16).2.1)

/-- The read-out over the named scores and values. -/
theorem zK_eq (qs : Vec Ideal S2048x512 .f32) (db : Vec Ideal S32768x512 .f32) (i : S2048x512.Idx) :
    zK qs db i = Ideal.div ((Spec.flashState (T := 16) (K := 2048) (D := 512) (sK qs db (i 0)) (vK db) 16).2.2 (i 1))
            ((Spec.flashState (T := 16) (K := 2048) (D := 512) (sK qs db (i 0)) (vK db) 16).2.1) := rfl

/-- The read-out at explicit coordinates. -/
theorem zK_ix2 (qs : Vec Ideal S2048x512 .f32) (db : Vec Ideal S32768x512 .f32) (q : Fin 2048) (d : Fin 512) :
    zK qs db (ix2 q d) = Ideal.div ((Spec.flashState (T := 16) (K := 2048) (D := 512) (sK qs db q) (vK db) 16).2.2 d)
            ((Spec.flashState (T := 16) (K := 2048) (D := 512) (sK qs db q) (vK db) 16).2.1) := rfl

variable (V : (c : Dev nD) → (b : Ref sig .tc) → Buf (Elt Ideal) ((c : Thread nD τ).loc b))

/-! ## The windows' blocks as rows of their arrays -/

/-- The index maps over the grid: point `t` is query tile `t / 16` and key tile `t % 16`. -/
theorem idx_facts0 : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The query block at point `t`, at its literal type. -/
abbrev qblk (c : Dev nD) (t : Fin cfg0.N) : Vec Ideal S1024x512 .f32 := iblk0 V c 0 t
/-- The key block at point `t`, at its literal type. -/
abbrev kblk (c : Dev nD) (t : Fin cfg0.N) : Vec Ideal S2048x512 .f32 := iblk0 V c 1 t

/-- The query block at point `t`, at `(r, dd)`, is the query array at row `(t / 16) · 1024 + r`. -/
theorem iblk0_0_apply (c : Dev nD) (t : Fin cfg0.N) (r : Fin 1024) (dd : Fin 512) (q : Fin 2048)
    (hq : q.val = t.val / 16 * 1024 + r.val) :
    qblk V c t (ix2 r dd) = (V c main_v4 : Vec Ideal S2048x512 .f32) (ix2 q dd) := by
  obtain ⟨e0, e1, -, -, -, -⟩ := idx_facts0 t
  unfold qblk iblk0
  rw [View.read_apply]
  show V c main_v4 _ = V c main_v4 _
  congr 1
  funext a
  apply Fin.ext
  match a with
  | ⟨0, _⟩ => show win0_0.index t (0 : Fin 2) * 1024 + 1 * r.val = q.val; rw [e0, hq]; omega
  | ⟨1, _⟩ => show win0_0.index t (1 : Fin 2) * 512 + 1 * dd.val = dd.val; rw [e1]; omega

/-- The key block at point `t`, at `(k, dd)`, is the key array at row `(t % 16) · 2048 + k`. -/
theorem iblk0_1_apply (c : Dev nD) (t : Fin cfg0.N) (k : Fin 2048) (dd : Fin 512) (kk : Fin 32768)
    (hk : kk.val = t.val % 16 * 2048 + k.val) :
    kblk V c t (ix2 k dd) = (V c main_arg1 : Vec Ideal S32768x512 .f32) (ix2 kk dd) := by
  obtain ⟨-, -, e2, e3, -, -⟩ := idx_facts0 t
  unfold kblk iblk0
  rw [View.read_apply]
  show V c main_arg1 _ = V c main_arg1 _
  congr 1
  funext a
  apply Fin.ext
  match a with
  | ⟨0, _⟩ => show win0_1.index t (0 : Fin 2) * 2048 + 1 * k.val = kk.val; rw [e2, hk]; omega
  | ⟨1, _⟩ => show win0_1.index t (1 : Fin 2) * 512 + 1 * dd.val = dd.val; rw [e3]; omega

/-! ## The scratch triple of one query row -/

/-- The three scratch buffers read at query row `r`: maximum, denominator, weighted sum. -/
def rowOf (s : Vec Ideal S1024x1 .f32 × Vec Ideal S1024x1 .f32 × Vec Ideal S1024x512 .f32) (r : Fin 1024) :
    EReal × EReal × (Fin 512 → EReal) :=
  (s.1 (ix2 r 0), s.2.1 (ix2 r 0), fun d => s.2.2 (ix2 r d))

theorem rowOf_step (x0 : Vec Ideal S1024x512 .f32) (x1 : Vec Ideal S2048x512 .f32)
    (s : Vec Ideal S1024x1 .f32 × Vec Ideal S1024x1 .f32 × Vec Ideal S1024x512 .f32) (r : Fin 1024) :
    rowOf (step0 (F := Ideal) x0 x1 s) r
      = Spec.flashStep (K := 2048) (D := 512) (fun k => ∑ dd : Fin 512, x0 (ix2 r dd) * x1 (ix2 k dd)) (fun k d => x1 (ix2 k d)) (rowOf s r) :=
  step_row x0 x1 s.1 s.2.1 s.2.2 r

theorem rowOf_init (r : Fin 1024) : rowOf (init0 (F := Ideal)) r = Spec.flashInit (D := 512) := init_row r

/-- One grid point's update of row `r`'s triple is one step of the recurrence over that point's key tile. -/
theorem step_at (c : Dev nD) (t : Fin cfg0.N) (r : Fin 1024) (q : Fin 2048) (hq : q.val = t.val / 16 * 1024 + r.val)
    (ht : t.val % 16 < 16) (st : Vec Ideal S1024x1 .f32 × Vec Ideal S1024x1 .f32 × Vec Ideal S1024x512 .f32) :
    rowOf (step0 (F := Ideal) (qblk V c t) (kblk V c t) st) r
      = Spec.flashStep (sK (V c main_v4) (V c main_arg1) q ⟨t.val % 16, ht⟩) (vK (V c main_arg1) ⟨t.val % 16, ht⟩) (rowOf st r) := by
  have hs : (fun k : Fin 2048 => ∑ dd : Fin 512, qblk V c t (ix2 r dd) * kblk V c t (ix2 k dd))
      = sK (V c main_v4) (V c main_arg1) q ⟨t.val % 16, ht⟩ := by
    funext k
    unfold sK
    refine Finset.sum_congr rfl fun dd _ => ?_
    rw [iblk0_0_apply V c t r dd q hq, iblk0_1_apply V c t k dd (keyIx ⟨t.val % 16, ht⟩ k) rfl]
  have hv : (fun (k : Fin 2048) (d : Fin 512) => kblk V c t (ix2 k d))
      = vK (V c main_arg1) ⟨t.val % 16, ht⟩ := by
    funext k d
    unfold vK
    exact iblk0_1_apply V c t k d (keyIx ⟨t.val % 16, ht⟩ k) rfl
  exact (rowOf_step (qblk V c t) (kblk V c t) st r).trans (congrArg₂ (fun s v => Spec.flashStep (K := 2048) (D := 512) s v (rowOf st r)) hs hv)

/-! ## The invariant: after point `t`, row `r`'s triple is the recurrence after `t % 16 + 1` key tiles -/

theorem inv_first (c : Dev nD) (t : Fin cfg0.N) (h0 : t.val % 16 = 0) (r : Fin 1024) (q : Fin 2048)
    (hq : q.val = t.val / 16 * 1024 + r.val) :
    rowOf (outsAt0 V c t.val t.isLt).2 r
      = Spec.flashState (T := 16) (K := 2048) (D := 512) (sK (V c main_v4) (V c main_arg1) q) (vK (V c main_arg1)) (t.val % 16 + 1) := by
  have ht : t.val % 16 < 16 := Nat.mod_lt _ (by decide)
  have hz : Spec.flashState (T := 16) (K := 2048) (D := 512) (sK (V c main_v4) (V c main_arg1) q) (vK (V c main_arg1)) (t.val % 16) = Spec.flashInit := by
    rw [h0]; rfl
  rw [scratchAt0_first V c t h0]
  show rowOf (step0 (F := Ideal) (qblk V c t) (kblk V c t) init0) r = _
  rw [step_at V c t r q hq ht, rowOf_init, Spec.flashState_succ _ _ ht, hz]

theorem inv_next (c : Dev nD) (t : Fin cfg0.N) (h0 : t.val % 16 ≠ 0) (r : Fin 1024) (q : Fin 2048)
    (hq : q.val = t.val / 16 * 1024 + r.val)
    (ih : rowOf (outsAt0 V c (t.val - 1) (Nat.lt_of_le_of_lt (Nat.sub_le _ _) t.isLt)).2 r
      = Spec.flashState (T := 16) (K := 2048) (D := 512) (sK (V c main_v4) (V c main_arg1) q) (vK (V c main_arg1)) ((t.val - 1) % 16 + 1)) :
    rowOf (outsAt0 V c t.val t.isLt).2 r
      = Spec.flashState (T := 16) (K := 2048) (D := 512) (sK (V c main_v4) (V c main_arg1) q) (vK (V c main_arg1)) (t.val % 16 + 1) := by
  have ht : t.val % 16 < 16 := Nat.mod_lt _ (by decide)
  have hm : (t.val - 1) % 16 + 1 = t.val % 16 := by omega
  rw [scratchAt0_next V c t h0]
  show rowOf (step0 (F := Ideal) (qblk V c t) (kblk V c t) (outsAt0 V c (t.val - 1) (Nat.lt_of_le_of_lt (Nat.sub_le _ _) t.isLt)).2) r = _
  rw [step_at V c t r q hq ht, ih, hm, Spec.flashState_succ _ _ ht]

theorem inv (c : Dev nD) : ∀ (n : ℕ) (h : n < cfg0.N) (r : Fin 1024) (q : Fin 2048), q.val = n / 16 * 1024 + r.val →
    rowOf (outsAt0 V c n h).2 r
      = Spec.flashState (T := 16) (K := 2048) (D := 512) (sK (V c main_v4) (V c main_arg1) q) (vK (V c main_arg1)) (n % 16 + 1)
  | n, h, r, q, hq => by
    by_cases h0 : n % 16 = 0
    · exact inv_first V c ⟨n, h⟩ h0 r q hq
    · exact inv_next V c ⟨n, h⟩ h0 r q hq (inv c (n - 1) (Nat.lt_of_le_of_lt (Nat.sub_le _ _) h) r q (by omega))
  termination_by n => n
  decreasing_by omega

/-! ## The output block at a tile's last point -/

/-- At the last key tile's point the output block at `(r, d)` is the read-out of query row `(t / 16) · 1024 + r`. -/
theorem out_last (c : Dev nD) (t : Fin cfg0.N) (h15 : t.val % 16 = 15) (r : Fin 1024) (d : Fin 512) (q : Fin 2048)
    (hq : q.val = t.val / 16 * 1024 + r.val) :
    (outsAt0 V c t.val t.isLt).1 (ix2 r d) = zK (V c main_v4) (V c main_arg1) (ix2 q d) := by
  have hi := inv V c t.val t.isLt r q hq
  rw [h15] at hi
  have h1 : (outsAt0 V c t.val t.isLt).2.2.1 (ix2 r 0)
      = (Spec.flashState (T := 16) (K := 2048) (D := 512) (sK (V c main_v4) (V c main_arg1) q) (vK (V c main_arg1)) 16).2.1 :=
    congrArg (fun p => p.2.1) hi
  have h2 : (outsAt0 V c t.val t.isLt).2.2.2 (ix2 r d)
      = (Spec.flashState (T := 16) (K := 2048) (D := 512) (sK (V c main_v4) (V c main_arg1) q) (vK (V c main_arg1)) 16).2.2 d :=
    congrFun (congrArg (fun p => p.2.2) hi) d
  rw [outAt0_last V c t h15, pay3_apply, h1, h2, zK_ix2]

/-! ## The write-backs cover the output array -/

/-- What point `t` writes back is its block of the read-out. -/
theorem flushed0_2_eq (c : Dev nD) (t : Fin cfg0.N) (hf : (cfg0.win 2).flush t = true) :
    (dat0 V c).flushed 2 t = ((cfg0.win 2).blk t).view.read (Elt Ideal) (zK (V c main_v4) (V c main_arg1)) := by
  have h15 := (flush0_2 t).mp hf
  have hN : cfg0.N = 32 := N_0
  have htl : t.val < 32 := hN ▸ t.isLt
  obtain ⟨-, -, -, -, e4, e5⟩ := idx_facts0 t
  show (cfg0.win 2).cut (grid0.coords t) ((dat0 V c).after 2 t) = _
  rw [after0_2]
  refine funext fun (j : S1024x512.Idx) => ?_
  show (outsAt0 V c t.val t.isLt).1 j = zK (V c main_v4) (V c main_arg1) (((cfg0.win 2).blk t).view.emb j)
  obtain ⟨r, d, rfl⟩ : ∃ (r : Fin 1024) (d : Fin 512), j = ix2 r d := ⟨j 0, j 1, eq_ix2 j⟩
  have hemb : ((cfg0.win 2).blk t).view.emb (ix2 r d) = ix2 (⟨t.val / 16 * 1024 + r.val, by have := r.isLt; omega⟩ : Fin 2048) d := by
    funext a
    apply Fin.ext
    match a with
    | ⟨0, _⟩ => show win0_2.index t (0 : Fin 2) * 1024 + 1 * r.val = t.val / 16 * 1024 + r.val; rw [e4]; omega
    | ⟨1, _⟩ => show win0_2.index t (1 : Fin 2) * 512 + 1 * d.val = d.val; rw [e5]; omega
  rw [hemb]
  exact out_last V c t h15 r d _ rfl

/-- An index of the output array is in point `t`'s block iff each coordinate is in the block's range. -/
theorem mem_blk0_2 (t : Fin cfg0.N) (i : S2048x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v5).slice (win0_2.rect t)).set ↔ _
  rw [View.set_slice_whole, Rect.mem_set_unit]
  exact Iff.rfl

/-- The first region leaves, in its output array, every query row's read-out. -/
theorem z_final (c : Dev nD) : (dat0 V c).arrAt 2 cfg0.N = zK (V c main_v4) (V c main_arg1) :=
  (dat0 V c).arrAt_eq_of_cover 2 (zK (V c main_v4) (V c main_arg1)) (flushed0_2_eq V c) fun i => by
    have hN : cfg0.N = 32 := N_0
    have hi0 : (i 0).val < 2048 := (i 0).isLt
    have hi1 : (i 1).val < 512 := (i 1).isLt
    have htN : (i 0).val / 1024 * 16 + 15 < cfg0.N := by omega
    obtain ⟨-, -, -, -, e4, e5⟩ := idx_facts0 ⟨(i 0).val / 1024 * 16 + 15, htN⟩
    have e4' : win0_2.index ⟨(i 0).val / 1024 * 16 + 15, htN⟩ (0 : Fin 2) = ((i 0).val / 1024 * 16 + 15) / 16 := e4
    refine ⟨⟨(i 0).val / 1024 * 16 + 15, htN⟩, (flush0_2 _).mpr (by show ((i 0).val / 1024 * 16 + 15) % 16 = 15; omega), ?_⟩
    rw [mem_blk0_2]
    intro a
    match a with
    | ⟨0, _⟩ =>
      show win0_2.index ⟨(i 0).val / 1024 * 16 + 15, htN⟩ (0 : Fin 2) * 1024 ≤ (i 0).val ∧ (i 0).val < win0_2.index ⟨(i 0).val / 1024 * 16 + 15, htN⟩ (0 : Fin 2) * 1024 + 1024
      rw [e4']; omega
    | ⟨1, _⟩ =>
      show win0_2.index ⟨(i 0).val / 1024 * 16 + 15, htN⟩ (1 : Fin 2) * 512 ≤ (i 1).val ∧ (i 1).val < win0_2.index ⟨(i 0).val / 1024 * 16 + 15, htN⟩ (1 : Fin 2) * 512 + 512
      rw [e5]; omega

end Cert.KernelIdeal.Hand

end
-- ==== Proof.Ideal.R1Pay.lean ====
import proofs.«425831_j18433999634698_3_alg».proof.Proof.Gen.KernelIdeal.Skeleton
import proofs.«425831_j18433999634698_3_alg».proof.Proof.Spec
import proofs.«425831_j18433999634698_3_alg».proof.Proof.Consts
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.KernelIdeal.Hand

open Idealize.ShloMosaic Idealize.ShloMosaic.ValueIdx Idealize.SL.Sem
open Cert.KernelIdeal Cert.KernelIdeal.Gen
open scoped BigOperators

/-! # What the classifier and cross-entropy kernel computes, at the extended reals

The kernel's two payloads read at an index: the cached copy of the weights is the weights; the stored
column of losses is, row by row, the cross-entropy of the masked logits of that row. -/

/-! ## Columns: a vector made a column, and a column spread over a row -/

/-- An `[a]` vector cast to the column `[a, 1]` reads, at `(i, u)`, the vector at `i`. -/
theorem ce_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `i`. -/
theorem ce_broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The cached weights -/

/-- The copy of the weights the first point caches is the weights themselves. -/
theorem pay1_apply (v35 : Vec Ideal S10112x512 .f32) (col : Fin 10112) (k : Fin 512) :
    (k1_pay1 (F := Ideal) v35) (ix2 col k) = v35 (ix2 col k) := by
  unfold k1_pay1
  rw [shapeCast_self, shapeCast_self]
  rfl

/-! ## The product with the cached weights, at an index -/

theorem lhs_logit_0 (i : S64x10112.Idx) (q : dot_S64x512_S10112x512_S64x10112_1_1_0_0_n_n.contr.Idx) :
    (dot_S64x512_S10112x512_S64x10112_1_1_0_0_n_n.lhsIdx i q 0).val = (i 0).val := by
  unfold DotDims.lhsIdx
  rw [dif_neg (show ¬(0 : Fin S64x512.rank) ∈ dot_S64x512_S10112x512_S64x10112_1_1_0_0_n_n.lhsBatch by decide), dif_pos (show (0 : Fin S64x512.rank) ∈ dot_S64x512_S10112x512_S64x10112_1_1_0_0_n_n.lhsNonContracting by decide)]
  rfl
theorem lhs_logit_1 (i : S64x10112.Idx) (q : dot_S64x512_S10112x512_S64x10112_1_1_0_0_n_n.contr.Idx) :
    (dot_S64x512_S10112x512_S64x10112_1_1_0_0_n_n.lhsIdx i q 1).val = (q ⟨0, by decide⟩).val :=
  dot_S64x512_S10112x512_S64x10112_1_1_0_0_n_n.lhsIdx_val_of_single rfl i q
theorem rhs_logit_0 (i : S64x10112.Idx) (q : dot_S64x512_S10112x512_S64x10112_1_1_0_0_n_n.contr.Idx) :
    (dot_S64x512_S10112x512_S64x10112_1_1_0_0_n_n.rhsIdx i q 0).val = (i 1).val := by
  unfold DotDims.rhsIdx
  rw [dif_neg (show ¬(0 : Fin S10112x512.rank) ∈ dot_S64x512_S10112x512_S64x10112_1_1_0_0_n_n.rhsBatch by decide), dif_pos (show (0 : Fin S10112x512.rank) ∈ dot_S64x512_S10112x512_S64x10112_1_1_0_0_n_n.rhsNonContracting by decide)]
  rfl
theorem rhs_logit_1 (i : S64x10112.Idx) (q : dot_S64x512_S10112x512_S64x10112_1_1_0_0_n_n.contr.Idx) :
    (dot_S64x512_S10112x512_S64x10112_1_1_0_0_n_n.rhsIdx i q 1).val = (q ⟨0, by decide⟩).val :=
  dot_S64x512_S10112x512_S64x10112_1_1_0_0_n_n.rhsIdx_val_of_single rfl i q

/-- The product of a block of rows with the weights, into the zero splat, at `(r, col)`: the sum over the
    512 features of row `r` times weight row `col`. -/
theorem matmul_row_apply (x : FVec Ideal S64x512 .bf16) (w : FVec Ideal S10112x512 .bf16) (r : Fin 64) (col : Fin 10112) :
    (matmul dot_S64x512_S10112x512_S64x10112_1_1_0_0_n_n none x w (constant S64x10112 .f32 0x00000000#32)) (ix2 r col)
      = ∑ k : Fin 512, x (ix2 r k) * w (ix2 col k) := by
  refine (Ideal.matmul_constant_zero_apply dot_S64x512_S10112x512_S64x10112_1_1_0_0_n_n none x w (ix2 r col)).trans ?_
  rw [← Equiv.sum_comp (contrEquiv1 dot_S64x512_S10112x512_S64x10112_1_1_0_0_n_n 512 rfl rfl).symm]
  refine Finset.sum_congr rfl fun k _ => ?_
  have hk := contrEquiv1_symm_val dot_S64x512_S10112x512_S64x10112_1_1_0_0_n_n 512 rfl rfl k
  have el : dot_S64x512_S10112x512_S64x10112_1_1_0_0_n_n.lhsIdx (ix2 r col) ((contrEquiv1 dot_S64x512_S10112x512_S64x10112_1_1_0_0_n_n 512 rfl rfl).symm k) = ix2 r k := funext fun a => Fin.ext (by
    match a with
    | ⟨0, _⟩ => exact lhs_logit_0 _ _
    | ⟨1, _⟩ => exact (lhs_logit_1 _ _).trans hk)
  have er : dot_S64x512_S10112x512_S64x10112_1_1_0_0_n_n.rhsIdx (ix2 r col) ((contrEquiv1 dot_S64x512_S10112x512_S64x10112_1_1_0_0_n_n 512 rfl rfl).symm k) = ix2 col k := funext fun a => Fin.ext (by
    match a with
    | ⟨0, _⟩ => exact rhs_logit_0 _ _
    | ⟨1, _⟩ => exact (rhs_logit_1 _ _).trans hk)
  rw [el, er]

/-! ## The logits, and the padding columns masked out -/

/-- The logits of a block: the rows times the cached weights, plus the bias row. -/
def logits (v3 : Vec Ideal S64x512 .f32) (v6 : Vec Ideal S10112x512 .bf16) (v8 : Vec Ideal S1x10112 .f32) : FVec Ideal S64x10112 .f32 :=
  addf (matmul (φ₁ := .bf16) (φ₂ := .bf16) dot_S64x512_S10112x512_S64x10112_1_1_0_0_n_n none (truncf .bf16 (shapeCast S64x512 v3 shapeCasts_S64x512_S64x512) bitsLt_bf16_f32) v6 (constant S64x10112 .f32 0x00000000#32))
    (broadcastTo S64x10112 (shapeCast S1x10112 v8 shapeCasts_S1x10112_S1x10112) broadcasts_S1x10112_S64x10112)

theorem logits_apply (v3 : Vec Ideal S64x512 .f32) (v6 : Vec Ideal S10112x512 .bf16) (v8 : Vec Ideal S1x10112 .f32) (r : Fin 64) (col : Fin 10112) :
    logits v3 v6 v8 (ix2 r col) = (∑ k : Fin 512, v3 (ix2 r k) * v6 (ix2 col k)) + v8 (ix2 0 col) := by
  unfold logits
  rw [shapeCast_self, shapeCast_self]
  refine (addf_apply _ _ _).trans ?_
  rw [matmul_row_apply, broadcastTo_1b_ab_apply]
  rfl

/-- The column counter of a block reads the column. -/
theorem iota_col_apply (r : Fin 64) (col : Fin 10112) :
    iota .tc S64x10112 32 [1] iota_S64x10112_d1_w32 (ix2 r col) = BitVec.ofNat 32 col.val :=
  iota_single_apply .tc S64x10112 32 1 iota_S64x10112_d1_w32 (ix2 r col)

/-- A column is a real class, not padding, exactly when the signed comparison with `10000` says so. -/
theorem lt_classes_iff (col : Fin 10112) : IntOp.cmpi .slt (BitVec.ofNat 32 col.val) 10000#32 = 1#1 ↔ col.val < 10000 := by
  have hc : col.val < 10112 := col.isLt
  have h1 : (BitVec.ofNat 32 col.val).toNat = col.val := by rw [BitVec.toNat_ofNat]; omega
  rw [StableHlo.Predicate.slt_iff_toNat (by rw [h1]; omega) (by decide), h1]
  rfl

/-- The fill of the padding columns is the bottom element. -/
theorem neg_big_eq : Named.named (F := Ideal) κ "neg_big" (φ := .f32) 0xFF333332#32 = (⊥ : EReal) :=
  IdealRules.named_const.ideal_named_scalar _ _ _ _ rfl

/-- The logits with the padding columns at the bottom element. -/
def masked (v3 : Vec Ideal S64x512 .f32) (v6 : Vec Ideal S10112x512 .bf16) (v8 : Vec Ideal S1x10112 .f32) : FVec Ideal S64x10112 .f32 :=
  select (cmpi .slt (iota .tc S64x10112 32 [1] iota_S64x10112_d1_w32) (broadcast S64x10112 10000#32)) (logits v3 v6 v8)
    (broadcast S64x10112 (Named.named κ "neg_big" 0xFF333332#32))

theorem masked_apply (v3 : Vec Ideal S64x512 .f32) (v6 : Vec Ideal S10112x512 .bf16) (v8 : Vec Ideal S1x10112 .f32) (r : Fin 64) (col : Fin 10112) :
    masked v3 v6 v8 (ix2 r col)
      = if col.val < 10000 then (∑ k : Fin 512, v3 (ix2 r k) * v6 (ix2 col k)) + v8 (ix2 0 col) else ⊥ := by
  show Scalar.select (IntOp.cmpi .slt (iota .tc S64x10112 32 [1] iota_S64x10112_d1_w32 (ix2 r col)) 10000#32)
      (logits v3 v6 v8 (ix2 r col)) (Named.named (F := Ideal) κ "neg_big" (φ := .f32) 0xFF333332#32) = _
  rw [iota_col_apply, logits_apply, neg_big_eq]
  exact if_congr (lt_classes_iff col) rfl rfl

/-! ## A row's maximum and a row's sum, as columns -/

/-- The maxima of the rows, as a column. -/
def rowMaxCol (x : FVec Ideal S64x10112 .f32) : FVec Ideal S64x1 .f32 :=
  shapeCast S64x1 (multiReduction .maximumf [1] S64 x 0xFF800000#32 reduces_S64x10112_S64 (.inl rfl) rfl) shapeCasts_S64_S64x1

/-- The sums of the rows, as a column. -/
def rowSumCol (x : FVec Ideal S64x10112 .f32) : FVec Ideal S64x1 .f32 :=
  shapeCast S64x1 (multiReduction .add [1] S64 x 0x00000000#32 reduces_S64x10112_S64 (.inl rfl) rfl) shapeCasts_S64_S64x1

/-- The index a reduction along the columns reads at: row `r`, column `col`. -/
theorem ce_lift_row (r : Fin 64) (col : Fin 10112) : reduces_S64x10112_S64.lift (ix1 r) col = ix2 r col :=
  funext fun a => Fin.ext (by
    match a with
    | ⟨0, _⟩ => rfl
    | ⟨1, _⟩ => rfl)

theorem rowMaxCol_apply (x : FVec Ideal S64x10112 .f32) (r : Fin 64) :
    rowMaxCol x (ix2 r 0) = (Finset.univ : Finset (Fin 10112)).fold max ⊥ (fun col => x (ix2 r col)) := by
  unfold rowMaxCol
  refine (ce_shapeCast_a_a1_apply _ shapeCasts_S64_S64x1 r 0).trans ?_
  refine (Ideal.multiReduction_maximumf_single x _ reduces_S64x10112_S64 _ _ (ix1 r)).trans ?_
  show (Finset.univ : Finset (Fin 10112)).fold max (Ideal.ofBits .f32 0xFF800000#32) (fun col => x (reduces_S64x10112_S64.lift (ix1 r) col)) = _
  rw [Consts.ofBits_neg_inf]
  exact congrArg (fun f => (Finset.univ : Finset (Fin 10112)).fold max ⊥ f) (funext fun col => congrArg x (ce_lift_row r col))

theorem rowSumCol_apply (x : FVec Ideal S64x10112 .f32) (r : Fin 64) :
    rowSumCol x (ix2 r 0) = ∑ col : Fin 10112, x (ix2 r col) := by
  unfold rowSumCol
  refine (ce_shapeCast_a_a1_apply _ shapeCasts_S64_S64x1 r 0).trans ?_
  refine (Ideal.multiReduction_add_single x _ reduces_S64x10112_S64 _ _ (ix1 r)).trans ?_
  show ∑ col : Fin 10112, x (reduces_S64x10112_S64.lift (ix1 r) col) = _
  exact Finset.sum_congr rfl fun col _ => congrArg x (ce_lift_row r col)

/-! ## The payload, stage by stage -/

/-- The kernel's stored column is: row maximum plus the logarithm of the row sum of the shifted exponentials,
    minus the row sum of the target's entry picked by the mask. -/
theorem ce_pay2_eq (v3 : Vec Ideal S64x512 .f32) (v6 : Vec Ideal S10112x512 .bf16) (v8 : Vec Ideal S1x10112 .f32) (v26 : Vec Ideal S64x1 .i32) :
    k1_pay2 (F := Ideal) v3 v6 v8 v26
      = subf (addf (rowMaxCol (masked v3 v6 v8))
            (log (rowSumCol (exp (subf (masked v3 v6 v8) (broadcastTo S64x10112 (rowMaxCol (masked v3 v6 v8)) broadcasts_S64x1_S64x10112))))))
          (rowSumCol (select (cmpi .eq (iota .tc S64x10112 32 [1] iota_S64x10112_d1_w32) (broadcastTo S64x10112 v26 broadcasts_S64x1_S64x10112))
            (masked v3 v6 v8) (broadcast S64x10112 (Scalar.ofBits .f32 0x00000000#32)))) := rfl

/-! ## One row of losses -/

/-- Row `r` of the stored column is the cross-entropy of row `r`'s masked logits against the row's label. -/
theorem pay2_row (v3 : Vec Ideal S64x512 .f32) (v6 : Vec Ideal S10112x512 .bf16) (v8 : Vec Ideal S1x10112 .f32) (v26 : Vec Ideal S64x1 .i32) (r : Fin 64) :
    (k1_pay2 (F := Ideal) v3 v6 v8 v26) (ix2 r 0)
      = Spec.ceKernel (W := 10112) (fun col => if col.val < 10000 then (∑ k : Fin 512, v3 (ix2 r k) * v6 (ix2 col k)) + v8 (ix2 0 col) else ⊥)
          (fun col => decide (BitVec.ofNat 32 col.val = v26 (ix2 r 0))) := by
  rw [ce_pay2_eq]
  have hM : ∀ col : Fin 10112, masked v3 v6 v8 (ix2 r col)
      = if col.val < 10000 then (∑ k : Fin 512, v3 (ix2 r k) * v6 (ix2 col k)) + v8 (ix2 0 col) else ⊥ :=
    fun col => masked_apply v3 v6 v8 r col
  have hmax : rowMaxCol (masked v3 v6 v8) (ix2 r 0)
      = (Finset.univ : Finset (Fin 10112)).fold max ⊥
          (fun col => if col.val < 10000 then (∑ k : Fin 512, v3 (ix2 r k) * v6 (ix2 col k)) + v8 (ix2 0 col) else ⊥) := by
    rw [rowMaxCol_apply]
    exact congrArg (fun f => (Finset.univ : Finset (Fin 10112)).fold max ⊥ f) (funext hM)
  have hexp : rowSumCol (exp (subf (masked v3 v6 v8) (broadcastTo S64x10112 (rowMaxCol (masked v3 v6 v8)) broadcasts_S64x1_S64x10112))) (ix2 r 0)
      = ∑ c : Fin 10112, Ideal.exp ((if c.val < 10000 then (∑ k : Fin 512, v3 (ix2 r k) * v6 (ix2 c k)) + v8 (ix2 0 c) else ⊥)
          - (Finset.univ : Finset (Fin 10112)).fold max ⊥
              (fun col => if col.val < 10000 then (∑ k : Fin 512, v3 (ix2 r k) * v6 (ix2 col k)) + v8 (ix2 0 col) else ⊥)) := by
    rw [rowSumCol_apply]
    refine Finset.sum_congr rfl fun col _ => ?_
    show Ideal.exp (masked v3 v6 v8 (ix2 r col)
      - broadcastTo S64x10112 (rowMaxCol (masked v3 v6 v8)) broadcasts_S64x1_S64x10112 (ix2 r col)) = _
    rw [ce_broadcastTo_a1_ab_apply, hM, hmax]
  have hhit : rowSumCol (select (cmpi .eq (iota .tc S64x10112 32 [1] iota_S64x10112_d1_w32) (broadcastTo S64x10112 v26 broadcasts_S64x1_S64x10112))
        (masked v3 v6 v8) (broadcast S64x10112 (Scalar.ofBits .f32 0x00000000#32))) (ix2 r 0)
      = ∑ c : Fin 10112, (if decide (BitVec.ofNat 32 c.val = v26 (ix2 r 0)) = true
          then (if c.val < 10000 then (∑ k : Fin 512, v3 (ix2 r k) * v6 (ix2 c k)) + v8 (ix2 0 c) else ⊥) else 0) := by
    rw [rowSumCol_apply]
    refine Finset.sum_congr rfl fun col _ => ?_
    show Scalar.select (IntOp.cmpi .eq (iota .tc S64x10112 32 [1] iota_S64x10112_d1_w32 (ix2 r col))
        (broadcastTo S64x10112 v26 broadcasts_S64x1_S64x10112 (ix2 r col))) (masked v3 v6 v8 (ix2 r col)) (Ideal.ofBits .f32 0x00000000#32) = _
    rw [iota_col_apply, ce_broadcastTo_a1_ab_apply, hM, Consts.ofBits_zero]
    exact if_congr (StableHlo.Predicate.cmpi_eq_iff.trans decide_eq_true_iff.symm) rfl rfl
  show (rowMaxCol (masked v3 v6 v8) (ix2 r 0)
      + Ideal.log (rowSumCol (exp (subf (masked v3 v6 v8) (broadcastTo S64x10112 (rowMaxCol (masked v3 v6 v8)) broadcasts_S64x1_S64x10112))) (ix2 r 0)))
      - rowSumCol (select (cmpi .eq (iota .tc S64x10112 32 [1] iota_S64x10112_d1_w32) (broadcastTo S64x10112 v26 broadcasts_S64x1_S64x10112))
        (masked v3 v6 v8) (broadcast S64x10112 (Scalar.ofBits .f32 0x00000000#32))) (ix2 r 0) = _
  rw [hmax, hexp, hhit]
  rfl

end Cert.KernelIdeal.Hand

end
-- ==== Proof.Ideal.R1Value.lean ====
import proofs.«425831_j18433999634698_3_alg».proof.Proof.Ideal.R1Frame
import proofs.«425831_j18433999634698_3_alg».proof.Proof.Ideal.R1Pay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! # What region 1 leaves in the column of losses, at the extended reals

Every grid point reads 64 rows of the read-out and of the labels, the whole padded weights and bias row, and
writes 64 losses; the 32 points' blocks tile the column. So the column ends holding, row by row, the
cross-entropy of that row's masked logits against its label. -/

-- the TensorCore's buffer contents when the region is entered
variable (V : (c : Dev nD) → (b : Ref sig .tc) → Buf (Elt Ideal) ((c : Thread nD τ).loc b))

/-- the loss one row ends with, from the read-out z, the padded weights wp, the padded bias row bp and the labels -/
def nllK (z : Vec Ideal S2048x512 .f32) (wp : Vec Ideal S10112x512 .f32) (bp : Vec Ideal S1x10112 .f32) (lab : Vec Ideal S2048x1 .i32) (i : S2048x1.Idx) : EReal :=
  Spec.ceKernel (W := 10112) (fun col => if col.val < 10000 then (∑ k : Fin 512, z (ix2 (i 0) k) * wp (ix2 col k)) + bp (ix2 0 col) else ⊥) (fun col => decide (BitVec.ofNat 32 col.val = lab (ix2 (i 0) 0)))

/-! ## The index maps, decided over the grid -/

/-- The rows' windows move with the point; the weights' and the bias row's stay on their one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-! ## The blocks a point reads, as entries of the arrays -/

/-- The read-out's block at point `t` is rows `64 t … 64 t + 63` of the read-out. -/
theorem iblk1_0_apply (c : Dev nD) (t : Fin cfg1.N) (r : Fin 64) (k : Fin 512) (i : S2048x512.Idx)
    (hi0 : (i 0).val = t.val * 64 + r.val) (hi1 : (i 1).val = k.val) :
    (iblk1 V c 0 t : Vec Ideal S64x512 .f32) (ix2 r k) = (V c main_v5 : Vec Ideal S2048x512 .f32) i := by
  unfold iblk1
  rw [View.read_apply]
  show V c main_v5 _ = V c main_v5 _
  congr 1
  funext a
  apply Fin.ext
  match a with
  | ⟨0, _⟩ => show win1_0.index t (0 : Fin 2) * 64 + 1 * r.val = (i 0).val; rw [(idx_facts1 t).1, hi0]; omega
  | ⟨1, _⟩ => show win1_0.index t (1 : Fin 2) * 512 + 1 * k.val = (i 1).val; rw [(idx_facts1 t).2.1, hi1]; omega

/-- The weights' block at every point is the whole padded weights. -/
theorem iblk1_1_apply (c : Dev nD) (t : Fin cfg1.N) (col : Fin 10112) (k : Fin 512) :
    (iblk1 V c 1 t : Vec Ideal S10112x512 .f32) (ix2 col k) = (V c main_v0 : Vec Ideal S10112x512 .f32) (ix2 col k) := by
  unfold iblk1
  rw [View.read_apply]
  show V c main_v0 _ = V c main_v0 _
  congr 1
  funext a
  apply Fin.ext
  match a with
  | ⟨0, _⟩ => show win1_1.index t (0 : Fin 2) * 10112 + 1 * col.val = col.val; rw [(idx_facts1 t).2.2.1]; omega
  | ⟨1, _⟩ => show win1_1.index t (1 : Fin 2) * 512 + 1 * k.val = k.val; rw [(idx_facts1 t).2.2.2.1]; omega

/-- The bias row's block at every point is the whole padded bias row. -/
theorem iblk1_2_apply (c : Dev nD) (t : Fin cfg1.N) (col : Fin 10112) :
    (iblk1 V c 2 t : Vec Ideal S1x10112 .f32) (ix2 0 col) = (V c main_v2 : Vec Ideal S1x10112 .f32) (ix2 0 col) := by
  unfold iblk1
  rw [View.read_apply]
  show V c main_v2 _ = V c main_v2 _
  congr 1
  funext a
  apply Fin.ext
  match a with
  | ⟨0, _⟩ => show win1_2.index t (0 : Fin 2) * 1 + 1 * 0 = 0; rw [(idx_facts1 t).2.2.2.2.1]
  | ⟨1, _⟩ => show win1_2.index t (1 : Fin 2) * 10112 + 1 * col.val = col.val; rw [(idx_facts1 t).2.2.2.2.2.1]; omega

/-- The labels' block at point `t` is rows `64 t … 64 t + 63` of the labels. -/
theorem iblk1_3_apply (c : Dev nD) (t : Fin cfg1.N) (r : Fin 64) (i : S2048x1.Idx)
    (hi0 : (i 0).val = t.val * 64 + r.val) :
    (iblk1 V c 3 t : Vec Ideal S64x1 .i32) (ix2 r 0) = (V c main_arg2 : Vec Ideal S2048x1 .i32) i := by
  have hi1 : (i 1).val = 0 := by have : (i 1).val < 1 := (i 1).isLt; omega
  unfold iblk1
  rw [View.read_apply]
  show V c main_arg2 _ = V c main_arg2 _
  congr 1
  funext a
  apply Fin.ext
  match a with
  | ⟨0, _⟩ => show win1_3.index t (0 : Fin 2) * 64 + 1 * r.val = (i 0).val; rw [(idx_facts1 t).2.2.2.2.2.2.1, hi0]; omega
  | ⟨1, _⟩ => show win1_3.index t (1 : Fin 2) * 1 + 1 * 0 = (i 1).val; rw [(idx_facts1 t).2.2.2.2.2.2.2.1, hi1]

/-! ## The cached weights -/

/-- At every point the scratch holds the padded weights: the first point caches them, the later points keep them. -/
theorem scratch_eq (c : Dev nD) : ∀ (n : ℕ) (h : n < cfg1.N) (col : Fin 10112) (k : Fin 512),
    (outsAt1 V c n h).2 (ix2 col k) = (V c main_v0 : Vec Ideal S10112x512 .f32) (ix2 col k)
  | 0, h, col, k =>
    (congrFun (scratchAt1_first V c ⟨0, h⟩ rfl) (ix2 col k)).trans
      ((pay1_apply _ col k).trans (iblk1_1_apply V c ⟨0, h⟩ col k))
  | n + 1, h, col, k =>
    (congrFun (scratchAt1_next V c ⟨n + 1, h⟩ (Nat.succ_ne_zero n)) (ix2 col k)).trans
      (scratch_eq c n (Nat.lt_of_succ_lt h) col k)

/-! ## What a point writes back -/

/-- Row `r` of the block point `t` stores is the loss of row `64 t + r`. -/
theorem out_apply (c : Dev nD) (t : Fin cfg1.N) (r : Fin 64) (i : S2048x1.Idx) (hi0 : (i 0).val = t.val * 64 + r.val) :
    (outsAt1 V c t.val t.isLt).1 (ix2 r 0) = nllK (V c main_v5) (V c main_v0) (V c main_v2) (V c main_arg2) i := by
  rw [outAt1 V c t]
  refine (pay2_row _ _ _ _ r).trans ?_
  unfold nllK
  refine congrArg₂ (Spec.ceKernel (W := 10112)) (funext fun col => ?_) (funext fun col => ?_)
  · refine if_congr Iff.rfl ?_ rfl
    refine congrArg₂ (· + ·) (Finset.sum_congr rfl fun k _ => ?_) (iblk1_2_apply V c t col)
    exact congrArg₂ (· * ·) (iblk1_0_apply V c t r k (ix2 (i 0) k) hi0 rfl) (scratch_eq V c t.val t.isLt col k)
  · exact congrArg (fun x => decide (BitVec.ofNat 32 col.val = x)) (iblk1_3_apply V c t r (ix2 (i 0) 0) hi0)

/-- What point `t` writes back is block `t` of the column of every row's loss. -/
theorem flushed4_eq (c : Dev nD) (t : Fin cfg1.N) :
    (dat1 V c).flushed 4 t = ((cfg1.win 4).blk t).view.read (Elt Ideal) (nllK (V c main_v5) (V c main_v0) (V c main_v2) (V c main_arg2)) := by
  show (cfg1.win 4).cut (grid1.coords t) ((dat1 V c).after 4 t) = _
  rw [after1_4]
  funext j
  obtain ⟨r, u, rfl⟩ : ∃ (r : Fin 64) (u : Fin 1), j = ix2 r u := ⟨j 0, j 1, eq_ix2 (n0 := 64) (n1 := 1) j⟩
  obtain rfl : u = 0 := Subsingleton.elim u 0
  show (outsAt1 V c t.val t.isLt).1 (ix2 r 0)
    = nllK (V c main_v5) (V c main_v0) (V c main_v2) (V c main_arg2) (((cfg1.win 4).blk t).view.emb (ix2 r 0))
  refine out_apply V c t r _ ?_
  show win1_4.index t (0 : Fin 2) * 64 + 1 * r.val = t.val * 64 + r.val
  rw [(idx_facts1 t).2.2.2.2.2.2.2.2.1]
  omega

/-! ## The blocks tile the column -/

/-- An index of the column is in point `t`'s block iff each coordinate is in the block's range on its axis. -/
theorem mem_blk4 (t : Fin cfg1.N) (i : S2048x1.Idx) :
    i ∈ ((cfg1.win 4).blk t).view.set ↔ ∀ a : Fin 2, win1_4.index t a * S64x1.size a ≤ (i a).val ∧ (i a).val < win1_4.index t a * S64x1.size a + S64x1.size a := by
  show i ∈ ((View.whole main_v6).slice (win1_4.rect t)).set ↔ _
  rw [View.set_slice_whole, Rect.mem_set_unit]
  exact Iff.rfl

/-- Row `i` of the column is written back by point `i / 64`. -/
theorem cover4 (i : S2048x1.Idx) : ∃ t : Fin cfg1.N, (cfg1.win 4).flush t = true ∧ i ∈ ((cfg1.win 4).blk t).view.set := by
  have hi0 : (i 0).val < 2048 := (i 0).isLt
  have hi1 : (i 1).val < 1 := (i 1).isLt
  have hN : cfg1.N = 32 := N_1
  have ht : (i 0).val / 64 < cfg1.N := by rw [hN]; omega
  refine ⟨⟨(i 0).val / 64, ht⟩, flush1_4 _, ?_⟩
  rw [mem_blk4]
  obtain ⟨-, -, -, -, -, -, -, -, e0, e1⟩ := idx_facts1 ⟨(i 0).val / 64, ht⟩
  intro a
  match a with
  | ⟨0, _⟩ =>
    show win1_4.index ⟨(i 0).val / 64, ht⟩ (0 : Fin 2) * 64 ≤ (i 0).val ∧ (i 0).val < win1_4.index ⟨(i 0).val / 64, ht⟩ (0 : Fin 2) * 64 + 64
    rw [e0]
    show (i 0).val / 64 * 64 ≤ (i 0).val ∧ (i 0).val < (i 0).val / 64 * 64 + 64
    omega
  | ⟨1, _⟩ =>
    show win1_4.index ⟨(i 0).val / 64, ht⟩ (1 : Fin 2) * 1 ≤ (i 1).val ∧ (i 1).val < win1_4.index ⟨(i 0).val / 64, ht⟩ (1 : Fin 2) * 1 + 1
    rw [e1]
    omega

/-- After the 32 points the column of losses holds every row's loss. -/
theorem nll_final (c : Dev nD) : (dat1 V c).arrAt 4 cfg1.N = nllK (V c main_v5) (V c main_v0) (V c main_v2) (V c main_arg2) :=
  (dat1 V c).arrAt_eq_of_cover 4 _ (fun t _ => flushed4_eq V c t) cover4

end Cert.KernelIdeal.Hand

end
-- ==== Proof.Target.lean ====
import Idealize.ShloMosaic.PureOps.Ideal
import proofs.«425831_j18433999634698_3_alg».proof.Proof.Spec

noncomputable section

/-! The function both programs compute, over real inputs: scores of every query against every key scaled by the
    temperature, their softmax read-out of the keys, the classifier's logits, the cross-entropy of each row at its
    label, and the mean over the batch. -/
namespace Cert.Target

open Idealize.ShloMosaic

variable (qr : Fin 2048 → Fin 512 → ℝ) (dbr : Fin 32768 → Fin 512 → ℝ) (wr : Fin 10000 → Fin 512 → ℝ)
  (br : Fin 10000 → ℝ) (g : Fin 2048 → Fin 10000)

/-- The temperature: the real the word `0x3D3504F3` denotes. -/
def tau : ℝ := 11863283 / 268435456

/-- Query `b` against key `n`: their inner product, scaled. -/
def score (b : Fin 2048) (n : Fin 32768) : ℝ := (∑ k : Fin 512, qr b k * dbr n k) * tau

/-- The read-out of row `b`: the keys weighted by the softmax of its scores. -/
def zval (b : Fin 2048) (d : Fin 512) : EReal :=
  Spec.softmaxRead (fun n => ((score qr dbr b n : ℝ) : EReal)) (fun n d => ((dbr n d : ℝ) : EReal)) d

/-- Class `c`'s logit of row `b`. -/
def logit (b : Fin 2048) (c : Fin 10000) : EReal :=
  (∑ k : Fin 512, zval qr dbr b k * ((wr c k : ℝ) : EReal)) + ((br c : ℝ) : EReal)

/-- Row `b`'s negative log-likelihood at its label. -/
def nll (b : Fin 2048) : EReal := Spec.ceRef (fun c => logit qr dbr wr br b c) (g b)

/-- The mean over the batch. -/
def result : EReal := Ideal.div (0 + ∑ b : Fin 2048, nll qr dbr wr br g b) ((2048 : ℝ) : EReal)

/-- A real matrix as an array of extended reals. -/
def arr2 {n0 n1 : ℕ} (f : Fin n0 → Fin n1 → ℝ) : (⟨2, ![n0, n1]⟩ : Shape).Idx → EReal := fun i => ((f (i 0) (i 1) : ℝ) : EReal)

/-- A real vector as an array of extended reals. -/
def arr1 {n : ℕ} (f : Fin n → ℝ) : (⟨1, ![n]⟩ : Shape).Idx → EReal := fun i => ((f (i 0) : ℝ) : EReal)

end Cert.Target

end
-- ==== Proof.Bridge.lean ====
import Idealize.ShloMosaic.PureOps.Ideal
import Idealize.ShloMosaic.Lib.ValueIdx
import Mathlib.Data.EReal.Inv
import Mathlib.Algebra.BigOperators.Fin
import Mathlib.Algebra.BigOperators.Ring.Finset
import Mathlib.Logic.Equiv.Fin.Basic
import proofs.«425831_j18433999634698_3_alg».proof.Proof.Spec
import proofs.«425831_j18433999634698_3_alg».proof.Proof.Target
import proofs.«425831_j18433999634698_3_alg».proof.Proof.Consts

noncomputable section

/-! The algebra between what the two regions of the kernel compute and the target function: the online softmax
    recurrence over the sixteen key tiles ends at the target's read-out, and a cross-entropy row over the padded
    columns is the target's loss of that row. -/
namespace Cert.Bridge
open Idealize.ShloMosaic
open scoped BigOperators

/-- key number t·2048 + k -/
def keyIx (t : Fin 16) (k : Fin 2048) : Fin 32768 := ⟨t.val * 2048 + k.val, by omega⟩

/-- (tile, key within the tile) ↦ key number is a bijection onto the 32768 keys -/
def keyEquiv : Fin 16 × Fin 2048 ≃ Fin 32768 where
  toFun p := keyIx p.1 p.2
  invFun n := (⟨n.val / 2048, by omega⟩, ⟨n.val % 2048, by omega⟩)
  left_inv p := by
    obtain ⟨t, k⟩ := p
    refine Prod.ext (Fin.ext ?_) (Fin.ext ?_)
    · show (t.val * 2048 + k.val) / 2048 = t.val
      omega
    · show (t.val * 2048 + k.val) % 2048 = k.val
      omega
  right_inv n := by
    refine Fin.ext ?_
    show n.val / 2048 * 2048 + n.val % 2048 = n.val
    omega

/-- a scaled inner product of coerced reals is the coercion of the target's score -/
theorem score_coe (qr : Fin 2048 → Fin 512 → ℝ) (dbr : Fin 32768 → Fin 512 → ℝ) (b : Fin 2048) (n : Fin 32768) :
    ∑ dd : Fin 512, (((qr b dd : ℝ) : EReal) * ((Target.tau : ℝ) : EReal)) * ((dbr n dd : ℝ) : EReal)
      = ((Target.score qr dbr b n : ℝ) : EReal) := by
  unfold Target.score
  rw [Finset.sum_mul, Spec.coe_sum]
  refine Finset.sum_congr rfl fun dd _ => ?_
  rw [← EReal.coe_mul, ← EReal.coe_mul, mul_right_comm]

/-- the online recurrence over the 16 key tiles of 2048 keys, run on the scaled queries, ends at the target's read-out -/
theorem z_bridge (qr : Fin 2048 → Fin 512 → ℝ) (dbr : Fin 32768 → Fin 512 → ℝ) (b : Fin 2048) (d : Fin 512) :
    Ideal.div ((Spec.flashState (T := 16) (K := 2048) (D := 512) (fun t k => ∑ dd : Fin 512, (((qr b dd : ℝ) : EReal) * ((Target.tau : ℝ) : EReal)) * ((dbr (keyIx t k) dd : ℝ) : EReal)) (fun t k d => ((dbr (keyIx t k) d : ℝ) : EReal)) 16).2.2 d)
              ((Spec.flashState (T := 16) (K := 2048) (D := 512) (fun t k => ∑ dd : Fin 512, (((qr b dd : ℝ) : EReal) * ((Target.tau : ℝ) : EReal)) * ((dbr (keyIx t k) dd : ℝ) : EReal)) (fun t k d => ((dbr (keyIx t k) d : ℝ) : EReal)) 16).2.1)
      = Target.zval qr dbr b d := by
  have hs : (fun (t : Fin 16) (k : Fin 2048) => ∑ dd : Fin 512, (((qr b dd : ℝ) : EReal) * ((Target.tau : ℝ) : EReal)) * ((dbr (keyIx t k) dd : ℝ) : EReal))
      = fun t k => ((Target.score qr dbr b (keyEquiv (t, k)) : ℝ) : EReal) := by
    funext t k
    exact score_coe qr dbr b (keyIx t k)
  rw [hs]
  exact Spec.flash_eq_softmax (T := 16) (K := 2048) (D := 512) (by norm_num) (by norm_num) keyEquiv
    (Target.score qr dbr b) dbr d

/-- the read-out is a real number -/
theorem zval_real (qr : Fin 2048 → Fin 512 → ℝ) (dbr : Fin 32768 → Fin 512 → ℝ) (b : Fin 2048) (d : Fin 512) :
    ∃ r : ℝ, Target.zval qr dbr b d = (r : EReal) := by
  haveI : Nonempty (Fin 32768) := ⟨⟨0, by norm_num⟩⟩
  exact Spec.softmaxRead_real (Target.score qr dbr b) dbr d

/-- a column word equals the label word exactly when the column is the label -/
theorem mask_iff (labw : BitVec 32) (gv : ℕ) (hg : gv < 10000) (hl : labw.toInt = (gv : ℤ)) (c : ℕ) (hc : c < 10112) :
    BitVec.ofNat 32 c = labw ↔ c = gv := by
  have h1 : labw.toNat = gv := by
    have h2 := BitVec.toInt_eq_toNat_cond labw
    have h3 := labw.isLt
    split_ifs at h2 <;> omega
  constructor
  · intro h
    have h4 := congrArg BitVec.toNat h
    rw [BitVec.toNat_ofNat] at h4
    omega
  · intro h
    subst h
    rw [← h1, BitVec.ofNat_toNat, BitVec.setWidth_eq]

/-- a row of the kernel's cross-entropy over the 10112 padded columns (true columns: the logit; padded ones: ⊥), the
    label picked by comparing column words with the label word, is the target's loss of that row -/
theorem nll_bridge (qr : Fin 2048 → Fin 512 → ℝ) (dbr : Fin 32768 → Fin 512 → ℝ) (wr : Fin 10000 → Fin 512 → ℝ) (br : Fin 10000 → ℝ) (g : Fin 2048 → Fin 10000) (b : Fin 2048)
    (wp : Fin 10112 → Fin 512 → EReal) (bp : Fin 10112 → EReal) (labw : BitVec 32)
    (hw : ∀ (col : Fin 10112) (h : col.val < 10000) (k : Fin 512), wp col k = ((wr ⟨col.val, h⟩ k : ℝ) : EReal))
    (hb : ∀ (col : Fin 10112) (h : col.val < 10000), bp col = ((br ⟨col.val, h⟩ : ℝ) : EReal))
    (hl : labw.toInt = ((g b).val : ℤ)) :
    Spec.ceKernel (W := 10112) (fun col => if col.val < 10000 then (∑ k : Fin 512, Target.zval qr dbr b k * wp col k) + bp col else ⊥) (fun col => decide (BitVec.ofNat 32 col.val = labw))
      = Target.nll qr dbr wr br g b := by
  choose zr hzr using fun k => zval_real qr dbr b k
  -- every logit of the row is a real number
  obtain ⟨x, hx⟩ : ∃ x : Fin 10000 → ℝ, ∀ c, Target.logit qr dbr wr br b c = ((x c : ℝ) : EReal) := by
    refine ⟨fun c => (∑ k : Fin 512, zr k * wr c k) + br c, fun c => ?_⟩
    unfold Target.logit
    show _ = (((∑ k : Fin 512, zr k * wr c k) + br c : ℝ) : EReal)
    rw [EReal.coe_add, Spec.coe_sum]
    refine congrArg (fun s : EReal => s + ((br c : ℝ) : EReal)) ?_
    refine Finset.sum_congr rfl fun k _ => ?_
    rw [hzr k, EReal.coe_mul]
  -- the padded row: the real logits on the true columns, ⊥ beyond
  have hy : (fun col : Fin 10112 => if col.val < 10000 then (∑ k : Fin 512, Target.zval qr dbr b k * wp col k) + bp col else ⊥)
      = fun c : Fin 10112 => if h : c.val < 10000 then ((x ⟨c.val, h⟩ : ℝ) : EReal) else ⊥ := by
    funext col
    by_cases h : col.val < 10000
    · rw [if_pos h, dif_pos h, ← hx]
      unfold Target.logit
      rw [hb col h]
      refine congrArg (fun s : EReal => s + ((br ⟨col.val, h⟩ : ℝ) : EReal)) ?_
      refine Finset.sum_congr rfl fun k _ => ?_
      rw [hw col h k]
    · rw [if_neg h, dif_neg h]
  -- the mask of words is the mask of columns
  have hm : (fun col : Fin 10112 => decide (BitVec.ofNat 32 col.val = labw))
      = fun c : Fin 10112 => decide (c.val = (g b).val) := by
    funext col
    exact decide_eq_decide.mpr (mask_iff labw (g b).val (g b).isLt hl col.val col.isLt)
  rw [hy, hm, Spec.ce_eq (C := 10000) (W := 10112) (by norm_num) (by norm_num) x (g b)]
  unfold Target.nll
  exact congrArg (fun f : Fin 10000 → EReal => Spec.ceRef f (g b)) (funext fun c => (hx c).symm)

/-- a sum over the indices of a [2048, 1] array is the sum over its rows -/
theorem sum_rows (f : (⟨2, ![2048, 1]⟩ : Shape).Idx → EReal) :
    ∑ i : (⟨2, ![2048, 1]⟩ : Shape).Idx, f i = ∑ b : Fin 2048, f (ValueIdx.ix2 b 0) := by
  rw [ValueIdx.sum_idx2]
  refine Finset.sum_congr rfl fun a _ => ?_
  exact Fin.sum_univ_one _

end Cert.Bridge

end
-- ==== Proof.Ideal.KernelValue.lean ====
import proofs.«425831_j18433999634698_3_alg».proof.Proof.Ideal.Run
import proofs.«425831_j18433999634698_3_alg».proof.Proof.Ideal.R0Value
import proofs.«425831_j18433999634698_3_alg».proof.Proof.Ideal.R1Value
import proofs.«425831_j18433999634698_3_alg».proof.Proof.Bridge
import proofs.«425831_j18433999634698_3_alg».proof.Proof.Target
import proofs.«425831_j18433999634698_3_alg».proof.Proof.Consts
import Idealize.ShloMosaic.Lib.Pipeline.Value
import Idealize.ShloMosaic.Lib.StableHlo.Run
import Idealize.ShloMosaic.Lib.KernelVsHost
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! # The value the main function's result buffer ends with

The fold of buffer contents through the main function, read at the extended reals: the host prefix scales the
queries by the temperature and pads the classifier's weights and bias; region 0 leaves the softmax read-out of the
keys; region 1 leaves each row's cross-entropy at its label; the host tail takes the mean. On real inputs that is
the target function. -/

section Value
variable (m : (ℓ : Loc nD τ sig) → Buf (Elt Ideal) ℓ) (ρ : Dev nD → PrngReg)

/-! ## The arguments as launched, as typed arrays -/

/-- the queries -/
abbrev argQ (c : Dev nD) : Vec Ideal S2048x512 .f32 := m ((c : Thread nD τ).loc main_arg0)
/-- the keys -/
abbrev argDb (c : Dev nD) : Vec Ideal S32768x512 .f32 := m ((c : Thread nD τ).loc main_arg1)
/-- the labels -/
abbrev argLab (c : Dev nD) : Vec Ideal S2048x1 .i32 := m ((c : Thread nD τ).loc main_arg2)
/-- the classifier's weights -/
abbrev argW (c : Dev nD) : Vec Ideal S10000x512 .f32 := m ((c : Thread nD τ).loc main_arg3)
/-- the classifier's bias -/
abbrev argB (c : Dev nD) : Vec Ideal S10000 .f32 := m ((c : Thread nD τ).loc main_arg4)

/-! ## The host prefix: what the two regions enter with -/

open Idealize.ShloMosaic.StableHlo in
/-- The scaled queries are the first argument times the broadcast temperature word. -/
theorem V5_v4 (c : Dev nD) :
    V5 (F := Ideal) m ρ c main_v4
      = mulf (F := Ideal) (m ((c : Thread nD τ).loc main_arg0)) (broadcastInDim S2048x512 ![] bcast_S_S2048x512 (constant (F := Ideal) S_ .f32 0x3D3504F3#32)) := by
  show StableHlo.after hostOps0_4 (W4 m ρ c) (Proc.devRef .tc main_v4) = _
  after_results

/-- … read at an index: the query entry times the temperature. -/
theorem V5_v4_apply (c : Dev nD) (i : S2048x512.Idx) :
    V5 (F := Ideal) m ρ c main_v4 i = argQ m c i * ((Target.tau : ℝ) : EReal) := by
  rw [V5_v4]
  show argQ m c i * broadcastInDim S2048x512 ![] bcast_S_S2048x512 (constant (F := Ideal) S_ .f32 0x3D3504F3#32) i = _
  rw [broadcastInDim_apply _ bcast_S_S2048x512 (constant (F := Ideal) S_ .f32 0x3D3504F3#32) i (fun a => a.elim0) (fun a => a.elim0)]
  show _ * Ideal.ofBits .f32 0x3D3504F3#32 = _
  rw [Consts.ofBits_tau]
  rfl

/-- The keys enter region 0 as launched. -/
theorem V5_arg1 (c : Dev nD) : V5 (F := Ideal) m ρ c main_arg1 = m ((c : Thread nD τ).loc main_arg1) :=
  W5_launch m ρ c main_arg1 (by decide) (by decide) (by decide) (by decide) (by decide)

open Idealize.ShloMosaic.StableHlo in
/-- The classifier's weights enter region 1 padded to 10112 rows. -/
theorem V6_v0 (c : Dev nD) :
    V6 (F := Ideal) m ρ c main_v0
      = pad S10112x512 ![0, 0] ![112, 0] ![0, 0] (m ((c : Thread nD τ).loc main_arg3)) (sitofp (F := Ideal) .f32 (constantI S_ 32 0#32)) pads_S10000x512_S10112x512_01120_000 h_S_ := by
  refine (W6_of_ne m ρ c main_v0 (by decide)).trans ?_
  show StableHlo.after hostOps0_4 (W4 m ρ c) (Proc.devRef .tc main_v0) = _
  after_results <;> rfl

/-- … read at a true row: the weight entry. -/
theorem V6_v0_apply (c : Dev nD) (col : Fin 10112) (h : col.val < 10000) (k : Fin 512) :
    V6 (F := Ideal) m ρ c main_v0 (ix2 col k) = argW m c (ix2 (⟨col.val, h⟩ : Fin 10000) k) := by
  rw [V6_v0]
  exact pad_apply_of_inside _ _ _ _ _ pads_S10000x512_S10112x512_01120_000 h_S_ (ix2 col k) (ix2 (⟨col.val, h⟩ : Fin 10000) k) (fun a => match a with
    | ⟨0, _⟩ => by show col.val = 0 + col.val * (0 + 1); omega
    | ⟨1, _⟩ => by show k.val = 0 + k.val * (0 + 1); omega)

open Idealize.ShloMosaic.StableHlo in
/-- The classifier's bias enters region 1 padded to 10112 entries and reshaped to one row. -/
theorem V6_v2 (c : Dev nD) :
    V6 (F := Ideal) m ρ c main_v2
      = shapeCast S1x10112 (pad S10112 ![0] ![112] ![0] (m ((c : Thread nD τ).loc main_arg4)) (sitofp (F := Ideal) .f32 (constantI S_ 32 0#32)) pads_S10000_S10112_01120 h_S_) shapeCasts_S10112_S1x10112 := by
  refine (W6_of_ne m ρ c main_v2 (by decide)).trans ?_
  show StableHlo.after hostOps0_4 (W4 m ρ c) (Proc.devRef .tc main_v2) = _
  after_results <;> rfl

/-- … read at a true column: the bias entry. -/
theorem V6_v2_apply (c : Dev nD) (col : Fin 10112) (h : col.val < 10000) :
    V6 (F := Ideal) m ρ c main_v2 (ix2 0 col) = argB m c (ix1 (⟨col.val, h⟩ : Fin 10000)) := by
  rw [V6_v2]
  refine (shapeCast_apply _ shapeCasts_S10112_S1x10112 (ix2 0 col) (ix1 col) (by
    rewrite [Shape.rowMajor_val_one, Shape.rowMajor_val_two]
    show col.val = 0 * 10112 + col.val
    omega)).trans ?_
  exact pad_apply_of_inside _ _ _ _ _ pads_S10000_S10112_01120 h_S_ (ix1 col) (ix1 (⟨col.val, h⟩ : Fin 10000)) (fun a => match a with
    | ⟨0, _⟩ => by show col.val = 0 + col.val * (0 + 1); omega)

/-- The labels enter region 1 as launched. -/
theorem V6_arg2 (c : Dev nD) : V6 (F := Ideal) m ρ c main_arg2 = m ((c : Thread nD τ).loc main_arg2) :=
  (W6_of_ne m ρ c main_arg2 (by decide)).trans
    (W5_launch m ρ c main_arg2 (by decide) (by decide) (by decide) (by decide) (by decide))

/-! ## The host tail: the mean of the per-row losses -/

open Idealize.ShloMosaic.StableHlo in
/-- The result buffer ends at the quotient of the losses' sum by the batch-size word. -/
theorem W8_v8 (c : Dev nD) :
    W8 (F := Ideal) m ρ c (Proc.devRef .tc main_v8)
      = Host.divf (F := Ideal) (Host.reduceAdd (F := Ideal) (W7 (F := Ideal) m ρ c (Proc.devRef .tc main_v6)) (constant (F := Ideal) S_ .f32 0x00000000#32) reducesTo_S2048x1_S_d0_1 h_S_) (constant (F := Ideal) S_ .f32 0x45000000#32) := by
  show StableHlo.after hostOps2 (W7 m ρ c) (Proc.devRef .tc main_v8) = _
  after_results

/-- … and that quotient, for any column of losses, is the mean: zero plus the sum over the rows, over 2048. -/
theorem tail_value (y : Vec Ideal S2048x1 .f32) (i : S_.Idx) :
    Host.divf (F := Ideal) (Host.reduceAdd (F := Ideal) y (constant (F := Ideal) S_ .f32 0x00000000#32) reducesTo_S2048x1_S_d0_1 h_S_) (constant (F := Ideal) S_ .f32 0x45000000#32) i
      = Ideal.div (0 + ∑ b : Fin 2048, y (ix2 b 0)) ((2048 : ℝ) : EReal) := by
  have hr : Host.reduceAdd (F := Ideal) y (constant (F := Ideal) S_ .f32 0x00000000#32) reducesTo_S2048x1_S_d0_1 h_S_ i
      = 0 + ∑ b : Fin 2048, y (ix2 b 0) := by
    simp only [Host.reduceAdd, Ideal.hostReduceAdd_def]
    refine (Ideal.hostReduceAdd_total reducesTo_S2048x1_S_d0_1 (fun b => b.elim0) y _ i).trans ?_
    rw [Bridge.sum_rows]
    exact congrArg (fun z : EReal => z + ∑ b : Fin 2048, y (ix2 b 0)) Consts.ofBits_zero
  show Ideal.div (Host.reduceAdd (F := Ideal) y (constant (F := Ideal) S_ .f32 0x00000000#32) reducesTo_S2048x1_S_d0_1 h_S_ i) (Ideal.ofBits .f32 0x45000000#32) = _
  rw [hr, Consts.ofBits_2048]

/-! ## Region 0: the read-out -/

/-- Region 0 leaves the online recurrence's read-out of the scaled queries against the keys. -/
theorem V6_v5 (c : Dev nD) :
    V6 (F := Ideal) m ρ c main_v5 = zK (V5 (F := Ideal) m ρ c main_v4) (V5 (F := Ideal) m ρ c main_arg1) :=
  (W6_arr m ρ c 2).trans (z_final (V5 m ρ) c)

/-- On scaled real queries and real keys the recurrence's read-out is the target's. -/
theorem zK_value (qs : Vec Ideal S2048x512 .f32) (db : Vec Ideal S32768x512 .f32)
    (qr : Fin 2048 → Fin 512 → ℝ) (dbr : Fin 32768 → Fin 512 → ℝ)
    (hq : ∀ (b : Fin 2048) (dd : Fin 512), qs (ix2 b dd) = ((qr b dd : ℝ) : EReal) * ((Target.tau : ℝ) : EReal))
    (hd : ∀ (n : Fin 32768) (d : Fin 512), db (ix2 n d) = ((dbr n d : ℝ) : EReal)) (i : S2048x512.Idx) :
    zK qs db i = Target.zval qr dbr (i 0) (i 1) := by
  rw [zK_eq]
  have hs : sK qs db (i 0)
      = fun t k => ∑ dd : Fin 512, (((qr (i 0) dd : ℝ) : EReal) * ((Target.tau : ℝ) : EReal)) * ((dbr (Bridge.keyIx t k) dd : ℝ) : EReal) := by
    funext t k
    show ∑ dd : Fin 512, qs (ix2 (i 0) dd) * db (ix2 (keyIx t k) dd) = _
    refine Finset.sum_congr rfl fun dd _ => ?_
    exact congrArg₂ (fun a b : EReal => a * b) (hq (i 0) dd) (hd (keyIx t k) dd)
  have hv : vK db = fun t k d => ((dbr (Bridge.keyIx t k) d : ℝ) : EReal) := by
    funext t k d
    exact hd (keyIx t k) d
  rw [hs, hv]
  exact Bridge.z_bridge qr dbr (i 0) (i 1)

/-! ## Region 1: the per-row losses -/

/-- Region 1 leaves, row by row, the cross-entropy of the masked logits against the label. -/
theorem W7_v6 (c : Dev nD) :
    W7 (F := Ideal) m ρ c (Proc.devRef .tc main_v6)
      = nllK (V6 (F := Ideal) m ρ c main_v5) (V6 (F := Ideal) m ρ c main_v0) (V6 (F := Ideal) m ρ c main_v2) (V6 (F := Ideal) m ρ c main_arg2) :=
  (W7_arr m ρ c 4).trans (nll_final (V6 m ρ) c)

/-- On the target's read-out, real weights and bias on the true columns, and labels below 10000, a row's loss is the
    target's. -/
theorem nllK_value (z : Vec Ideal S2048x512 .f32) (wp : Vec Ideal S10112x512 .f32) (bp : Vec Ideal S1x10112 .f32) (lab : Vec Ideal S2048x1 .i32)
    (qr : Fin 2048 → Fin 512 → ℝ) (dbr : Fin 32768 → Fin 512 → ℝ) (wr : Fin 10000 → Fin 512 → ℝ) (br : Fin 10000 → ℝ) (g : Fin 2048 → Fin 10000)
    (hz : ∀ (b : Fin 2048) (k : Fin 512), z (ix2 b k) = Target.zval qr dbr b k)
    (hw : ∀ (col : Fin 10112) (h : col.val < 10000) (k : Fin 512), wp (ix2 col k) = ((wr ⟨col.val, h⟩ k : ℝ) : EReal))
    (hb : ∀ (col : Fin 10112) (h : col.val < 10000), bp (ix2 0 col) = ((br ⟨col.val, h⟩ : ℝ) : EReal))
    (hl : ∀ b : Fin 2048, BitVec.toInt (lab (ix2 b 0)) = ((g b).val : ℤ)) (i : S2048x1.Idx) :
    nllK z wp bp lab i = Target.nll qr dbr wr br g (i 0) := by
  unfold nllK
  have hy : (fun col : Fin 10112 => if col.val < 10000 then (∑ k : Fin 512, z (ix2 (i 0) k) * wp (ix2 col k)) + bp (ix2 0 col) else ⊥)
      = fun col : Fin 10112 => if col.val < 10000 then (∑ k : Fin 512, Target.zval qr dbr (i 0) k * wp (ix2 col k)) + bp (ix2 0 col) else ⊥ := by
    funext col
    refine congrArg (fun s : EReal => if col.val < 10000 then s + bp (ix2 0 col) else ⊥) ?_
    exact Finset.sum_congr rfl fun k _ => congrArg (fun a : EReal => a * wp (ix2 col k)) (hz (i 0) k)
  rw [hy]
  exact Bridge.nll_bridge qr dbr wr br g (i 0) (fun col k => wp (ix2 col k)) (fun col => bp (ix2 0 col)) (lab (ix2 (i 0) 0)) hw hb (hl (i 0))

/-! ## The whole: the result buffer ends at the target function -/

/-- From real queries, keys, weights and bias and labels below 10000, the result buffer ends holding the target
    function's value. -/
theorem kernel_value (c : Dev nD)
    (qr : Fin 2048 → Fin 512 → ℝ) (dbr : Fin 32768 → Fin 512 → ℝ) (wr : Fin 10000 → Fin 512 → ℝ) (br : Fin 10000 → ℝ) (g : Fin 2048 → Fin 10000)
    (h0 : m ((c : Thread nD τ).loc main_arg0) = Target.arr2 qr) (h1 : m ((c : Thread nD τ).loc main_arg1) = Target.arr2 dbr)
    (h3 : m ((c : Thread nD τ).loc main_arg3) = Target.arr2 wr) (h4 : m ((c : Thread nD τ).loc main_arg4) = Target.arr1 br)
    (hg : ∀ b : Fin 2048, (m ((c : Thread nD τ).loc main_arg2) (ValueIdx.ix2 b 0)).toInt = ((g b).val : ℤ)) :
    W8 (F := Ideal) m ρ c (Proc.devRef .tc main_v8) = fun _ => Target.result qr dbr wr br g := by
  have hq : ∀ (b : Fin 2048) (dd : Fin 512), V5 (F := Ideal) m ρ c main_v4 (ix2 b dd) = ((qr b dd : ℝ) : EReal) * ((Target.tau : ℝ) : EReal) := fun b dd => by
    rw [V5_v4_apply, show argQ m c = Target.arr2 qr from h0]
    rfl
  have hd : ∀ (n : Fin 32768) (d : Fin 512), V5 (F := Ideal) m ρ c main_arg1 (ix2 n d) = ((dbr n d : ℝ) : EReal) := fun n d => by
    rw [V5_arg1, h1]
    rfl
  have hz : ∀ (b : Fin 2048) (k : Fin 512), V6 (F := Ideal) m ρ c main_v5 (ix2 b k) = Target.zval qr dbr b k := fun b k => by
    rw [V6_v5]
    exact zK_value _ _ qr dbr hq hd (ix2 b k)
  have hw : ∀ (col : Fin 10112) (h : col.val < 10000) (k : Fin 512), V6 (F := Ideal) m ρ c main_v0 (ix2 col k) = ((wr ⟨col.val, h⟩ k : ℝ) : EReal) := fun col h k => by
    rw [V6_v0_apply m ρ c col h k, show argW m c = Target.arr2 wr from h3]
    rfl
  have hb : ∀ (col : Fin 10112) (h : col.val < 10000), V6 (F := Ideal) m ρ c main_v2 (ix2 0 col) = ((br ⟨col.val, h⟩ : ℝ) : EReal) := fun col h => by
    rw [V6_v2_apply m ρ c col h, show argB m c = Target.arr1 br from h4]
    rfl
  have hl : ∀ b : Fin 2048, BitVec.toInt (V6 (F := Ideal) m ρ c main_arg2 (ix2 b 0)) = ((g b).val : ℤ) := fun b => by
    rw [V6_arg2]
    exact hg b
  rw [W8_v8]
  funext i
  refine (tail_value _ i).trans ?_
  unfold Target.result
  refine congrArg (fun s : EReal => Ideal.div (0 + s) ((2048 : ℝ) : EReal)) ?_
  refine Finset.sum_congr rfl fun b _ => ?_
  rw [W7_v6]
  exact nllK_value _ _ _ _ qr dbr wr br g hz hw hb hl (ix2 b 0)

end Value

end Cert.KernelIdeal.Hand

end
-- ==== Proof.RefValue.lean ====
import proofs.«425831_j18433999634698_3_alg».proof.Proof.RefRun
import proofs.«425831_j18433999634698_3_alg».proof.Proof.RefRead
import proofs.«425831_j18433999634698_3_alg».proof.Proof.Target
import proofs.«425831_j18433999634698_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

/-! The reference program's result, read stage by stage at real inputs, is the target function: the scaled scores,
    their softmax read-out of the keys, the classifier's logits, the log-softmax gathered at each row's label and
    negated, and the mean over the batch. -/
namespace Cert.ReferenceIdeal.RefValue

open Cert Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx
open scoped BigOperators

/-! ## Generic facts: a row maximum, a conjunction of ones, signed comparisons of a small natural, rank-1 sums -/

/-- The reduced index b of a rank-2 array with coordinate k put back on axis 1 is (b, k). -/
theorem lift_axis1 {n0 n1 : ℕ} (h : (⟨2, ![n0, n1]⟩ : Shape).Reduces [1] (⟨1, ![n0]⟩ : Shape)) (b : Fin n0)
    (k : Fin ((⟨2, ![n0, n1]⟩ : Shape).size 1)) : h.lift (ix1 b) k = ix2 b (⟨k.val, k.isLt⟩ : Fin n1) := by
  funext c; apply Fin.ext
  fin_cases c <;> rfl

/-- A maximum-reduce along axis 1 of a rank-2 array, at row b, is the fold of max over the row from the initial
    value's element. -/
theorem hostReduce_max_row {n0 n1 : ℕ} (x : (⟨2, ![n0, n1]⟩ : Shape).Idx → EReal) (init : (⟨0, ![]⟩ : Shape).Idx → EReal)
    (h' : (⟨2, ![n0, n1]⟩ : Shape).ReducesTo [1] (⟨1, ![n0]⟩ : Shape))
    (h : (⟨2, ![n0, n1]⟩ : Shape).Reduces [1] (⟨1, ![n0]⟩ : Shape)) (hu : 0 < (⟨0, ![]⟩ : Shape).numel) (b : Fin n0)
    (f : Fin n1 → EReal) (hf : ∀ k : Fin n1, x (ix2 b k) = f k) :
    Host.reduce (FloatOps.maximumf (F := Ideal) (φ := .f32)) x init h' hu (ix1 b)
      = (Finset.univ : Finset (Fin n1)).fold max (init (Shape.Idx.first hu)) f := by
  rw [Host.reduce_eq_fold_single (FloatOps.maximumf (F := Ideal) (φ := .f32)) x init h' h hu]
  have e : (x ∘ h.lift (ix1 b)) = f := funext fun k => (congrArg x (lift_axis1 h b k)).trans (hf _)
  exact congrArg (fun f => Finset.fold max (init (Shape.Idx.first hu)) f (Finset.univ : Finset (Fin n1))) e

/-- The conjunction of ones, from one, is one. -/
theorem fold_andi_one {ι : Type} [DecidableEq ι] (s : Finset ι) (f : ι → BitVec 1) (hf : ∀ k, f k = 1#1) :
    s.fold IntOp.andi 1#1 f = 1#1 := by
  induction s using Finset.induction_on with
  | empty => rfl
  | insert a s ha ih => rw [Finset.fold_insert ha, ih, hf]; rfl

/-- A word whose signed value is a natural is not below zero. -/
theorem slt_zero_of_nat (x : BitVec 32) (v : ℕ) (hx : x.toInt = (v : ℤ)) : IntOp.cmpi .slt x 0#32 = 0#1 := by
  have h : x.slt 0#32 = false := by
    rw [BitVec.slt_eq_decide, hx, BitVec.toInt_zero]
    exact decide_eq_false (by omega)
  show BitVec.ofBool (x.slt 0#32) = 0#1
  rw [h]; rfl

/-- A word whose signed value is a natural is at least zero. -/
theorem sge_zero_of_nat (x : BitVec 32) (v : ℕ) (hx : x.toInt = (v : ℤ)) : IntOp.cmpi .sge x 0#32 = 1#1 := by
  have h : (0#32 : BitVec 32).sle x = true := by
    rw [BitVec.sle_eq_decide, hx, BitVec.toInt_zero]
    exact decide_eq_true (by omega)
  show BitVec.ofBool ((0#32 : BitVec 32).sle x) = 1#1
  rw [h]; rfl

/-- A word whose signed value is a natural below 10000 is at most 9999. -/
theorem sle_9999_of_lt (x : BitVec 32) (v : ℕ) (hx : x.toInt = (v : ℤ)) (hv : v < 10000) :
    IntOp.cmpi .sle x 9999#32 = 1#1 := by
  have h9 : (9999#32 : BitVec 32).toInt = 9999 := by decide
  have h : x.sle 9999#32 = true := by
    rw [BitVec.sle_eq_decide, hx, h9]
    exact decide_eq_true (by omega)
  show BitVec.ofBool (x.sle 9999#32) = 1#1
  rw [h]; rfl

/-- Rank-1 indices are their coordinates. -/
def idx1Equiv (n : ℕ) : Fin n ≃ (⟨1, ![n]⟩ : Shape).Idx where
  toFun := fun b => ix1 b
  invFun := fun j => j 0
  left_inv := fun b => rfl
  right_inv := fun j => (eq_ix1 j).symm

/-- Every index of a [2048, 1, 1] array is (b, 0, 0). -/
theorem idx3_eq (i : S2048x1x1.Idx) : ∃ b : Fin 2048, i = ix3 b (0 : Fin 1) (0 : Fin 1) :=
  ⟨⟨(i 0).val, (i 0).isLt⟩, funext fun a => by
    match a with
    | ⟨0, _⟩ => rfl
    | ⟨1, h⟩ => exact Fin.ext (by have h1 : (i ⟨1, h⟩).val < 1 := (i ⟨1, h⟩).isLt; show (i ⟨1, h⟩).val = 0; omega)
    | ⟨2, h⟩ => exact Fin.ext (by have h2 : (i ⟨2, h⟩).val < 1 := (i ⟨2, h⟩).isLt; show (i ⟨2, h⟩).val = 0; omega)⟩

/-! ## The float stages -/

variable (qr : Fin 2048 → Fin 512 → ℝ) (dbr : Fin 32768 → Fin 512 → ℝ) (wr : Fin 10000 → Fin 512 → ℝ)
  (br : Fin 10000 → ℝ)

/-- the scaled scores of row b as extended reals -/
abbrev sc (b : Fin 2048) : Fin 32768 → EReal := fun n => ((Target.score qr dbr b n : ℝ) : EReal)

/-- the logits of row b -/
abbrev lg (b : Fin 2048) : Fin 10000 → EReal := fun c => Target.logit qr dbr wr br b c

/-- (1) the scaled score of query b against key n -/
theorem v2_at (b : Fin 2048) (n : Fin 32768) :
    val_main_v2 (F := Ideal) (Target.arr2 qr) (Target.arr2 dbr) (ix2 b n) = ((Target.score qr dbr b n : ℝ) : EReal) := by
  rw [val_main_v2_apply, val_main_v0_apply, val_main_v1_apply, val_main_cst_apply]
  have hs : (∑ k : Fin 512, Target.arr2 qr (lidx_main_v0 (ix2 b n) k) * Target.arr2 dbr (ridx_main_v0 (ix2 b n) k) : EReal)
      = ((∑ k : Fin 512, qr b k * dbr n k : ℝ) : EReal) := by
    rw [Spec.coe_sum]
    refine Finset.sum_congr rfl fun k _ => ?_
    rw [EReal.coe_mul]
    rfl
  unfold Target.score Target.tau
  rw [EReal.coe_mul]
  exact congrArg₂ (fun x y : EReal => x * y) hs Consts.ofBits_tau

/-- the row maximum of the scores, from the bottom element -/
theorem v5_at (b : Fin 2048) :
    val_main_v5 (F := Ideal) (Target.arr2 qr) (Target.arr2 dbr) (ix1 b)
      = max ⊥ ((Finset.univ : Finset (Fin 32768)).fold max ⊥ (sc qr dbr b)) := by
  rw [val_main_v5_apply, val_main_v4_apply, val_main_cst_1_apply]
  refine congrArg₂ (fun x y : EReal => max x y) Consts.ofBits_neg_inf ?_
  refine (hostReduce_max_row (val_main_v2 (F := Ideal) (Target.arr2 qr) (Target.arr2 dbr)) (val_main_cst_0 (F := Ideal))
    reducesTo_S2048x32768_S2048_d1 (by decide) h_S_ b (sc qr dbr b) (fun k => v2_at qr dbr b k)).trans ?_
  exact congrArg (fun z : EReal => Finset.fold max z (sc qr dbr b) (Finset.univ : Finset (Fin 32768))) Consts.ofBits_neg_inf

/-- the exponential of the shifted score -/
theorem v9_at (b : Fin 2048) (n : Fin 32768) :
    val_main_v9 (F := Ideal) (Target.arr2 qr) (Target.arr2 dbr) (ix2 b n)
      = Ideal.exp (sc qr dbr b n - max ⊥ ((Finset.univ : Finset (Fin 32768)).fold max ⊥ (sc qr dbr b))) := by
  rw [val_main_v9_apply, val_main_v8_apply, val_main_v7_apply, val_main_v6_apply]
  have e : idx_main_v6 (idx_main_v7 (ix2 b n)) = ix1 b := funext fun a => by
    match a with
    | ⟨0, _⟩ => rfl
  rw [e, v5_at, v2_at]
  exact Ideal.hostUnary_exp_def _

/-- the softmax denominator of row b -/
theorem v10_at (b : Fin 2048) :
    val_main_v10 (F := Ideal) (Target.arr2 qr) (Target.arr2 dbr) (ix1 b)
      = 0 + ∑ n' : Fin 32768, Ideal.exp (sc qr dbr b n' - max ⊥ ((Finset.univ : Finset (Fin 32768)).fold max ⊥ (sc qr dbr b))) := by
  rw [val_main_v10_apply, val_main_cst_2_apply]
  refine congrArg₂ (fun x y : EReal => x + y) Consts.ofBits_zero (Finset.sum_congr rfl fun k _ => ?_)
  have e : idx_main_v10 (ix1 b) k = ix2 b k := funext fun a => by
    match a with
    | ⟨0, _⟩ => rfl
    | ⟨1, _⟩ => rfl
  rw [e, v9_at]

/-- the softmax weight of key n in row b -/
theorem v13_at (b : Fin 2048) (n : Fin 32768) :
    val_main_v13 (F := Ideal) (Target.arr2 qr) (Target.arr2 dbr) (ix2 b n)
      = Ideal.div (Ideal.exp (sc qr dbr b n - max ⊥ ((Finset.univ : Finset (Fin 32768)).fold max ⊥ (sc qr dbr b))))
          (0 + ∑ n' : Fin 32768, Ideal.exp (sc qr dbr b n' - max ⊥ ((Finset.univ : Finset (Fin 32768)).fold max ⊥ (sc qr dbr b)))) := by
  rw [val_main_v13_apply, val_main_v12_apply, val_main_v11_apply]
  have e : idx_main_v11 (idx_main_v12 (ix2 b n)) = ix1 b := funext fun a => by
    match a with
    | ⟨0, _⟩ => rfl
  rw [e, v10_at, v9_at]
  rfl

/-- (2) the read-out -/
theorem v14_at (b : Fin 2048) (d : Fin 512) :
    val_main_v14 (F := Ideal) (Target.arr2 qr) (Target.arr2 dbr) (ix2 b d) = Target.zval qr dbr b d := by
  rw [val_main_v14_apply]
  unfold Target.zval Spec.softmaxRead
  refine Finset.sum_congr rfl fun n _ => ?_
  have el : lidx_main_v14 (ix2 b d) n = ix2 b n := funext fun a => by
    match a with
    | ⟨0, _⟩ => rfl
    | ⟨1, _⟩ => rfl
  have er : ridx_main_v14 (ix2 b d) n = ix2 n d := funext fun a => by
    match a with
    | ⟨0, _⟩ => rfl
    | ⟨1, _⟩ => rfl
  rw [el, er, v13_at]
  rfl

/-- (3) the logits -/
theorem v18_at (b : Fin 2048) (c : Fin 10000) :
    val_main_v18 (F := Ideal) (Target.arr2 qr) (Target.arr2 dbr) (Target.arr2 wr) (Target.arr1 br) (ix2 b c)
      = Target.logit qr dbr wr br b c := by
  rw [val_main_v18_apply, val_main_v15_apply, val_main_v17_apply, val_main_v16_apply]
  unfold Target.logit
  refine congrArg₂ (fun x y : EReal => x + y) (Finset.sum_congr rfl fun k _ => ?_) rfl
  have el : lidx_main_v15 (ix2 b c) k = ix2 b k := funext fun a => by
    match a with
    | ⟨0, _⟩ => rfl
    | ⟨1, _⟩ => rfl
  rw [el, v14_at]
  rfl

/-- the row maximum of the logits, from the bottom element -/
theorem call0_v2_at (b : Fin 2048) :
    val_main_call0_v2 (F := Ideal) (Target.arr2 qr) (Target.arr2 dbr) (Target.arr2 wr) (Target.arr1 br) (ix1 b)
      = max ⊥ ((Finset.univ : Finset (Fin 10000)).fold max ⊥ (lg qr dbr wr br b)) := by
  rw [val_main_call0_v2_apply, val_main_call0_v1_apply, val_main_call0_cst_0_apply]
  refine congrArg₂ (fun x y : EReal => max x y) Consts.ofBits_neg_inf ?_
  refine (hostReduce_max_row (val_main_v18 (F := Ideal) (Target.arr2 qr) (Target.arr2 dbr) (Target.arr2 wr) (Target.arr1 br))
    (val_main_call0_cst (F := Ideal)) reducesTo_S2048x10000_S2048_d1 (by decide) h_S_ b (lg qr dbr wr br b)
    (fun k => v18_at qr dbr wr br b k)).trans ?_
  exact congrArg (fun z : EReal => Finset.fold max z (lg qr dbr wr br b) (Finset.univ : Finset (Fin 10000))) Consts.ofBits_neg_inf

/-- the shifted logit -/
theorem call0_v5_at (b : Fin 2048) (c : Fin 10000) :
    val_main_call0_v5 (F := Ideal) (Target.arr2 qr) (Target.arr2 dbr) (Target.arr2 wr) (Target.arr1 br) (ix2 b c)
      = lg qr dbr wr br b c - max ⊥ ((Finset.univ : Finset (Fin 10000)).fold max ⊥ (lg qr dbr wr br b)) := by
  rw [val_main_call0_v5_apply, val_main_call0_v4_apply, val_main_call0_v3_apply]
  have e : idx_main_call0_v3 (idx_main_call0_v4 (ix2 b c)) = ix1 b := funext fun a => by
    match a with
    | ⟨0, _⟩ => rfl
  rw [e, call0_v2_at, v18_at]
  rfl

/-- the log-softmax denominator of row b -/
theorem call0_v7_at (b : Fin 2048) :
    val_main_call0_v7 (F := Ideal) (Target.arr2 qr) (Target.arr2 dbr) (Target.arr2 wr) (Target.arr1 br) (ix1 b)
      = 0 + ∑ c' : Fin 10000, Ideal.exp (lg qr dbr wr br b c' - max ⊥ ((Finset.univ : Finset (Fin 10000)).fold max ⊥ (lg qr dbr wr br b))) := by
  rw [val_main_call0_v7_apply, val_main_call0_cst_1_apply]
  refine congrArg₂ (fun x y : EReal => x + y) Consts.ofBits_zero (Finset.sum_congr rfl fun k _ => ?_)
  have e : idx_main_call0_v7 (ix1 b) k = ix2 b k := funext fun a => by
    match a with
    | ⟨0, _⟩ => rfl
    | ⟨1, _⟩ => rfl
  rw [e, val_main_call0_v6_apply, call0_v5_at]
  exact Ideal.hostUnary_exp_def _

/-- (4a) the log-softmax of the logits -/
theorem v20_at (b : Fin 2048) (c : Fin 10000) :
    val_main_v20 (F := Ideal) (Target.arr2 qr) (Target.arr2 dbr) (Target.arr2 wr) (Target.arr1 br) (ix2 b c)
      = (lg qr dbr wr br b c - max ⊥ ((Finset.univ : Finset (Fin 10000)).fold max ⊥ (lg qr dbr wr br b)))
        - Ideal.log (0 + ∑ c' : Fin 10000, Ideal.exp (lg qr dbr wr br b c' - max ⊥ ((Finset.univ : Finset (Fin 10000)).fold max ⊥ (lg qr dbr wr br b)))) := by
  rw [val_main_v20_apply, val_main_call0_v10_apply, val_main_call0_v9_apply, val_main_call0_v8_apply]
  have e : idx_main_call0_v8 (idx_main_call0_v10 (ix2 b c)) = ix1 b := funext fun a => by
    match a with
    | ⟨0, _⟩ => rfl
  rw [e, call0_v7_at, call0_v5_at, Ideal.hostUnary_log_def, Ideal.subf_def]

/-! ## The label stages: the label is in range, so the gather reads the label's column and the mask is all ones -/

section Labels
variable (lab : (⟨S2048x1, .i32⟩ : BufTy).Contents (Elt Ideal)) (g : Fin 2048 → Fin 10000)
  (hg : ∀ b : Fin 2048, (lab (ix2 b 0)).toInt = ((g b).val : ℤ))

/-- the label column, flattened and restored, is itself -/
theorem v21_at (b : Fin 2048) : val_main_v21 (F := Ideal) lab (ix2 b 0) = lab (ix2 b 0) := by
  rw [val_main_v21_apply, val_main_v19_apply]
  refine congrArg lab (funext fun a => ?_)
  match a with
  | ⟨0, _⟩ => exact Fin.ext (Nat.div_one _)
  | ⟨1, _⟩ => rfl

include hg

/-- a label is not negative, so it is not wrapped -/
theorem call1_v4_at (b : Fin 2048) : val_main_call1_v4 (F := Ideal) lab (ix2 b 0) = lab (ix2 b 0) := by
  rw [val_main_call1_v4_apply, val_main_call1_v1_apply, val_main_call1_v0_apply, val_main_call1_c_apply, v21_at,
    slt_zero_of_nat _ _ (hg b)]
  exact select_zero _ _

/-- the start indices at (b, 0, 0) are row b's label -/
theorem call1_v5_at (b : Fin 2048) :
    val_main_call1_v5 (F := Ideal) lab (ix3 b (0 : Fin 1) (0 : Fin 1)) = lab (ix2 b 0) := by
  rw [val_main_call1_v5_apply]
  have e : idx_main_call1_v5 (ix3 b (0 : Fin 1) (0 : Fin 1)) = ix2 b 0 := funext fun a => by
    match a with
    | ⟨0, _⟩ => exact Fin.ext (by show ((b.val * 1 + 0) * 1 + 0) / 1 = b.val; omega)
    | ⟨1, _⟩ => rfl
  rw [e, call1_v4_at lab g hg]

/-- the in-range mask is one everywhere -/
theorem call1_v11_at (b : Fin 2048) :
    val_main_call1_v11 (F := Ideal) lab (ix3 b (0 : Fin 1) (0 : Fin 1)) = 1#1 := by
  rw [val_main_call1_v11_apply, val_main_call1_v7_apply, val_main_call1_v10_apply, val_main_call1_v6_apply,
    val_main_call1_c_2_apply, val_main_call1_v9_apply, val_main_call1_v8_apply, val_main_call1_c_1_apply,
    call1_v5_at lab g hg, sge_zero_of_nat _ _ (hg b), sle_9999_of_lt _ _ (hg b) (g b).isLt]
  rfl

/-- the in-range mask is one at every index -/
theorem call1_v11_all (i : S2048x1x1.Idx) : val_main_call1_v11 (F := Ideal) lab i = 1#1 := by
  obtain ⟨b, rfl⟩ := idx3_eq i
  exact call1_v11_at lab g hg b

/-- the mask reduced over its last axis is one -/
theorem call1_v12_at (b : Fin 2048) : val_main_call1_v12 (F := Ideal) lab (ix2 b 0) = 1#1 := by
  unfold val_main_call1_v12
  rw [Host.reduce_eq_fold_single IntOp.andi _ _ reducesTo_S2048x1x1_S2048x1_d2 (by decide) h_S_]
  exact fold_andi_one _ _ fun k => call1_v11_all lab g hg _

/-- (4b) the gather reads row b of the log-softmax at column g b -/
theorem call1_v13_at (b : Fin 2048) :
    val_main_call1_v13 (F := Ideal) (Target.arr2 qr) (Target.arr2 dbr) lab (Target.arr2 wr) (Target.arr1 br) (ix2 b 0)
      = val_main_v20 (F := Ideal) (Target.arr2 qr) (Target.arr2 dbr) (Target.arr2 wr) (Target.arr1 br) (ix2 b (g b)) := by
  unfold val_main_call1_v13 Host.gather
  refine congrArg (val_main_v20 (F := Ideal) (Target.arr2 qr) (Target.arr2 dbr) (Target.arr2 wr) (Target.arr1 br)) (funext fun a => ?_)
  refine Fin.ext ?_
  show gather_S2048x10000_S2048x1x1_S2048x1_n_1_0_0_1_2_11.start (ix2 b 0) (val_main_call1_v5 (F := Ideal) lab) a
      + gather_S2048x10000_S2048x1x1_S2048x1_n_1_0_0_1_2_11.batchCoord (ix2 b 0) a
      + gather_S2048x10000_S2048x1x1_S2048x1_n_1_0_0_1_2_11.offCoord (ix2 b 0) a = (ix2 b (g b) a).val
  match a with
  | ⟨0, h0⟩ =>
    have hb : (⟨0, h0⟩ : Fin S2048x10000.rank) ∈ gather_S2048x10000_S2048x1x1_S2048x1_n_1_0_0_1_2_11.operandBatchingDims :=
      List.mem_singleton.mpr rfl
    rw [GatherDims.start_batching _ _ _ _ hb,
      GatherDims.offCoord_eq_zero _ _ _ (fun h => ((GatherDims.mem_sKept _ _).mp h).2 hb), Nat.add_zero, Nat.zero_add]
    unfold GatherDims.batchCoord
    rw [dif_pos hb]
    rfl
  | ⟨1, h1⟩ =>
    have hnb : (⟨1, h1⟩ : Fin S2048x10000.rank) ∉ gather_S2048x10000_S2048x1x1_S2048x1_n_1_0_0_1_2_11.operandBatchingDims :=
      fun h => absurd (congrArg Fin.val (List.mem_singleton.mp h)) Nat.one_ne_zero
    have hc : (⟨1, h1⟩ : Fin S2048x10000.rank) ∈ gather_S2048x10000_S2048x1x1_S2048x1_n_1_0_0_1_2_11.collapsedSliceDims :=
      List.mem_singleton.mpr rfl
    have hm : (⟨1, h1⟩ : Fin S2048x10000.rank) ∈ gather_S2048x10000_S2048x1x1_S2048x1_n_1_0_0_1_2_11.startIndexMap :=
      List.mem_singleton.mpr rfl
    rw [GatherDims.batchCoord_eq_zero _ _ _ hnb,
      GatherDims.offCoord_eq_zero _ _ _ (fun h => ((GatherDims.mem_sKept _ _).mp h).1 hc)]
    unfold GatherDims.start
    rw [dif_pos hm]
    have hsi : ∀ c, gather_S2048x10000_S2048x1x1_S2048x1_n_1_0_0_1_2_11.siIdx (ix2 b 0) c = ix3 b (0 : Fin 1) (0 : Fin 1) := fun c =>
      funext fun e => Fin.ext (by
        match e with
        | ⟨0, _⟩ => rfl
        | ⟨1, _⟩ => rfl
        | ⟨2, _⟩ => have hc1 : c.val < 1 := c.isLt; show c.val = 0; omega)
    rw [hsi, call1_v5_at lab g hg, hg b]
    have hlt : (g b).val < 10000 := (g b).isLt
    show min ((((g b).val : ℕ) : ℤ)).toNat (10000 - 1) + 0 + 0 = (g b).val
    omega

/-- the gathered entry is kept: row b's log-softmax at its label -/
theorem v22_at (b : Fin 2048) :
    val_main_v22 (F := Ideal) (Target.arr2 qr) (Target.arr2 dbr) lab (Target.arr2 wr) (Target.arr1 br) (ix2 b 0)
      = val_main_v20 (F := Ideal) (Target.arr2 qr) (Target.arr2 dbr) (Target.arr2 wr) (Target.arr1 br) (ix2 b (g b)) := by
  rw [val_main_v22_apply, call1_v12_at lab g hg, call1_v13_at qr dbr wr br lab g hg]
  exact select_one _ _

/-- (4) the negative log-likelihood of row b -/
theorem v24_at (b : Fin 2048) :
    val_main_v24 (F := Ideal) (Target.arr2 qr) (Target.arr2 dbr) lab (Target.arr2 wr) (Target.arr1 br) (ix1 b)
      = Target.nll qr dbr wr br g b := by
  rw [val_main_v24_apply, val_main_v23_apply]
  have e : idx_main_v23 (ix1 b) = ix2 b 0 := funext fun a => by
    match a with
    | ⟨0, _⟩ => exact Fin.ext (Nat.div_one _)
    | ⟨1, _⟩ => rfl
  rw [e, v22_at qr dbr wr br lab g hg, v20_at]
  unfold Target.nll Spec.ceRef
  rfl

/-- (5) the reference is the target function -/
theorem ref_eq :
    Cert.ReferenceIdeal.ReadP.val_main_v26 (F := Ideal) (Target.arr2 qr) (Target.arr2 dbr) lab (Target.arr2 wr) (Target.arr1 br)
      = fun _ => Target.result qr dbr wr br g := by
  funext i
  have hs : (∑ j : S2048.Idx, val_main_v24 (F := Ideal) (Target.arr2 qr) (Target.arr2 dbr) lab (Target.arr2 wr) (Target.arr1 br) j)
      = ∑ b : Fin 2048, Target.nll qr dbr wr br g b := by
    rw [← Equiv.sum_comp (idx1Equiv 2048)]
    exact Finset.sum_congr rfl fun b _ => v24_at qr dbr wr br lab g hg b
  rw [val_main_v26_apply, val_main_v25_apply, val_main_cst_3_apply, val_main_cst_4_apply, hs]
  unfold Target.result
  exact congrArg₂ (fun x y : EReal => Ideal.div (x + ∑ b : Fin 2048, Target.nll qr dbr wr br g b) y) Consts.ofBits_zero Consts.ofBits_2048

end Labels

end Cert.ReferenceIdeal.RefValue

end
-- ==== Proof.Algebraic.lean ====
import proofs.«425831_j18433999634698_3_alg».proof.Defs
import proofs.«425831_j18433999634698_3_alg».proof.Proof.PreDecode
import proofs.«425831_j18433999634698_3_alg».proof.Proof.Ideal.Run
import proofs.«425831_j18433999634698_3_alg».proof.Proof.Ideal.KernelValue
import proofs.«425831_j18433999634698_3_alg».proof.Proof.RefValue
import proofs.«425831_j18433999634698_3_alg».proof.Proof.RefRun
import proofs.«425831_j18433999634698_3_alg».proof.Proof.RefRead
import proofs.«425831_j18433999634698_3_alg».proof.Proof.Target
import Idealize.ShloMosaic.Lib.ValueIdx

noncomputable section

namespace Cert.Proof

open Idealize.ShloMosaic Idealize.ShloMosaic.TcCoe Idealize.SL.Sem Idealize.ShloMosaic.ValueIdx

/-! # The idealized kernel and the idealized reference compute one function

At the extended reals, from memories that agree on the five arguments and whose float entries are real numbers and
labels class indices, both programs end with the mean over the batch of the cross-entropy, at each row's label, of
the classifier's logits of the softmax read-out: the target function of the real inputs. -/

/-- Under the precondition a device's four float arguments are arrays of real numbers and its labels are class
    indices. -/
theorem inputs_real [hKI : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (qr : Fin 2048 → Fin 512 → ℝ) (dbr : Fin 32768 → Fin 512 → ℝ) (wr : Fin 10000 → Fin 512 → ℝ) (br : Fin 10000 → ℝ)
      (g : Fin 2048 → Fin 10000),
      m ((c.tc : Thread Cert.KernelIdeal.nD Cert.KernelIdeal.τ).loc Cert.KernelIdeal.main_arg0) = Target.arr2 qr
      ∧ m ((c.tc : Thread Cert.KernelIdeal.nD Cert.KernelIdeal.τ).loc Cert.KernelIdeal.main_arg1) = Target.arr2 dbr
      ∧ m ((c.tc : Thread Cert.KernelIdeal.nD Cert.KernelIdeal.τ).loc Cert.KernelIdeal.main_arg3) = Target.arr2 wr
      ∧ m ((c.tc : Thread Cert.KernelIdeal.nD Cert.KernelIdeal.τ).loc Cert.KernelIdeal.main_arg4) = Target.arr1 br
      ∧ ∀ b : Fin 2048, ((m ((c.tc : Thread Cert.KernelIdeal.nD Cert.KernelIdeal.τ).loc Cert.KernelIdeal.main_arg2)) (ix2 b 0)).toInt = ((g b).val : ℤ) := by
  obtain ⟨h0, h1, h3, h4, h2⟩ := Cert.PreDecode.decode _ _ _ _ _ (hpre c)
  choose f0 hf0 using h0
  choose f1 hf1 using h1
  choose f3 hf3 using h3
  choose f4 hf4 using h4
  refine ⟨fun b k => f0 (ix2 b k), fun n k => f1 (ix2 n k), fun cl k => f3 (ix2 cl k), fun cl => f4 (ix1 cl),
    fun b => ⟨((m ((c.tc : Thread Cert.KernelIdeal.nD Cert.KernelIdeal.τ).loc Cert.KernelIdeal.main_arg2)) (ix2 b 0)).toInt.toNat, ?_⟩, ?_, ?_, ?_, ?_, ?_⟩
  · have := h2 (ix2 b 0); omega
  · funext i; exact (hf0 i).trans (congrArg (fun j => ((f0 j : ℝ) : EReal)) (eq_ix2 i))
  · funext i; exact (hf1 i).trans (congrArg (fun j => ((f1 j : ℝ) : EReal)) (eq_ix2 i))
  · funext i; exact (hf3 i).trans (congrArg (fun j => ((f3 j : ℝ) : EReal)) (eq_ix2 i))
  · funext i; exact (hf4 i).trans (congrArg (fun j => ((f4 j : ℝ) : EReal)) (eq_ix1 i))
  · intro b; exact (Int.toNat_of_nonneg (h2 (ix2 b 0)).1).symm

/-- The two programs agree: both end at the target function of the real inputs, their arguments unchanged. -/
theorem algebraic [hKI : Cert.KernelIdeal.Facts] [hRI : Cert.ReferenceIdeal.Facts] [hP : Cert.Pre_finite_inputs.Facts] :
    Cert.algebraic_KernelIdeal_ReferenceIdeal := by
  intro m ρ m' ρ' hpre hagree
  choose qr dbr wr br g h0 h1 h3 h4 hg using fun c => inputs_real m hpre c
  refine ⟨fun c _ => Target.result (qr c) (dbr c) (wr c) (br c) (g c), ?_, ?_⟩
  · exact (θ_run (Cert.KernelIdeal.defs (F := Ideal)) _ _).mono (fun r h c =>
      ⟨(h c _ (Cert.KernelIdeal.Hand.mem_uc Cert.KernelIdeal.main_v8 (by decide))).trans
          (Cert.KernelIdeal.Hand.kernel_value m ρ c (qr c) (dbr c) (wr c) (br c) (g c) (h0 c) (h1 c) (h3 c) (h4 c) (hg c)),
        (h c _ (Cert.KernelIdeal.Hand.mem_uc Cert.KernelIdeal.main_arg0 (by decide))).trans (Cert.KernelIdeal.Hand.W8_main_arg0 m ρ c),
        (h c _ (Cert.KernelIdeal.Hand.mem_uc Cert.KernelIdeal.main_arg1 (by decide))).trans (Cert.KernelIdeal.Hand.W8_main_arg1 m ρ c),
        (h c _ (Cert.KernelIdeal.Hand.mem_uc Cert.KernelIdeal.main_arg2 (by decide))).trans (Cert.KernelIdeal.Hand.W8_main_arg2 m ρ c),
        (h c _ (Cert.KernelIdeal.Hand.mem_uc Cert.KernelIdeal.main_arg3 (by decide))).trans (Cert.KernelIdeal.Hand.W8_main_arg3 m ρ c),
        (h c _ (Cert.KernelIdeal.Hand.mem_uc Cert.KernelIdeal.main_arg4 (by decide))).trans (Cert.KernelIdeal.Hand.W8_main_arg4 m ρ c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.ValueP.run (F := Ideal) m' ρ')
    rw [Cert.ReferenceIdeal.ReadP.val_main_v26_eq, (hagree c).1, (hagree c).2.1, (hagree c).2.2.1, (hagree c).2.2.2.1,
      (hagree c).2.2.2.2, h0 c, h1 c, h3 c, h4 c]
    exact Cert.ReferenceIdeal.RefValue.ref_eq (qr c) (dbr c) (wr c) (br c) _ (g c) (hg c)

/-- The idealized reference runs and leaves its arguments unchanged. -/
theorem frame_ri [hRI : Cert.ReferenceIdeal.Facts] [hP : Cert.Pre_finite_inputs.Facts] : Cert.frame_ReferenceIdeal := fun m ρ _ =>
  (θ_run (Cert.ReferenceIdeal.defs (F := Ideal)) _ _).mono (fun _ h c => (h c).2) (Cert.ReferenceIdeal.ValueP.run (F := Ideal) m ρ)

end Cert.Proof

end
-- ==== Proof.lean ====
/- The certificate's claims, assembled.

   Both programs compute one scalar: the mean over 2048 rows of the cross-entropy, at the row's label, of a linear
   classifier applied to an attention read-out (the keys weighted by the softmax of the temperature-scaled scores
   of a query against 32768 keys). The kernel computes the read-out by an online softmax over 16 key tiles — a
   running maximum, denominator and weighted sum, rescaled whenever the maximum moves — and the cross-entropy over
   10112 padded columns whose fill stands for minus infinity; the reference computes both directly. Over the reals
   the two agree: the rescaling telescopes, and a column at minus infinity adds nothing to a maximum or to a sum of
   exponentials. The precondition makes every float input a real number and every label a class index, so that
   comparing column numbers with the label picks the entry the reference gathers. -/
import proofs.«425831_j18433999634698_3_alg».proof.Defs
import proofs.«425831_j18433999634698_3_alg».proof.Proof.Gen.Kernel
import proofs.«425831_j18433999634698_3_alg».proof.Proof.Gen.KernelIdeal
import proofs.«425831_j18433999634698_3_alg».proof.Proof.Gen.ReferenceIdeal
import proofs.«425831_j18433999634698_3_alg».proof.Proof.Gen.Pre_finite_inputs
import proofs.«425831_j18433999634698_3_alg».proof.Proof.Bits.Run
import proofs.«425831_j18433999634698_3_alg».proof.Proof.Ideal.Run
import proofs.«425831_j18433999634698_3_alg».proof.Proof.Algebraic
import Idealize.ShloMosaic.Adequacy
import Idealize.ShloMosaic.Init

noncomputable section

namespace Cert.Proof

open Idealize.ShloMosaic Idealize.SL.Sem

/-- The word-level kernel runs to the end, faults nowhere, and leaves its arguments as launched. -/
theorem frame_k : Cert.frame_Kernel :=
  fun m ρ _ => Cert.Kernel.Hand.frame (F := Bits) m ρ

/-- So does its idealization. -/
theorem frame_ki : Cert.frame_KernelIdeal :=
  fun m ρ _ => Cert.KernelIdeal.Hand.frame (F := Ideal) m ρ

/-- The one rewrite of the idealization: the fill of the padded classifier columns is named minus infinity. -/
theorem preserves : Cert.preserves_Kernel_KernelIdeal :=
  IdealRules.named_const.statement Cert.KernelIdeal.κ "neg_big" .f32 0xFF333332#32 ⊥ rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
